-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x128x128 : Shape := ⟨4, ![8, 64, 128, 128]⟩
abbrev S72x64 : Shape := ⟨2, ![72, 64]⟩
abbrev S72x72 : Shape := ⟨2, ![72, 72]⟩
abbrev S72 : Shape := ⟨1, ![72]⟩
abbrev S_ : Shape := ⟨0, ![]⟩

class Facts : Prop where
  bcast_S_S8x64x128x128 : S_.BroadcastsInDim S8x64x128x128 (![] : Fin 0 → Fin S8x64x128x128.rank)
  reducesTo_S8x64x128x128_S_d0_1_2_3 : S8x64x128x128.ReducesTo [0, 1, 2, 3] S_
  h_S_ : 0 < S_.numel
  bcast_S_S72x64 : S_.BroadcastsInDim S72x64 (![] : Fin 0 → Fin S72x64.rank)
  reducesTo_S72x64_S_d0_1 : S72x64.ReducesTo [0, 1] S_
  bcast_S_S72x72 : S_.BroadcastsInDim S72x72 (![] : Fin 0 → Fin S72x72.rank)
  reducesTo_S72x72_S_d0_1 : S72x72.ReducesTo [0, 1] S_
  bcast_S_S72 : S_.BroadcastsInDim S72 (![] : Fin 0 → Fin S72.rank)
  reducesTo_S72_S_d0 : S72.ReducesTo [0] S_

variable [Facts]

def fn_part1 {F : FTy → Type} [FloatOps F] (main_arg4 : FVec F S72 .f32) (main_v13 : IVec S_ 1) (main_v16 : IVec S72 1) : IVec S_ 1 :=
  let main_c_5 : IVec S_ 1 := constantI S_ 1 1#1
  let main_v17 : IVec S_ 1 := (fun x v => Host.reduce IntOp.andi x v reducesTo_S72_S_d0 h_S_) main_v16 main_c_5
  let main_v18 : IVec S_ 1 := andi main_v13 main_v17
  let main_v19 : FVec F S72 .f32 := Host.absf main_arg4
  let main_cst_6 : FVec F S_ .f32 := constant S_ .f32 0x7F800000#32
  let main_v20 : FVec F S72 .f32 := broadcastInDim S72 ![] bcast_S_S72 main_cst_6
  let main_v21 : IVec S72 1 := cmpf .olt main_v19 main_v20
  let main_c_7 : IVec S_ 1 := constantI S_ 1 1#1
  let main_v22 : IVec S_ 1 := (fun x v => Host.reduce IntOp.andi x v reducesTo_S72_S_d0 h_S_) main_v21 main_c_7
  let main_v23 : IVec S_ 1 := andi main_v18 main_v22
  main_v23

def fn {F : FTy → Type} [FloatOps F] (main_arg0 : FVec F S8x64x128x128 .f32) (main_arg1 : FVec F S72x64 .f32) (main_arg2 : FVec F S72x72 .f32) (main_arg3 : FVec F S72 .f32) (main_arg4 : FVec F S72 .f32) : IVec S_ 1 :=
  let main_v0 : FVec F S8x64x128x128 .f32 := Host.absf main_arg0
  let main_cst : FVec F S_ .f32 := constant S_ .f32 0x7F800000#32
  let main_v1 : FVec F S8x64x128x128 .f32 := broadcastInDim S8x64x128x128 ![] bcast_S_S8x64x128x128 main_cst
  let main_v2 : IVec S8x64x128x128 1 := cmpf .olt main_v0 main_v1
  let main_c : IVec S_ 1 := constantI S_ 1 1#1
  let main_v3 : IVec S_ 1 := (fun x v => Host.reduce IntOp.andi x v reducesTo_S8x64x128x128_S_d0_1_2_3 h_S_) main_v2 main_c
  let main_v4 : FVec F S72x64 .f32 := Host.absf main_arg1
  let main_cst_0 : FVec F S_ .f32 := constant S_ .f32 0x7F800000#32
  let main_v5 : FVec F S72x64 .f32 := broadcastInDim S72x64 ![] bcast_S_S72x64 main_cst_0
  let main_v6 : IVec S72x64 1 := cmpf .olt main_v4 main_v5
  let main_c_1 : IVec S_ 1 := constantI S_ 1 1#1
  let main_v7 : IVec S_ 1 := (fun x v => Host.reduce IntOp.andi x v reducesTo_S72x64_S_d0_1 h_S_) main_v6 main_c_1
  let main_v8 : IVec S_ 1 := andi main_v3 main_v7
  let main_v9 : FVec F S72x72 .f32 := Host.absf main_arg2
  let main_cst_2 : FVec F S_ .f32 := constant S_ .f32 0x7F800000#32
  let main_v10 : FVec F S72x72 .f32 := broadcastInDim S72x72 ![] bcast_S_S72x72 main_cst_2
  let main_v11 : IVec S72x72 1 := cmpf .olt main_v9 main_v10
  let main_c_3 : IVec S_ 1 := constantI S_ 1 1#1
  let main_v12 : IVec S_ 1 := (fun x v => Host.reduce IntOp.andi x v reducesTo_S72x72_S_d0_1 h_S_) main_v11 main_c_3
  let main_v13 : IVec S_ 1 := andi main_v8 main_v12
  let main_v14 : FVec F S72 .f32 := Host.absf main_arg3
  let main_cst_4 : FVec F S_ .f32 := constant S_ .f32 0x7F800000#32
  let main_v15 : FVec F S72 .f32 := broadcastInDim S72 ![] bcast_S_S72 main_cst_4
  let main_v16 : IVec S72 1 := cmpf .olt main_v14 main_v15
  fn_part1 (F := F) main_arg4 main_v13 main_v16
-- ==== Kernel.lean ====
abbrev S8x64x128x128 : Shape := ⟨4, ![8, 64, 128, 128]⟩
abbrev S72x64 : Shape := ⟨2, ![72, 64]⟩
abbrev S72x72 : Shape := ⟨2, ![72, 72]⟩
abbrev S72 : Shape := ⟨1, ![72]⟩
abbrev S8x64 : Shape := ⟨2, ![8, 64]⟩
abbrev S8x64x64x128 : Shape := ⟨4, ![8, 64, 64, 128]⟩
abbrev S8x64x64 : Shape := ⟨3, ![8, 64, 64]⟩
abbrev S64x72 : Shape := ⟨2, ![64, 72]⟩
abbrev S8x72 : Shape := ⟨2, ![8, 72]⟩
abbrev S_ : Shape := ⟨0, ![]⟩
abbrev S8 : Shape := ⟨1, ![8]⟩
abbrev S8x1 : Shape := ⟨2, ![8, 1]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x8x8x9 : Shape := ⟨4, ![8, 8, 8, 9]⟩
abbrev S8x64x9 : Shape := ⟨3, ![8, 64, 9]⟩
abbrev S8x64x1x128 : Shape := ⟨4, ![8, 64, 1, 128]⟩
abbrev S8x64x129x128 : Shape := ⟨4, ![8, 64, 129, 128]⟩
abbrev S8x64x130x128 : Shape := ⟨4, ![8, 64, 130, 128]⟩
abbrev S8x64x130x1 : Shape := ⟨4, ![8, 64, 130, 1]⟩
abbrev S8x64x130x129 : Shape := ⟨4, ![8, 64, 130, 129]⟩
abbrev S8x64x130x130 : Shape := ⟨4, ![8, 64, 130, 130]⟩
abbrev S1x64x130x130 : Shape := ⟨4, ![1, 64, 130, 130]⟩
abbrev S1x64x9 : Shape := ⟨3, ![1, 64, 9]⟩
abbrev S1x64x128x128 : Shape := ⟨4, ![1, 64, 128, 128]⟩
abbrev S64x130x130 : Shape := ⟨3, ![64, 130, 130]⟩
abbrev S64x128x128 : Shape := ⟨3, ![64, 128, 128]⟩
abbrev S1x64x1 : Shape := ⟨3, ![1, 64, 1]⟩
abbrev S64 : Shape := ⟨1, ![64]⟩
abbrev S64x1x1 : Shape := ⟨3, ![64, 1, 1]⟩

abbrev nBuf : Space → Nat
  | .hbm => 84
  | .vmem => 12
  | .smem => 0
  | _ => 0

abbrev bufTy : (tb : Table) → Fin (tcTables nBuf tb) → BufTy
  | .hbm, ⟨0, _⟩ => ⟨S8x64x128x128, .f32⟩
  | .hbm, ⟨1, _⟩ => ⟨S72x64, .f32⟩
  | .hbm, ⟨2, _⟩ => ⟨S72x72, .f32⟩
  | .hbm, ⟨3, _⟩ => ⟨S72, .f32⟩
  | .hbm, ⟨4, _⟩ => ⟨S72, .f32⟩
  | .hbm, ⟨5, _⟩ => ⟨S8x64, .f32⟩
  | .hbm, ⟨6, _⟩ => ⟨S64x72, .f32⟩
  | .hbm, ⟨7, _⟩ => ⟨S8x72, .f32⟩
  | .hbm, ⟨8, _⟩ => ⟨S72x72, .f32⟩
  | .hbm, ⟨9, _⟩ => ⟨S8x72, .f32⟩
  | .hbm, ⟨10, _⟩ => ⟨S8x72, .f32⟩
  | .hbm, ⟨11, _⟩ => ⟨S8x72, .f32⟩
  | .hbm, ⟨12, _⟩ => ⟨S_, .f32⟩
  | .hbm, ⟨13, _⟩ => ⟨S8x72, .f32⟩
  | .hbm, ⟨14, _⟩ => ⟨S8x72, .f32⟩
  | .hbm, ⟨15, _⟩ => ⟨S_, .f32⟩
  | .hbm, ⟨16, _⟩ => ⟨S8x72, .f32⟩
  | .hbm, ⟨17, _⟩ => ⟨S8x72, .f32⟩
  | .hbm, ⟨18, _⟩ => ⟨S8x72, .f32⟩
  | .hbm, ⟨19, _⟩ => ⟨S_, .f32⟩
  | .hbm, ⟨20, _⟩ => ⟨S8, .f32⟩
  | .hbm, ⟨21, _⟩ => ⟨S8x1, .f32⟩
  | .hbm, ⟨22, _⟩ => ⟨S_, .f32⟩
  | .hbm, ⟨23, _⟩ => ⟨S8x1, .f32⟩
  | .hbm, ⟨24, _⟩ => ⟨S8x1, .f32⟩
  | .hbm, ⟨25, _⟩ => ⟨S8x72, .f32⟩
  | .hbm, ⟨26, _⟩ => ⟨S8x72, .f32⟩
  | .hbm, ⟨27, _⟩ => ⟨S8x72, .f32⟩
  | .hbm, ⟨28, _⟩ => ⟨S_, .f32⟩
  | .hbm, ⟨29, _⟩ => ⟨S8, .f32⟩
  | .hbm, ⟨30, _⟩ => ⟨S8x1, .f32⟩
  | .hbm, ⟨31, _⟩ => ⟨S_, .f32⟩
  | .hbm, ⟨32, _⟩ => ⟨S8x1, .f32⟩
  | .hbm, ⟨33, _⟩ => ⟨S8x1, .f32⟩
  | .hbm, ⟨34, _⟩ => ⟨S8x72, .f32⟩
  | .hbm, ⟨35, _⟩ => ⟨S8x72, .f32⟩
  | .hbm, ⟨36, _⟩ => ⟨S_, .f32⟩
  | .hbm, ⟨37, _⟩ => ⟨S8x1, .f32⟩
  | .hbm, ⟨38, _⟩ => ⟨S8x1, .f32⟩
  | .hbm, ⟨39, _⟩ => ⟨S8x1, .f32⟩
  | .hbm, ⟨40, _⟩ => ⟨S8x72, .f32⟩
  | .hbm, ⟨41, _⟩ => ⟨S8x72, .f32⟩
  | .hbm, ⟨42, _⟩ => ⟨S1x72, .f32⟩
  | .hbm, ⟨43, _⟩ => ⟨S8x72, .f32⟩
  | .hbm, ⟨44, _⟩ => ⟨S8x72, .f32⟩
  | .hbm, ⟨45, _⟩ => ⟨S1x72, .f32⟩
  | .hbm, ⟨46, _⟩ => ⟨S8x72, .f32⟩
  | .hbm, ⟨47, _⟩ => ⟨S8x72, .f32⟩
  | .hbm, ⟨48, _⟩ => ⟨S8x8x9, .f32⟩
  | .hbm, ⟨49, _⟩ => ⟨S_, .f32⟩
  | .hbm, ⟨50, _⟩ => ⟨S8x8, .f32⟩
  | .hbm, ⟨51, _⟩ => ⟨S_, .f32⟩
  | .hbm, ⟨52, _⟩ => ⟨S8x8, .f32⟩
  | .hbm, ⟨53, _⟩ => ⟨S8x8, .f32⟩
  | .hbm, ⟨54, _⟩ => ⟨S8x8x1, .f32⟩
  | .hbm, ⟨55, _⟩ => ⟨S8x8x9, .f32⟩
  | .hbm, ⟨56, _⟩ => ⟨S8x8x9, .f32⟩
  | .hbm, ⟨57, _⟩ => ⟨S8x8x9, .f32⟩
  | .hbm, ⟨58, _⟩ => ⟨S_, .f32⟩
  | .hbm, ⟨59, _⟩ => ⟨S8x8, .f32⟩
  | .hbm, ⟨60, _⟩ => ⟨S8x8x1, .f32⟩
  | .hbm, ⟨61, _⟩ => ⟨S8x8x9, .f32⟩
  | .hbm, ⟨62, _⟩ => ⟨S8x8x9, .f32⟩
  | .hbm, ⟨63, _⟩ => ⟨S8x8x8x9, .f32⟩
  | .hbm, ⟨64, _⟩ => ⟨S8x64x9, .f32⟩
  | .hbm, ⟨65, _⟩ => ⟨S_, .i32⟩
  | .hbm, ⟨66, _⟩ => ⟨S8x64x1x128, .f32⟩
  | .hbm, ⟨67, _⟩ => ⟨S8x64x1x128, .f32⟩
  | .hbm, ⟨68, _⟩ => ⟨S8x64x1x128, .f32⟩
  | .hbm, ⟨69, _⟩ => ⟨S8x64x129x128, .f32⟩
  | .hbm, ⟨70, _⟩ => ⟨S8x64x1x128, .f32⟩
  | .hbm, ⟨71, _⟩ => ⟨S8x64x1x128, .f32⟩
  | .hbm, ⟨72, _⟩ => ⟨S8x64x1x128, .f32⟩
  | .hbm, ⟨73, _⟩ => ⟨S8x64x130x128, .f32⟩
  | .hbm, ⟨74, _⟩ => ⟨S8x64x130x1, .f32⟩
  | .hbm, ⟨75, _⟩ => ⟨S8x64x130x1, .f32⟩
  | .hbm, ⟨76, _⟩ => ⟨S8x64x130x1, .f32⟩
  | .hbm, ⟨77, _⟩ => ⟨S8x64x130x129, .f32⟩
  | .hbm, ⟨78, _⟩ => ⟨S8x64x130x1, .f32⟩
  | .hbm, ⟨79, _⟩ => ⟨S8x64x130x1, .f32⟩
  | .hbm, ⟨80, _⟩ => ⟨S8x64x130x1, .f32⟩
  | .hbm, ⟨81, _⟩ => ⟨S8x64x130x130, .f32⟩
  | .hbm, ⟨82, _⟩ => ⟨S8x64x128x128, .f32⟩
  | .hbm, ⟨83, _⟩ => ⟨S8x64x128x128, .f32⟩
  | .local _ .vmem, ⟨0, _⟩ => ⟨S8x64x64x128, .f32⟩
  | .local _ .vmem, ⟨1, _⟩ => ⟨S8x64x64x128, .f32⟩
  | .local _ .vmem, ⟨2, _⟩ => ⟨S8x64, .f32⟩
  | .local _ .vmem, ⟨3, _⟩ => ⟨S8x64, .f32⟩
  | .local _ .vmem, ⟨4, _⟩ => ⟨S1x64x130x130, .f32⟩
  | .local _ .vmem, ⟨5, _⟩ => ⟨S1x64x130x130, .f32⟩
  | .local _ .vmem, ⟨6, _⟩ => ⟨S1x64x9, .f32⟩
  | .local _ .vmem, ⟨7, _⟩ => ⟨S1x64x9, .f32⟩
  | .local _ .vmem, ⟨8, _⟩ => ⟨S1x64x128x128, .f32⟩
  | .local _ .vmem, ⟨9, _⟩ => ⟨S1x64x128x128, .f32⟩
  | .local _ .vmem, ⟨10, _⟩ => ⟨S1x64x128x128, .f32⟩
  | .local _ .vmem, ⟨11, _⟩ => ⟨S1x64x128x128, .f32⟩
  | _, _ => ⟨S8x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_v50 : Ref sig .tc := ⟨.hbm, 81, rfl⟩
abbrev main_v51_0 : Ref sig .tc := ⟨.hbm, 82, rfl⟩
abbrev main_v51_1 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v11 : BitVec 1 := Scalar.cmpi .eq arg0 c1_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x64x130x130 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x64x9 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x64x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x64x128_S8x64x64x128_0_0_0_0 : ∀ a, (![0, 0, 0, 0] : Fin 4 → Nat) a + S8x64x64x128.size a ≤ S8x64x64x128.size a
  h_S8x64x64x128 : 0 < S8x64x64x128.numel
  reduces_S8x64x64x128_S8x64x64 : S8x64x64x128.Reduces [3] S8x64x64
  reduces_S8x64x64_S8x64 : S8x64x64.Reduces [2] S8x64
  transposes_S72x64_S64x72_1_0 : S72x64.Transposes [1, 0] S64x72
  transposes_S72x72_S72x72_1_0 : S72x72.Transposes [1, 0] S72x72
  bcast_S_S8x72 : S_.BroadcastsInDim S8x72 (![] : Fin 0 → Fin S8x72.rank)
  reducesTo_S8x72_S8_d1 : S8x72.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x72_0_1 : S8x1.BroadcastsInDim S8x72 (![0, 1] : Fin 2 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  shapeCasts_S8x72_S8x8x9 : S8x72.ShapeCasts S8x8x9
  reducesTo_S8x8x9_S8x8_d2 : S8x8x9.ReducesTo [2] S8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  bcast_S8x8x9_S8x8x8x9_0_1_3 : S8x8x9.BroadcastsInDim S8x8x8x9 (![0, 1, 3] : Fin 3 → Fin S8x8x8x9.rank)
  shapeCasts_S8x8x8x9_S8x64x9 : S8x8x8x9.ShapeCasts S8x64x9
  slices_S8x64x128x128_S8x64x1x128_0_0_0_0 : S8x64x128x128.Slices ![0, 0, 0, 0] S8x64x1x128
  slices_S8x64x128x128_S8x64x1x128_0_0_1_0 : S8x64x128x128.Slices ![0, 0, 1, 0] S8x64x1x128
  concatenates_S8x64x1x128_S8x64x128x128_S8x64x129x128_d2 : Shape.Concatenates [S8x64x1x128, S8x64x128x128] S8x64x129x128 2
  slices_S8x64x129x128_S8x64x1x128_0_0_128_0 : S8x64x129x128.Slices ![0, 0, 128, 0] S8x64x1x128
  slices_S8x64x129x128_S8x64x1x128_0_0_127_0 : S8x64x129x128.Slices ![0, 0, 127, 0] S8x64x1x128
  concatenates_S8x64x129x128_S8x64x1x128_S8x64x130x128_d2 : Shape.Concatenates [S8x64x129x128, S8x64x1x128] S8x64x130x128 2
  slices_S8x64x130x128_S8x64x130x1_0_0_0_0 : S8x64x130x128.Slices ![0, 0, 0, 0] S8x64x130x1
  slices_S8x64x130x128_S8x64x130x1_0_0_0_1 : S8x64x130x128.Slices ![0, 0, 0, 1] S8x64x130x1
  concatenates_S8x64x130x1_S8x64x130x128_S8x64x130x129_d3 : Shape.Concatenates [S8x64x130x1, S8x64x130x128] S8x64x130x129 3
  slices_S8x64x130x129_S8x64x130x1_0_0_0_128 : S8x64x130x129.Slices ![0, 0, 0, 128] S8x64x130x1
  slices_S8x64x130x129_S8x64x130x1_0_0_0_127 : S8x64x130x129.Slices ![0, 0, 0, 127] S8x64x130x1
  concatenates_S8x64x130x129_S8x64x130x1_S8x64x130x130_d3 : Shape.Concatenates [S8x64x130x129, S8x64x130x1] S8x64x130x130 3
  inb_S1x64x130x130_S1x64x130x130_0_0_0_0 : ∀ a, (![0, 0, 0, 0] : Fin 4 → Nat) a + S1x64x130x130.size a ≤ S1x64x130x130.size a
  h_S1x64x130x130 : 0 < S1x64x130x130.numel
  shapeCasts_S1x64x130x130_S64x130x130 : S1x64x130x130.ShapeCasts S64x130x130
  slices_S64x130x130_o0_1_1_S64x128x128 : S64x130x130.Slices ![0, 1, 1] S64x128x128
  slices_S64x130x130_o0_0_0_S64x128x128 : S64x130x130.Slices ![0, 0, 0] S64x128x128
  inb_S1x64x9_S1x64x1_0_0_0 : ∀ a, (![0, 0, 0] : Fin 3 → Nat) a + S1x64x1.size a ≤ S1x64x9.size a
  h_S1x64x1 : 0 < S1x64x1.numel
  shapeCasts_S1x64x1_S64 : S1x64x1.ShapeCasts S64
  shapeCasts_S64_S64x1x1 : S64.ShapeCasts S64x1x1
  broadcasts_S64x1x1_S64x128x128 : S64x1x1.Broadcasts S64x128x128
  slices_S64x130x130_o0_0_1_S64x128x128 : S64x130x130.Slices ![0, 0, 1] S64x128x128
  inb_S1x64x9_S1x64x1_0_0_1 : ∀ a, (![0, 0, 1] : Fin 3 → Nat) a + S1x64x1.size a ≤ S1x64x9.size a
  slices_S64x130x130_o0_0_2_S64x128x128 : S64x130x130.Slices ![0, 0, 2] S64x128x128
  inb_S1x64x9_S1x64x1_0_0_2 : ∀ a, (![0, 0, 2] : Fin 3 → Nat) a + S1x64x1.size a ≤ S1x64x9.size a
  slices_S64x130x130_o0_1_0_S64x128x128 : S64x130x130.Slices ![0, 1, 0] S64x128x128
  inb_S1x64x9_S1x64x1_0_0_3 : ∀ a, (![0, 0, 3] : Fin 3 → Nat) a + S1x64x1.size a ≤ S1x64x9.size a
  inb_S1x64x9_S1x64x1_0_0_4 : ∀ a, (![0, 0, 4] : Fin 3 → Nat) a + S1x64x1.size a ≤ S1x64x9.size a
  slices_S64x130x130_o0_1_2_S64x128x128 : S64x130x130.Slices ![0, 1, 2] S64x128x128
  inb_S1x64x9_S1x64x1_0_0_5 : ∀ a, (![0, 0, 5] : Fin 3 → Nat) a + S1x64x1.size a ≤ S1x64x9.size a
  slices_S64x130x130_o0_2_0_S64x128x128 : S64x130x130.Slices ![0, 2, 0] S64x128x128
  inb_S1x64x9_S1x64x1_0_0_6 : ∀ a, (![0, 0, 6] : Fin 3 → Nat) a + S1x64x1.size a ≤ S1x64x9.size a
  slices_S64x130x130_o0_2_1_S64x128x128 : S64x130x130.Slices ![0, 2, 1] S64x128x128
  inb_S1x64x9_S1x64x1_0_0_7 : ∀ a, (![0, 0, 7] : Fin 3 → Nat) a + S1x64x1.size a ≤ S1x64x9.size a
  slices_S64x130x130_o0_2_2_S64x128x128 : S64x130x130.Slices ![0, 2, 2] S64x128x128
  inb_S1x64x9_S1x64x1_0_0_8 : ∀ a, (![0, 0, 8] : Fin 3 → Nat) a + S1x64x1.size a ≤ S1x64x9.size a
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S8x64_S64x72_S8x72_1_0_0_1_n_n_wf : DotDims.WF S8x64 S64x72 S8x72 [1] [0] [0] [1] [] []
  dot_S8x72_S72x72_S8x72_1_0_0_1_n_n_wf : DotDims.WF S8x72 S72x72 S8x72 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x64x128.size a ≤ S8x64x128x128.size a
  hwx0_0 : ∀ i : grid0.Coords, EltTy.bits .f32 = 32 ∨ (Rect.block (s := S8x64x128x128) S8x64x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x130x130.size a ≤ S8x64x130x130.size a
  hwx1_0 : ∀ i : grid1.Coords, EltTy.bits .f32 = 32 ∨ (Rect.block (s := S8x64x130x130) S1x64x130x130.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x9.size a ≤ S8x64x9.size a
  hwx1_1 : ∀ i : grid1.Coords, EltTy.bits .f32 = 32 ∨ (Rect.block (s := S8x64x9) S1x64x9.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x128x128.size a ≤ S8x64x128x128.size a
  hwx1_2 : ∀ i : grid1.Coords, EltTy.bits .f32 = 32 ∨ (Rect.block (s := S8x64x128x128) S1x64x128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x64x128x128.size a ≤ S8x64x128x128.size a
  hwx1_3 : ∀ i : grid1.Coords, EltTy.bits .f32 = 32 ∨ (Rect.block (s := S8x64x128x128) S1x64x128x128.size (cc1_transform_3 i) (hinb1_3 i)).WholeWords (EltTy.packing .f32)

variable [Facts₀]

def dot_S8x64_S64x72_S8x72_1_0_0_1_n_n : DotDims S8x64 S64x72 S8x72 where
  lhsContracting := [1]
  rhsContracting := [0]
  lhsNonContracting := [0]
  rhsNonContracting := [1]
  lhsBatch := []
  rhsBatch := []
  wf := dot_S8x64_S64x72_S8x72_1_0_0_1_n_n_wf
def dot_S8x72_S72x72_S8x72_1_0_0_1_n_n : DotDims S8x72 S72x72 S8x72 where
  lhsContracting := [1]
  rhsContracting := [0]
  lhsNonContracting := [0]
  rhsNonContracting := [1]
  lhsBatch := []
  rhsBatch := []
  wf := dot_S8x72_S72x72_S8x72_1_0_0_1_n_n_wf

abbrev win0_0 : Pipeline.Window sig grid0 :=
  Pipeline.Window.ofSpec (Memref.whole main_arg0) S8x64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x64.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v50) S1x64x130x130.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x64x9.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51_0) S1x64x128x128.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v51_1) S1x64x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x64x128x128 : Shape := ⟨4, ![8, 64, 128, 128]⟩
abbrev S72x64 : Shape := ⟨2, ![72, 64]⟩
abbrev S72x72 : Shape := ⟨2, ![72, 72]⟩
abbrev S72 : Shape := ⟨1, ![72]⟩
abbrev S_ : Shape := ⟨0, ![]⟩
abbrev S8x64 : Shape := ⟨2, ![8, 64]⟩
abbrev S64x72 : Shape := ⟨2, ![64, 72]⟩
abbrev S8x72 : Shape := ⟨2, ![8, 72]⟩
abbrev S8 : Shape := ⟨1, ![8]⟩
abbrev S8x1 : Shape := ⟨2, ![8, 1]⟩
abbrev S1x72 : Shape := ⟨2, ![1, 72]⟩
abbrev S8x8x9 : Shape := ⟨3, ![8, 8, 9]⟩
abbrev S8x8 : Shape := ⟨2, ![8, 8]⟩
abbrev S8x8x1 : Shape := ⟨3, ![8, 8, 1]⟩
abbrev S8x8x8x9 : Shape := ⟨4, ![8, 8, 8, 9]⟩
abbrev S8x64x9 : Shape := ⟨3, ![8, 64, 9]⟩
abbrev S8x64x1x128 : Shape := ⟨4, ![8, 64, 1, 128]⟩
abbrev S8x64x129x128 : Shape := ⟨4, ![8, 64, 129, 128]⟩
abbrev S8x64x130x128 : Shape := ⟨4, ![8, 64, 130, 128]⟩
abbrev S8x64x130x1 : Shape := ⟨4, ![8, 64, 130, 1]⟩
abbrev S8x64x130x129 : Shape := ⟨4, ![8, 64, 130, 129]⟩
abbrev S8x64x130x130 : Shape := ⟨4, ![8, 64, 130, 130]⟩
abbrev S8x64x1 : Shape := ⟨3, ![8, 64, 1]⟩
abbrev S8x64x1x1 : Shape := ⟨4, ![8, 64, 1, 1]⟩

abbrev nBuf : Space → Nat
  | .hbm => 152
  | .vmem => 0
  | .smem => 0
  | _ => 0

abbrev hbmTy0_0 (i : Nat) : BufTy := match i % 128 with
  | 0 => ⟨S8x64x128x128, .f32⟩
  | 1 => ⟨S72x64, .f32⟩
  | 2 => ⟨S72x72, .f32⟩
  | 3 => ⟨S72, .f32⟩
  | 4 => ⟨S72, .f32⟩
  | 5 => ⟨S_, .f32⟩
  | 6 => ⟨S8x64, .f32⟩
  | 7 => ⟨S_, .f32⟩
  | 8 => ⟨S8x64, .f32⟩
  | 9 => ⟨S8x64, .f32⟩
  | 10 => ⟨S64x72, .f32⟩
  | 11 => ⟨S8x72, .f32⟩
  | 12 => ⟨S72x72, .f32⟩
  | 13 => ⟨S8x72, .f32⟩
  | 14 => ⟨S8x72, .f32⟩
  | 15 => ⟨S8x72, .f32⟩
  | 16 => ⟨S_, .f32⟩
  | 17 => ⟨S8x72, .f32⟩
  | 18 => ⟨S8x72, .f32⟩
  | 19 => ⟨S_, .f32⟩
  | 20 => ⟨S8x72, .f32⟩
  | 21 => ⟨S8x72, .f32⟩
  | 22 => ⟨S8x72, .f32⟩
  | 23 => ⟨S_, .f32⟩
  | 24 => ⟨S8, .f32⟩
  | 25 => ⟨S8x1, .f32⟩
  | 26 => ⟨S_, .f32⟩
  | 27 => ⟨S8x1, .f32⟩
  | 28 => ⟨S8x1, .f32⟩
  | 29 => ⟨S8x72, .f32⟩
  | 30 => ⟨S8x72, .f32⟩
  | 31 => ⟨S8x72, .f32⟩
  | 32 => ⟨S_, .f32⟩
  | 33 => ⟨S8, .f32⟩
  | 34 => ⟨S8x1, .f32⟩
  | 35 => ⟨S_, .f32⟩
  | 36 => ⟨S8x1, .f32⟩
  | 37 => ⟨S8x1, .f32⟩
  | 38 => ⟨S8x72, .f32⟩
  | 39 => ⟨S8x72, .f32⟩
  | 40 => ⟨S_, .f32⟩
  | 41 => ⟨S8x1, .f32⟩
  | 42 => ⟨S8x1, .f32⟩
  | 43 => ⟨S8x1, .f32⟩
  | 44 => ⟨S8x72, .f32⟩
  | 45 => ⟨S8x72, .f32⟩
  | 46 => ⟨S1x72, .f32⟩
  | 47 => ⟨S8x72, .f32⟩
  | 48 => ⟨S8x72, .f32⟩
  | 49 => ⟨S1x72, .f32⟩
  | 50 => ⟨S8x72, .f32⟩
  | 51 => ⟨S8x72, .f32⟩
  | 52 => ⟨S8x8x9, .f32⟩
  | 53 => ⟨S_, .f32⟩
  | 54 => ⟨S8x8, .f32⟩
  | 55 => ⟨S_, .f32⟩
  | 56 => ⟨S8x8, .f32⟩
  | 57 => ⟨S8x8, .f32⟩
  | 58 => ⟨S8x8x1, .f32⟩
  | 59 => ⟨S8x8x9, .f32⟩
  | 60 => ⟨S8x8x9, .f32⟩
  | 61 => ⟨S8x8x9, .f32⟩
  | 62 => ⟨S_, .f32⟩
  | 63 => ⟨S8x8, .f32⟩
  | 64 => ⟨S8x8x1, .f32⟩
  | 65 => ⟨S8x8x9, .f32⟩
  | 66 => ⟨S8x8x9, .f32⟩
  | 67 => ⟨S8x8x8x9, .f32⟩
  | 68 => ⟨S8x64x9, .f32⟩
  | 69 => ⟨S_, .i32⟩
  | 70 => ⟨S8x64x1x128, .f32⟩
  | 71 => ⟨S8x64x1x128, .f32⟩
  | 72 => ⟨S8x64x1x128, .f32⟩
  | 73 => ⟨S8x64x129x128, .f32⟩
  | 74 => ⟨S8x64x1x128, .f32⟩
  | 75 => ⟨S8x64x1x128, .f32⟩
  | 76 => ⟨S8x64x1x128, .f32⟩
  | 77 => ⟨S8x64x130x128, .f32⟩
  | 78 => ⟨S8x64x130x1, .f32⟩
  | 79 => ⟨S8x64x130x1, .f32⟩
  | 80 => ⟨S8x64x130x1, .f32⟩
  | 81 => ⟨S8x64x130x129, .f32⟩
  | 82 => ⟨S8x64x130x1, .f32⟩
  | 83 => ⟨S8x64x130x1, .f32⟩
  | 84 => ⟨S8x64x130x1, .f32⟩
  | 85 => ⟨S8x64x130x130, .f32⟩
  | 86 => ⟨S_, .f32⟩
  | 87 => ⟨S8x64x128x128, .f32⟩
  | 88 => ⟨S8x64x128x128, .f32⟩
  | 89 => ⟨S8x64x1, .f32⟩
  | 90 => ⟨S8x64, .f32⟩
  | 91 => ⟨S8x64x1x1, .f32⟩
  | 92 => ⟨S8x64x128x128, .f32⟩
  | 93 => ⟨S8x64x128x128, .f32⟩
  | 94 => ⟨S8x64x128x128, .f32⟩
  | 95 => ⟨S8x64x128x128, .f32⟩
  | 96 => ⟨S8x64x1, .f32⟩
  | 97 => ⟨S8x64, .f32⟩
  | 98 => ⟨S8x64x1x1, .f32⟩
  | 99 => ⟨S8x64x128x128, .f32⟩
  | 100 => ⟨S8x64x128x128, .f32⟩
  | 101 => ⟨S8x64x128x128, .f32⟩
  | 102 => ⟨S8x64x128x128, .f32⟩
  | 103 => ⟨S8x64x1, .f32⟩
  | 104 => ⟨S8x64, .f32⟩
  | 105 => ⟨S8x64x1x1, .f32⟩
  | 106 => ⟨S8x64x128x128, .f32⟩
  | 107 => ⟨S8x64x128x128, .f32⟩
  | 108 => ⟨S8x64x128x128, .f32⟩
  | 109 => ⟨S8x64x128x128, .f32⟩
  | 110 => ⟨S8x64x1, .f32⟩
  | 111 => ⟨S8x64, .f32⟩
  | 112 => ⟨S8x64x1x1, .f32⟩
  | 113 => ⟨S8x64x128x128, .f32⟩
  | 114 => ⟨S8x64x128x128, .f32⟩
  | 115 => ⟨S8x64x128x128, .f32⟩
  | 116 => ⟨S8x64x128x128, .f32⟩
  | 117 => ⟨S8x64x1, .f32⟩
  | 118 => ⟨S8x64, .f32⟩
  | 119 => ⟨S8x64x1x1, .f32⟩
  | 120 => ⟨S8x64x128x128, .f32⟩
  | 121 => ⟨S8x64x128x128, .f32⟩
  | 122 => ⟨S8x64x128x128, .f32⟩
  | 123 => ⟨S8x64x128x128, .f32⟩
  | 124 => ⟨S8x64x1, .f32⟩
  | 125 => ⟨S8x64, .f32⟩
  | 126 => ⟨S8x64x1x1, .f32⟩
  | 127 => ⟨S8x64x128x128, .f32⟩
  | _ => ⟨S8x64x128x128, .f32⟩

abbrev hbmTy0_1 (i : Nat) : BufTy := match i % 128 with
  | 0 => ⟨S8x64x128x128, .f32⟩
  | 1 => ⟨S8x64x128x128, .f32⟩
  | 2 => ⟨S8x64x128x128, .f32⟩
  | 3 => ⟨S8x64x1, .f32⟩
  | 4 => ⟨S8x64, .f32⟩
  | 5 => ⟨S8x64x1x1, .f32⟩
  | 6 => ⟨S8x64x128x128, .f32⟩
  | 7 => ⟨S8x64x128x128, .f32⟩
  | 8 => ⟨S8x64x128x128, .f32⟩
  | 9 => ⟨S8x64x128x128, .f32⟩
  | 10 => ⟨S8x64x1, .f32⟩
  | 11 => ⟨S8x64, .f32⟩
  | 12 => ⟨S8x64x1x1, .f32⟩
  | 13 => ⟨S8x64x128x128, .f32⟩
  | 14 => ⟨S8x64x128x128, .f32⟩
  | 15 => ⟨S8x64x128x128, .f32⟩
  | 16 => ⟨S8x64x128x128, .f32⟩
  | 17 => ⟨S8x64x1, .f32⟩
  | 18 => ⟨S8x64, .f32⟩
  | 19 => ⟨S8x64x1x1, .f32⟩
  | 20 => ⟨S8x64x128x128, .f32⟩
  | 21 => ⟨S8x64x128x128, .f32⟩
  | 22 => ⟨S8x64x128x128, .f32⟩
  | 23 => ⟨S8x64x128x128, .f32⟩
  | _ => ⟨S8x64x128x128, .f32⟩

abbrev hbmTy (i : Nat) : BufTy := match i / 128 with
  | 0 => hbmTy0_0 i
  | 1 => hbmTy0_1 i
  | _ => ⟨S8x64x128x128, .f32⟩

abbrev bufTy : (tb : Table) → Fin (tcTables nBuf tb) → BufTy
  | .hbm, ⟨i, _⟩ => hbmTy i
  | _, _ => ⟨S8x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩

abbrev nD : Nat := 1
abbrev τ : Topo := Topo.v7x

variable {F : FTy → Type} [FloatOps F]

class Facts₀ : Prop where
  reducesTo_S8x64x128x128_S8x64_d2_3 : S8x64x128x128.ReducesTo [2, 3] S8x64
  h_S_ : 0 < S_.numel
  bcast_S_S8x64 : S_.BroadcastsInDim S8x64 (![] : Fin 0 → Fin S8x64.rank)
  transposes_S72x64_S64x72_1_0 : S72x64.Transposes [1, 0] S64x72
  transposes_S72x72_S72x72_1_0 : S72x72.Transposes [1, 0] S72x72
  bcast_S_S8x72 : S_.BroadcastsInDim S8x72 (![] : Fin 0 → Fin S8x72.rank)
  reducesTo_S8x72_S8_d1 : S8x72.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x72_0_1 : S8x1.BroadcastsInDim S8x72 (![0, 1] : Fin 2 → Fin S8x72.rank)
  bcast_S72_S1x72_1 : S72.BroadcastsInDim S1x72 (![1] : Fin 1 → Fin S1x72.rank)
  bcast_S1x72_S8x72_0_1 : S1x72.BroadcastsInDim S8x72 (![0, 1] : Fin 2 → Fin S8x72.rank)
  shapeCasts_S8x72_S8x8x9 : S8x72.ShapeCasts S8x8x9
  reducesTo_S8x8x9_S8x8_d2 : S8x8x9.ReducesTo [2] S8x8
  bcast_S_S8x8 : S_.BroadcastsInDim S8x8 (![] : Fin 0 → Fin S8x8.rank)
  bcast_S8x8_S8x8x1_0_1 : S8x8.BroadcastsInDim S8x8x1 (![0, 1] : Fin 2 → Fin S8x8x1.rank)
  bcast_S8x8x1_S8x8x9_0_1_2 : S8x8x1.BroadcastsInDim S8x8x9 (![0, 1, 2] : Fin 3 → Fin S8x8x9.rank)
  bcast_S8x8x9_S8x8x8x9_0_1_3 : S8x8x9.BroadcastsInDim S8x8x8x9 (![0, 1, 3] : Fin 3 → Fin S8x8x8x9.rank)
  shapeCasts_S8x8x8x9_S8x64x9 : S8x8x8x9.ShapeCasts S8x64x9
  slices_S8x64x128x128_S8x64x1x128_0_0_0_0 : S8x64x128x128.Slices ![0, 0, 0, 0] S8x64x1x128
  slices_S8x64x128x128_S8x64x1x128_0_0_1_0 : S8x64x128x128.Slices ![0, 0, 1, 0] S8x64x1x128
  concatenates_S8x64x1x128_S8x64x128x128_S8x64x129x128_d2 : Shape.Concatenates [S8x64x1x128, S8x64x128x128] S8x64x129x128 2
  slices_S8x64x129x128_S8x64x1x128_0_0_128_0 : S8x64x129x128.Slices ![0, 0, 128, 0] S8x64x1x128
  slices_S8x64x129x128_S8x64x1x128_0_0_127_0 : S8x64x129x128.Slices ![0, 0, 127, 0] S8x64x1x128
  concatenates_S8x64x129x128_S8x64x1x128_S8x64x130x128_d2 : Shape.Concatenates [S8x64x129x128, S8x64x1x128] S8x64x130x128 2
  slices_S8x64x130x128_S8x64x130x1_0_0_0_0 : S8x64x130x128.Slices ![0, 0, 0, 0] S8x64x130x1
  slices_S8x64x130x128_S8x64x130x1_0_0_0_1 : S8x64x130x128.Slices ![0, 0, 0, 1] S8x64x130x1
  concatenates_S8x64x130x1_S8x64x130x128_S8x64x130x129_d3 : Shape.Concatenates [S8x64x130x1, S8x64x130x128] S8x64x130x129 3
  slices_S8x64x130x129_S8x64x130x1_0_0_0_128 : S8x64x130x129.Slices ![0, 0, 0, 128] S8x64x130x1
  slices_S8x64x130x129_S8x64x130x1_0_0_0_127 : S8x64x130x129.Slices ![0, 0, 0, 127] S8x64x130x1
  concatenates_S8x64x130x129_S8x64x130x1_S8x64x130x130_d3 : Shape.Concatenates [S8x64x130x129, S8x64x130x1] S8x64x130x130 3
  bcast_S_S8x64x128x128 : S_.BroadcastsInDim S8x64x128x128 (![] : Fin 0 → Fin S8x64x128x128.rank)
  slices_S8x64x130x130_S8x64x128x128_0_0_0_0 : S8x64x130x130.Slices ![0, 0, 0, 0] S8x64x128x128
  slices_S8x64x9_S8x64x1_0_0_0 : S8x64x9.Slices ![0, 0, 0] S8x64x1
  shapeCasts_S8x64x1_S8x64 : S8x64x1.ShapeCasts S8x64
  bcast_S8x64_S8x64x1x1_0_1 : S8x64.BroadcastsInDim S8x64x1x1 (![0, 1] : Fin 2 → Fin S8x64x1x1.rank)
  bcast_S8x64x1x1_S8x64x128x128_0_1_2_3 : S8x64x1x1.BroadcastsInDim S8x64x128x128 (![0, 1, 2, 3] : Fin 4 → Fin S8x64x128x128.rank)
  slices_S8x64x130x130_S8x64x128x128_0_0_0_1 : S8x64x130x130.Slices ![0, 0, 0, 1] S8x64x128x128
  slices_S8x64x9_S8x64x1_0_0_1 : S8x64x9.Slices ![0, 0, 1] S8x64x1
  slices_S8x64x130x130_S8x64x128x128_0_0_0_2 : S8x64x130x130.Slices ![0, 0, 0, 2] S8x64x128x128
  slices_S8x64x9_S8x64x1_0_0_2 : S8x64x9.Slices ![0, 0, 2] S8x64x1
  slices_S8x64x130x130_S8x64x128x128_0_0_1_0 : S8x64x130x130.Slices ![0, 0, 1, 0] S8x64x128x128
  slices_S8x64x9_S8x64x1_0_0_3 : S8x64x9.Slices ![0, 0, 3] S8x64x1
  slices_S8x64x130x130_S8x64x128x128_0_0_1_1 : S8x64x130x130.Slices ![0, 0, 1, 1] S8x64x128x128
  slices_S8x64x9_S8x64x1_0_0_4 : S8x64x9.Slices ![0, 0, 4] S8x64x1
  slices_S8x64x130x130_S8x64x128x128_0_0_1_2 : S8x64x130x130.Slices ![0, 0, 1, 2] S8x64x128x128
  slices_S8x64x9_S8x64x1_0_0_5 : S8x64x9.Slices ![0, 0, 5] S8x64x1
  slices_S8x64x130x130_S8x64x128x128_0_0_2_0 : S8x64x130x130.Slices ![0, 0, 2, 0] S8x64x128x128
  slices_S8x64x9_S8x64x1_0_0_6 : S8x64x9.Slices ![0, 0, 6] S8x64x1
  slices_S8x64x130x130_S8x64x128x128_0_0_2_1 : S8x64x130x130.Slices ![0, 0, 2, 1] S8x64x128x128
  slices_S8x64x9_S8x64x1_0_0_7 : S8x64x9.Slices ![0, 0, 7] S8x64x1
  slices_S8x64x130x130_S8x64x128x128_0_0_2_2 : S8x64x130x130.Slices ![0, 0, 2, 2] S8x64x128x128
  slices_S8x64x9_S8x64x1_0_0_8 : S8x64x9.Slices ![0, 0, 8] S8x64x1
  dot_S8x64_S64x72_S8x72_1_0_0_1_n_n_wf : DotDims.WF S8x64 S64x72 S8x72 [1] [0] [0] [1] [] []
  dot_S8x72_S72x72_S8x72_1_0_0_1_n_n_wf : DotDims.WF S8x72 S72x72 S8x72 [1] [0] [0] [1] [] []

variable [Facts₀]

def dot_S8x64_S64x72_S8x72_1_0_0_1_n_n : DotDims S8x64 S64x72 S8x72 where
  lhsContracting := [1]
  rhsContracting := [0]
  lhsNonContracting := [0]
  rhsNonContracting := [1]
  lhsBatch := []
  rhsBatch := []
  wf := dot_S8x64_S64x72_S8x72_1_0_0_1_n_n_wf
def dot_S8x72_S72x72_S8x72_1_0_0_1_n_n : DotDims S8x72 S72x72 S8x72 where
  lhsContracting := [1]
  rhsContracting := [0]
  lhsNonContracting := [0]
  rhsNonContracting := [1]
  lhsBatch := []
  rhsBatch := []
  wf := dot_S8x72_S72x72_S8x72_1_0_0_1_n_n_wf

class Facts : Prop extends Facts₀ where

variable [Facts]
-- ==== Proof.KB.Gap.lean ====
/- Region 0 of @main (the global-average-pool kernel, grid of two points along H) at the frame level,
   generic in the float model, at a parameter `V`: the TensorCore's buffer contents when the region is entered.

   The mathematics. The kernel keeps an [8,64] accumulator in a scratch buffer that lives across the two
   grid points. At the first point it zeroes the accumulator; at both points it adds to it the sum of the
   current [8,64,64,128] block of x over W and then over H; at the last point it stores the accumulator
   times 2^-14 into the [8,64] output block, which the pipeline writes back there and only there. -/
import proofs.«100776_j22771916603489_1_alg».proof.Proof.Gen.Kernel.Launch
import proofs.«100776_j22771916603489_1_alg».proof.Proof.Gen.Kernel.Skeleton
import proofs.«100776_j22771916603489_1_alg».proof.Proof.Gen.Kernel.Points
import Idealize.ShloMosaic.Lib.Pipeline.FrameBody
import Idealize.ShloMosaic.Lib.Pipeline.Frame
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block of x at a point, and what the accumulator and the output hold -/

/-- The H-tile `t` of x, read off its array as the region finds it. -/
def iblk0 (c : Dev nD) (t : Fin cfg0.N) : Vec F S8x64x64x128 .f32 :=
  ((cfg0.win 0).blk t).view.read (Elt F) (V c (Pipeline.arrRef spec0 0))

/-- The accumulator after the first point: zero plus the first tile's sum over W and H. -/
def acc0 (c : Dev nD) : Vec F S8x64 .f32 := k0_pay2 (iblk0 V c t0_0) k0_pay1

/-- The accumulator after the last point: the second tile's sum added. -/
def acc1 (c : Dev nD) : Vec F S8x64 .f32 := k0_pay2 (iblk0 V c t0_1) (acc0 V c)

/-- The output block: the accumulator scaled by 2^-14. -/
def gapOut (c : Dev nD) : Vec F S8x64 .f32 := k0_pay3 (acc1 V c)

/-- The accumulator after the body at position `n`. -/
def accAt (c : Dev nD) : ℕ → Vec F S8x64 .f32
  | 0 => acc0 V c
  | _ + 1 => acc1 V c

/-- The scratch accumulator as a memref. -/
abbrev scM0 : Memref sig .tc .vmem S8x64 .f32 := Memref.whole cc0_scratch0

/-- The core's scoped buffers that belong to the other region (its eight staging buffers), each whole at
    some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant at entry, with the accumulator as a memref owned at some contents. -/
theorem PhiA0_eq (c : Dev nD) :
    (Pipeline.ΦA spec0 c : sProp 𝕄)
      = iprop(iprop((∃ d, owns (c : Thread nD τ) scM0 fullShare d) ∗ otherScoped (F := F) c) ∗ (∃ r, prngReg c r)) := by
  unfold Pipeline.ΦA; rw [scopedRest0_eq]; unfold otherScoped; simp only [scM0, owns_whole]; try rfl

/-- The invariant before position `n`: at entry the class's (every scoped buffer that is no staging buffer at
    anything); afterwards the accumulator at what the point before left, the other region's buffers at
    anything, the generator register at some state. -/
def PhiS (c : Dev nD) : ℕ → sProp 𝕄
  | 0 => Pipeline.ΦA spec0 c
  | n + 1 => iprop(iprop(owns (c : Thread nD τ) scM0 fullShare (accAt V c n) ∗ otherScoped (F := F) c) ∗ (∃ r, prngReg c r))

/-! ## The proof data -/

/-- The proof data of the region on core `c`: the arrays as the region finds them; after the body the input's
    buffer at its tile and the output's at the scaled accumulator (a placeholder at the first point, where the
    window is idle and not written back); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c t
    | ⟨1, _⟩ => gapOut V c
  Φ t := PhiS V c t.val
  q _ := fullShare
  owed _ := 0

/-- The proof data's arrays are the region-entry contents, its shares full, nothing owed (the definition projected). -/
theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c t := by dsimp only [dat0]
theorem after0_1 (c : Dev nD) (t : Fin cfg0.N) : (dat0 V c).after 1 t = gapOut V c := by dsimp only [dat0]

/-! ## The body's two tests, and where the output window is idle -/

/-- The first test of the body (is this the first grid point?), from the grid coordinates. -/
abbrev isFirst (i : grid0.Coords) : Prop :=
  (Scalar.cmpi .ne (Scalar.extui (Scalar.cmpi .eq (BitVec.ofNat 32 (i 0).val) 0#32)) 0#32) = 1#1
/-- The second test of the body (is this the last grid point?). -/
abbrev isLast (i : grid0.Coords) : Prop := k0_cond2 i = 1#1

theorem isFirst_t0_0 : isFirst (grid0.coords t0_0) := by decide
theorem not_isLast_t0_0 : ¬isLast (grid0.coords t0_0) := by decide
theorem not_isFirst_t0_1 : ¬isFirst (grid0.coords t0_1) := by decide
theorem isLast_t0_1 : isLast (grid0.coords t0_1) := by decide

/-- The zero offsets of the body's whole-block accesses, as functions. -/
theorem hz2 : (![0, 0] : Fin 2 → ℕ) = fun _ => 0 := by funext a; fin_cases a <;> rfl
theorem hz4 : (![0, 0, 0, 0] : Fin 4 → ℕ) = fun _ => 0 := by funext a; fin_cases a <;> rfl

/-- The body at the first point, on whole staging memrefs: the tile's buffer at `x0`, the output's at `xi1`
    (handed back untouched: the second test fails), the accumulator at anything. The first test holds, so the
    accumulator is zeroed, read back and the tile's sum added: it ends at `k0_pay2 x0 k0_pay1`. -/
theorem gapRun_first (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole)
    (hc0 : isFirst i) (hc1 : ¬isLast i) (x0 : Vec F S8x64x64x128 .f32) (xi1 : Vec F S8x64 .f32) (E : Set ℕ) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k0_pay2 x0 (k0_pay1 (F := F)))) -∗ K ⟨⟩))
      ⊢ wp frame (wpE (defs₀ (F := F)) Variants.none c none) E (cc0__gap_kernel i arg1 harg1 arg2 harg2 arg3 harg3) K := by
  simp only [cc0__gap_kernel_eq_skeleton]; unfold cc0__gap_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  -- the last store covers the accumulator; its payload reads the tile and the zeros just stored
  sl_unfold_run_names
  rw [View.read_writes_eq_canon _ _ _ (fun y => ⟨_, List.mem_cons.mpr (Or.inl rfl), View.mem_set_unit_zero hz2 inb_S8x64_S8x64_0_0 y⟩)]
  rw [View.canon_cons_unit_zero (S := S8x64) hz2]
  simp only [View.readAt_eq_ld, harg1.read_unread, View.ld_unit_zero (S := S8x64x64x128) hz4, View.readCov_unit_zero (S := S8x64) _ hz2]

set_option maxHeartbeats 1000000 in
/-- The body at the last point: the tile's buffer at `x0`, the output's at anything, the accumulator at what the
    point before left (`xs0`). The first test fails, the second holds: the tile's sum is added to the
    accumulator, which is read back, scaled and stored into the output's buffer. -/
theorem gapRun_last (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole)
    (hc0 : ¬isFirst i) (hc1 : isLast i) (x0 : Vec F S8x64x64x128 .f32) (xs0 : Vec F S8x64 .f32) (E : Set ℕ) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k0_pay3 (k0_pay2 x0 xs0)) ∗ owns (c : Thread nD τ) arg3 fullShare (k0_pay2 x0 xs0)) -∗ K ⟨⟩))
      ⊢ wp frame (wpE (defs₀ (F := F)) Variants.none c none) E (cc0__gap_kernel i arg1 harg1 arg2 harg2 arg3 harg3) K := by
  simp only [cc0__gap_kernel_eq_skeleton]; unfold cc0__gap_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    -- the one store into the output covers it; its payload scales the accumulator read back after the update
    sl_unfold_run_names
    rw [View.read_writes_eq_canon _ _ _ (fun y => ⟨_, List.mem_cons.mpr (Or.inl rfl), View.mem_set_unit_zero hz2 inb_S8x64_S8x64_0_0 y⟩)]
    rw [View.canon_unit_zero (S := S8x64) hz2]
    simp only [View.readAt_eq_ld, harg1.read_unread, harg3.read_unread, View.ld_unit_zero (S := S8x64x64x128) hz4, View.ld_unit_zero (S := S8x64) hz2, View.readCov_unit_zero (S := S8x64) _ hz2]
  iexists _; isplitr
  swap; · iexact HS0
  ipureintro
  -- the one store into the accumulator covers it; its payload reads the tile and what the point before left
  sl_unfold_run_names
  rw [View.read_writes_eq_canon _ _ _ (fun y => ⟨_, List.mem_cons.mpr (Or.inl rfl), View.mem_set_unit_zero hz2 inb_S8x64_S8x64_0_0 y⟩)]
  rw [View.canon_unit_zero (S := S8x64) hz2]
  simp only [View.readAt_eq_ld, harg1.read_unread, harg3.read_unread, View.ld_unit_zero (S := S8x64x64x128) hz4, View.ld_unit_zero (S := S8x64) hz2]

/-! ## The body obligation -/

/-- The tile's window is never idle; the output's is idle at the first point, which does not write it back,
    and live at the last. -/
theorem liveAt0_0 : ∀ t : Fin cfg0.N, cfg0.idle 0 (grid0.coords t) = false := fun _ => rfl
theorem idleAt0_1_first : cfg0.idle 1 (grid0.coords t0_0) = true := by decide
theorem noFlush0_1_first : (cfg0.win 1).flush t0_0 = false := by decide
theorem liveAt0_1_last : cfg0.idle 1 (grid0.coords t0_1) = false := by decide

/-- The tile's current staging buffer holds the tile at every point (an input: fetched at every point). -/
theorem before0_0 (c : Dev nD) (t : Fin cfg0.N) (d) : (dat0 V c).before 0 t d = iblk0 V c t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- The body at either point: the tile's memref holds the tile; at the first point the invariant hands over the
    accumulator at anything and takes it back at the first tile's sum, the output's buffer passing through
    untouched; at the last it hands it over at that sum and takes it back with the second tile's sum added,
    the output's buffer at the scaled total. The other region's buffers, the generator register and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [liveAt0_0 t], after0_0]
  rcases fin_N0 t with rfl | rfl
  · rw [Dat.leavesExact_idle (dat0 V c) 1 t0_0 idleAt0_1_first noFlush0_1_first]
    rw [show (dat0 V c).Φ t0_0.castSucc = Pipeline.ΦA spec0 c from rfl,
      show (dat0 V c).Φ t0_0.succ = PhiS V c 1 from rfl, PhiA0_eq]
    unfold PhiS accAt acc0
    iintro ⟨⟨⟨HS0, Hr⟩, Hg⟩, Ho, ⟨%d0, H0⟩, ⟨%d1, H1⟩⟩
    iapply (gapRun_first c (grid0.coords t0_0) _ _ _ _ _ _ isFirst_t0_0 not_isLast_t0_0 (iblk0 V c t0_0) _ Set.univ _)
    isplitl [H0]; · iexact H0
    isplitl [H1]; · iexact H1
    isplitl [HS0]; · iexact HS0
    iintro ⟨H0, H1, HS0⟩
    isplitl [HS0 Hr Hg]
    · isplitl [HS0 Hr]
      · isplitl [HS0]; · iexact HS0
        iexact Hr
      iexact Hg
    isplitl [Ho]; · iexact Ho
    isplitl [H0]; · iexact H0
    iexists _; iexact H1
  · rw [show (dat0 V c).leavesExact 1 t0_1 = owns (c : Thread nD τ) (st0_1 t0_1) fullShare ((dat0 V c).after 1 t0_1) from by
      unfold Dat.leavesExact; rw [liveAt0_1_last], after0_1]
    rw [show (dat0 V c).Φ t0_1.castSucc = PhiS V c 1 from rfl,
      show (dat0 V c).Φ t0_1.succ = PhiS V c 2 from rfl]
    unfold PhiS accAt gapOut acc1
    iintro ⟨⟨⟨HS0, Hr⟩, Hg⟩, Ho, ⟨%d0, H0⟩, ⟨%d1, H1⟩⟩
    iapply (gapRun_last c (grid0.coords t0_1) _ _ _ _ _ _ not_isFirst_t0_1 isLast_t0_1 (iblk0 V c t0_1) (acc0 V c) Set.univ _)
    isplitl [H0]; · iexact H0
    isplitl [H1]; · iexists _; iexact H1
    isplitl [HS0]; · iexact HS0
    iintro ⟨H0, H1, HS0⟩
    isplitl [HS0 Hr Hg]
    · isplitl [HS0 Hr]
      · isplitl [HS0]; · iexact HS0
        iexact Hr
      iexact Hg
    isplitl [Ho]; · iexact Ho
    isplitl [H0]; · iexact H0
    iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Pipeline.ΦA spec0 c from rfl]

/-- After the last point the invariant gives the entry invariant back: the accumulator's contents are forgotten. -/
theorem hout0 (c : Dev nD) : (dat0 V c).Φ (Fin.last cfg0.N) ⊢ Pipeline.ΦA spec0 c := by
  have h : (dat0 V c).Φ (Fin.last cfg0.N) = PhiS V c 2 := by
    show PhiS V c (Fin.last cfg0.N).val = _
    rw [Fin.val_last, show cfg0.N = 2 from N_0]
  rw [h, PhiA0_eq]
  unfold PhiS
  iintro ⟨⟨HS0, Hr⟩, Hg⟩
  isplitl [HS0 Hr]
  · isplitl [HS0]; · iexists _; iexact HS0
    iexact Hr
  iexact Hg

/-! ## What the region leaves in its arrays -/

/-- The input array is never written: it ends as the region found it. -/
theorem arr0_in (c : Dev nD) : (dat0 V c).arrAt 0 cfg0.N = V c (Pipeline.arrRef spec0 0) :=
  ((dat0 V c).arrAt_in 0 rfl _).trans (A_eq0 V c 0)

/-- The scaled accumulator as contents of the result array: the output's one block is the whole array. -/
abbrev gapArr (c : Dev nD) : Buf (Elt F) ((c : Thread nD τ).loc main_v0) := gapOut V c

/-- The output's block at the last point sits at zero offsets with the array's own extents. -/
theorem outOff_zero : (fun a => win0_1.index t0_1 a * main_v0.ty.shape.size a) = fun _ => 0 :=
  funext fun a => by fin_cases a <;> decide

/-- So every index of the result array lies in that block. -/
theorem mem_outBlock (c : Dev nD) (i : ((cfg0.win 1).arr.view.loc (c.tc : Thread nD τ)).2.ty.Idx) :
    i ∈ ((cfg0.win 1).blk t0_1).view.set := by
  show i ∈ ((View.whole main_v0).slice (win0_1.rect t0_1)).set
  rw [View.set_slice_whole]
  exact View.mem_set_unit_zero (S := S8x64) outOff_zero _ i

/-- The one write-back, at the last point, writes the scaled accumulator: the block read at zero offsets
    off the array is the array. -/
theorem flushed0_1 (c : Dev nD) (t : Fin cfg0.N) (hf : (cfg0.win 1).flush t = true) :
    (dat0 V c).flushed 1 t = ((cfg0.win 1).blk t).view.read (Elt F) (gapArr V c) := by
  have hN : cfg0.N = 2 := N_0
  have h1 : t.val = 1 := by have := (flush0_1 t).mp hf; have := t.isLt; omega
  obtain rfl : t = t0_1 := Fin.ext h1
  show (cfg0.win 1).cut (grid0.coords t0_1) ((dat0 V c).after 1 t0_1) = _
  rw [after0_1]
  exact (Memref.read_access_unit_zero (Elt F) main_v0 outOff_zero (fun a => by rw [congrFun outOff_zero a]; simp) (gapArr V c)).symm

/-- The result array ends holding the sum of both tiles over W and H, from zero, times 2^-14: the last point's
    block covers it. -/
theorem arr0_out (c : Dev nD) : (dat0 V c).arrAt 1 cfg0.N = k0_pay3 (k0_pay2 (iblk0 V c t0_1) (k0_pay2 (iblk0 V c t0_0) k0_pay1)) :=
  (dat0 V c).arrAt_eq_of_cover 1 (gapArr V c) (flushed0_1 V c) fun i =>
    ⟨t0_1, (flush0_1 t0_1).mpr rfl, mem_outBlock c i⟩

end Cert.Kernel.Hand

end
-- ==== Proof.KB.Filter.lean ====
/- REGION 1 of @main, the apply-filter kernel, at the frame level and at any scalar type: from the buffer contents `V` the
   region is entered with, each window's block at a grid point, what the body leaves in each output window (the low
   band: zero plus the nine taps' slice-times-weight products; the high band: the centre slice minus the low band), the
   body's triple, the pipeline's proof data and its body obligation. One control case; each output is stored once, whole. -/
import proofs.«100776_j22771916603489_1_alg».proof.Proof.Gen.Kernel.Launch
import proofs.«100776_j22771916603489_1_alg».proof.Proof.Gen.Kernel.Skeleton
import proofs.«100776_j22771916603489_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Filter
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole padded image block. -/
abbrev rImg : Rect S1x64x130x130 := Rect.unit (s := S1x64x130x130) ![0, 0, 0, 0] S1x64x130x130.size inb_S1x64x130x130_S1x64x130x130_0_0_0_0
/-- The whole output block. -/
abbrev rOut : Rect S1x64x128x128 := Rect.unit (s := S1x64x128x128) ![0, 0, 0, 0] S1x64x128x128.size inb_S1x64x128x128_S1x64x128x128_0_0_0_0
/-- Column `j` of the filter block: the weight of tap `j = 3 ky + kx`, one per channel. -/
abbrev wcol0 : Rect S1x64x9 := Rect.unit (s := S1x64x9) ![0, 0, 0] S1x64x1.size inb_S1x64x9_S1x64x1_0_0_0
abbrev wcol1 : Rect S1x64x9 := Rect.unit (s := S1x64x9) ![0, 0, 1] S1x64x1.size inb_S1x64x9_S1x64x1_0_0_1
abbrev wcol2 : Rect S1x64x9 := Rect.unit (s := S1x64x9) ![0, 0, 2] S1x64x1.size inb_S1x64x9_S1x64x1_0_0_2
abbrev wcol3 : Rect S1x64x9 := Rect.unit (s := S1x64x9) ![0, 0, 3] S1x64x1.size inb_S1x64x9_S1x64x1_0_0_3
abbrev wcol4 : Rect S1x64x9 := Rect.unit (s := S1x64x9) ![0, 0, 4] S1x64x1.size inb_S1x64x9_S1x64x1_0_0_4
abbrev wcol5 : Rect S1x64x9 := Rect.unit (s := S1x64x9) ![0, 0, 5] S1x64x1.size inb_S1x64x9_S1x64x1_0_0_5
abbrev wcol6 : Rect S1x64x9 := Rect.unit (s := S1x64x9) ![0, 0, 6] S1x64x1.size inb_S1x64x9_S1x64x1_0_0_6
abbrev wcol7 : Rect S1x64x9 := Rect.unit (s := S1x64x9) ![0, 0, 7] S1x64x1.size inb_S1x64x9_S1x64x1_0_0_7
abbrev wcol8 : Rect S1x64x9 := Rect.unit (s := S1x64x9) ![0, 0, 8] S1x64x1.size inb_S1x64x9_S1x64x1_0_0_8

/-- The nine columns by tap index. -/
abbrev wcol : Fin 9 → Rect S1x64x9
  | 0 => wcol0 | 1 => wcol1 | 2 => wcol2 | 3 => wcol3 | 4 => wcol4 | 5 => wcol5 | 6 => wcol6 | 7 => wcol7 | 8 => wcol8
  | ⟨_ + 9, h⟩ => absurd h (Nat.not_lt.2 (Nat.le_add_left _ _))

/-- Tap `j`'s weights, one per channel, loaded from the filter block. -/
def wts (x1 : Vec F S1x64x9 .f32) : Fin 9 → Vec F S1x64x1 .f32
  | 0 => View.ld x1 wcol0 | 1 => View.ld x1 wcol1 | 2 => View.ld x1 wcol2 | 3 => View.ld x1 wcol3 | 4 => View.ld x1 wcol4
  | 5 => View.ld x1 wcol5 | 6 => View.ld x1 wcol6 | 7 => View.ld x1 wcol7 | 8 => View.ld x1 wcol8
  | ⟨_ + 9, h⟩ => absurd h (Nat.not_lt.2 (Nat.le_add_left _ _))

/-! ## What the body leaves in each output window's buffer -/

/-- The low band: the output window 2's buffer after the body, from the input windows' blocks — zero plus the nine
    products of a shifted slice of the padded image with that tap's per-channel weight, the first five taps
    accumulated first and the last four after them. -/
def out1_2 (x0 : Vec F S1x64x130x130 .f32) (x1 : Vec F S1x64x9 .f32) : Vec F S1x64x128x128 .f32 :=
  k1_pay2 (k1_pay4 (View.ld x0 rImg))
    (k1_pay6 (View.ld x0 rImg) (View.ld x1 wcol0) (View.ld x1 wcol1) (View.ld x1 wcol2) (View.ld x1 wcol3) (View.ld x1 wcol4))
    (View.ld x1 wcol5) (View.ld x1 wcol6) (View.ld x1 wcol7) (View.ld x1 wcol8)

/-- The high band: window 3's buffer after the body — the centre slice of the padded image minus the low band. -/
def out1_3 (x0 : Vec F S1x64x130x130 .f32) (x1 : Vec F S1x64x9 .f32) : Vec F S1x64x128x128 .f32 :=
  k1_pay3 (k1_pay4 (View.ld x0 rImg)) (k1_pay5 (View.ld x0 rImg))
    (k1_pay6 (View.ld x0 rImg) (View.ld x1 wcol0) (View.ld x1 wcol1) (View.ld x1 wcol2) (View.ld x1 wcol3) (View.ld x1 wcol4))
    (View.ld x1 wcol5) (View.ld x1 wcol6) (View.ld x1 wcol7) (View.ld x1 wcol8)

/-- The zero offsets of a rank-4 access, as a constant function. -/
theorem zeros4 : (![0, 0, 0, 0] : Fin 4 → Nat) = fun _ => 0 := by funext a; fin_cases a <;> rfl

/-- The load of the whole padded block reads the block. -/
theorem ld_rImg (x0 : Vec F S1x64x130x130 .f32) : View.ld x0 rImg = x0 :=
  View.ld_unit_zero zeros4 _ x0

/-- The two bands with the whole-block load folded and the weights by tap index. -/
theorem out1_2_eq (x0 : Vec F S1x64x130x130 .f32) (x1 : Vec F S1x64x9 .f32) :
    out1_2 x0 x1 = k1_pay2 (k1_pay4 x0) (k1_pay6 x0 (wts x1 0) (wts x1 1) (wts x1 2) (wts x1 3) (wts x1 4))
      (wts x1 5) (wts x1 6) (wts x1 7) (wts x1 8) := by
  unfold out1_2; rw [ld_rImg]; rfl
theorem out1_3_eq (x0 : Vec F S1x64x130x130 .f32) (x1 : Vec F S1x64x9 .f32) :
    out1_3 x0 x1 = k1_pay3 (k1_pay4 x0) (k1_pay5 x0) (k1_pay6 x0 (wts x1 0) (wts x1 1) (wts x1 2) (wts x1 3) (wts x1 4))
      (wts x1 5) (wts x1 6) (wts x1 7) (wts x1 8) := by
  unfold out1_3; rw [ld_rImg]; rfl

/-! ## The body's triple -/

/-- One store through the whole output block covers it. -/
theorem cover_rOut (p : Vec F S1x64x128x128 .f32) (y : S1x64x128x128.Idx) :
    ∃ pc ∈ ([⟨rOut, p⟩] : List (View.Piece (Elt F) S1x64x128x128 .f32)), y ∈ pc.1.set :=
  ⟨_, List.mem_singleton_self _, View.mem_set_unit_zero (S := S1x64x128x128) zeros4 inb_S1x64x128x128_S1x64x128x128_0_0_0_0 y⟩

set_option maxHeartbeats 1000000 in
/-- The kernel body on whole staging memrefs, the inputs' at read contents and the outputs' at anything, runs to the
    continuation holding the inputs' as they were and the outputs' at the two bands of the inputs. -/
theorem sound_kernel1 (c : Dev nD) (E : Set ℕ) (i : grid1.Coords)
    (arg1 : Memref sig .tc .vmem S1x64x130x130 .f32) (harg1 : arg1.IsWhole) (arg2 : Memref sig .tc .vmem S1x64x9 .f32) (harg2 : arg2.IsWhole)
    (arg3 : Memref sig .tc .vmem S1x64x128x128 .f32) (harg3 : arg3.IsWhole) (arg4 : Memref sig .tc .vmem S1x64x128x128 .f32) (harg4 : arg4.IsWhole)
    (x0 : Vec F S1x64x130x130 .f32) (x1 : Vec F S1x64x9 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__apply_filter_kernel i arg1 harg1 arg2 harg2 arg3 harg3 arg4 harg4) K := by
  simp only [cc1__apply_filter_kernel_eq_skeleton]; unfold cc1__apply_filter_kernel_skel
  simp only [k1_part1_eq_skeleton]; unfold k1_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (cover_rOut _)).trans ((View.canon_unit_zero (S := S1x64x128x128) zeros4 _ _).trans rfl)
  iexists _; isplitr
  swap; · iexact H3
  ipureintro
  exact (View.read_writes_eq_canon _ _ _ (cover_rOut _)).trans ((View.canon_unit_zero (S := S1x64x128x128) zeros4 _ _).trans rfl)

/-! ## The pipeline's proof data -/

/-- The proof data of the filter pipeline on core `c`: the arrays as the region finds them (`V`); after the body at
    point `t` each input's buffer at its block and the outputs' at the low and the high band of the input blocks; the
    class's invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's fields, projected. -/
theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem Φ_eq1 (c : Dev nD) (t : Fin (cfg1.N + 1)) : (dat1 V c).Φ t = Pipeline.ΦA spec1 c := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not: unfetched, the index has
    not moved; the windows are uncut and never idle. -/
theorem before1_0 (c : Dev nD) (t : Fin cfg1.N) (d) : (dat1 V c).before 0 t d = iblk1 V c 0 t := by
  exact ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t := by
  exact ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Filter

end Cert.Kernel.Hand

end
-- ==== Proof.KB.Run.lean ====
/- THE RUN of @main as a list of segments, at any float family.

   @main is four items in order: the first kernel region (the pooling kernel: a sum over the two H-tiles carried in a
   scratch accumulator, scaled at the last point), a stretch of host operations (the filter head), a second stretch
   (the reflecting pad), and the second kernel region (the nine-tap filter, low and high band). Between two items a
   core holds every unscoped buffer whole at a valuation; the valuations are a fold from the launch memory: a host
   stretch maps a valuation to the one after its operations, a region replaces its windows' arrays by what its
   write-backs leave and keeps every other buffer. Each argument array is read back through the fold to its launch
   contents: no host operation writes an argument, the second region has no argument among its arrays, the first
   reads argument 0 through an input window (an input's array is left as entered) and has no other argument among
   its arrays. The launch theorem for a list of segments then gives termination and the final memory. -/
import proofs.«100776_j22771916603489_1_alg».proof.Proof.Gen.Kernel.Launch
import proofs.«100776_j22771916603489_1_alg».proof.Proof.Gen.Kernel.Skeleton
import proofs.«100776_j22771916603489_1_alg».proof.Proof.Gen.Kernel.Points
import proofs.«100776_j22771916603489_1_alg».proof.Proof.Gen.Kernel.Regions
import proofs.«100776_j22771916603489_1_alg».proof.Proof.KB.Gap
import proofs.«100776_j22771916603489_1_alg».proof.Proof.KB.Filter
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items: a fold through @main -/

/-- Core `c`'s buffers at launch. -/
abbrev W0 : Dev nD → Valuation τ sig (Elt F) := fun c b => (s₀ m ρ).mem ((c : Dev nD), b)
/-- The same read at the TensorCore's references: what the first region is entered from. -/
abbrev V0 : (c : Dev nD) → (b : Ref sig .tc) → Buf (Elt F) ((c : Thread nD τ).loc b) := fun c b => W0 m ρ c b
/-- After the first region: its two arrays at what the pipeline leaves (the input as entered, the pooled output's
    write-back at the last point folded in), every other buffer as launched. -/
def W1 (c : Dev nD) : Valuation τ sig (Elt F) :=
  Pipeline.withArrays spec0 c (W0 m ρ c) fun w => (dat0 (V0 m ρ) c).arrAt w cfg0.N
/-- After the first host stretch (the filter head). -/
abbrev W2 : Dev nD → Valuation τ sig (Elt F) := fun c => StableHlo.after hostOps1 (W1 m ρ c)
/-- After the second host stretch (the reflecting pad): what the second region is entered from. -/
abbrev W3 : Dev nD → Valuation τ sig (Elt F) := fun c => StableHlo.after hostOps1_1 (W2 m ρ c)
/-- The same read at the TensorCore's references. -/
abbrev V3 : (c : Dev nD) → (b : Ref sig .tc) → Buf (Elt F) ((c : Thread nD τ).loc b) := fun c b => W3 m ρ c b
/-- After the second region: its four arrays at what the pipeline leaves, every other buffer as entered. -/
def W4 (c : Dev nD) : Valuation τ sig (Elt F) :=
  Pipeline.withArrays spec1 c (W3 m ρ c) fun w => (dat1 (V3 m ρ) c).arrAt w cfg1.N

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- The contents at the first region's exit, read at the TensorCore's references. -/
abbrev V1 : (c : Dev nD) → (b : Ref sig .tc) → Buf (Elt F) ((c : Thread nD τ).loc b) := fun c b => W1 m ρ c b
/-- The contents at the second region's exit, read at the TensorCore's references. -/
abbrev V4 : (c : Dev nD) → (b : Ref sig .tc) → Buf (Elt F) ((c : Thread nD τ).loc b) := fun c b => W4 m ρ c b

/-- At a region's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

/-- A buffer that is no array of the second region and that neither host stretch writes holds after the second
    region what it held after the first. -/
theorem W4_back (c : Dev nD) (b : Ref sig .tc) (h1 : ∀ w, Pipeline.arrRef spec1 w ≠ b)
    (hp : b ∉ hostOps1_1_W) (hh : b ∉ hostOps1_W) :
    W4 m ρ c (Proc.devRef .tc b) = W1 m ρ c (Proc.devRef .tc b) :=
  calc W4 m ρ c (Proc.devRef .tc b)
    _ = W3 m ρ c (Proc.devRef .tc b) := W4_of_ne m ρ c b h1
    _ = W2 m ρ c (Proc.devRef .tc b) := StableHlo.after_of_writes_sub hostOps1_1 _ hostOps1_1_writes hp
    _ = W1 m ρ c (Proc.devRef .tc b) := StableHlo.after_of_writes_sub hostOps1 _ hostOps1_writes hh

/-- Argument 0 is the first region's input window: its array is left as entered. -/
theorem W4_main_arg0 (c : Dev nD) : W4 m ρ c (Proc.devRef .tc main_arg0) = m ((c : Thread nD τ).loc main_arg0) :=
  calc W4 m ρ c (Proc.devRef .tc main_arg0)
    _ = W1 m ρ c (Proc.devRef .tc main_arg0) := W4_back m ρ c main_arg0 (by decide) (by decide) (by decide)
    _ = W0 m ρ c (Proc.devRef .tc main_arg0) := (W1_arr m ρ c 0).trans (arr0_in (V0 m ρ) c)
    _ = m ((c : Thread nD τ).loc main_arg0) := rfl
/-- Arguments 1 to 4 are no array of either region. -/
theorem W4_main_arg1 (c : Dev nD) : W4 m ρ c (Proc.devRef .tc main_arg1) = m ((c : Thread nD τ).loc main_arg1) :=
  ((W4_back m ρ c main_arg1 (by decide) (by decide) (by decide)).trans (W1_of_ne m ρ c main_arg1 (by decide))).trans rfl
theorem W4_main_arg2 (c : Dev nD) : W4 m ρ c (Proc.devRef .tc main_arg2) = m ((c : Thread nD τ).loc main_arg2) :=
  ((W4_back m ρ c main_arg2 (by decide) (by decide) (by decide)).trans (W1_of_ne m ρ c main_arg2 (by decide))).trans rfl
theorem W4_main_arg3 (c : Dev nD) : W4 m ρ c (Proc.devRef .tc main_arg3) = m ((c : Thread nD τ).loc main_arg3) :=
  ((W4_back m ρ c main_arg3 (by decide) (by decide) (by decide)).trans (W1_of_ne m ρ c main_arg3 (by decide))).trans rfl
theorem W4_main_arg4 (c : Dev nD) : W4 m ρ c (Proc.devRef .tc main_arg4) = m ((c : Thread nD τ).loc main_arg4) :=
  ((W4_back m ρ c main_arg4 (by decide) (by decide) (by decide)).trans (W1_of_ne m ρ c main_arg4 (by decide))).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-- Neither kernel's body takes on a unit: the bound on the recorded pairs stays the whole set at every point. -/
theorem rec0 (c : Dev nD) (t : Fin (cfg0.N + 1)) : (dat0 (V0 m ρ) c).recorded t = Set.univ := rfl
theorem rec1 (c : Dev nD) (t : Fin (cfg1.N + 1)) : (dat1 (V3 m ρ) c).recorded t = Set.univ := rfl

/-- The tallies at nothing owed, with any recorded set, are the first region's tallies at either end. -/
theorem owes_in0 (c : Dev nD) (t : Fin (cfg0.N + 1)) :
    (iprop(∃ W, owes (c : Thread nD τ) (0 : CellTallies nD τ sig Unit) W) : sProp 𝕄) ⊢ (dat0 (V0 m ρ) c).owesAt () t := by
  unfold Pipeline.Dat.owesAt Pipeline.owesWithin Pipeline.Dat.bound
  rw [owed_eq0, rec0]
  iintro ⟨%W, HO⟩; iexists W; isplitr; · ipureintro; exact fun _ _ => Or.inl trivial
  iexact HO
theorem owes_out0 (c : Dev nD) (t : Fin (cfg0.N + 1)) :
    (dat0 (V0 m ρ) c).owesAt () t ⊢ (iprop(∃ W, owes (c : Thread nD τ) (0 : CellTallies nD τ sig Unit) W) : sProp 𝕄) := by
  unfold Pipeline.Dat.owesAt Pipeline.owesWithin
  rw [owed_eq0]
  iintro ⟨%W, -, HO⟩; iexists W; iexact HO
/-- The same of the second region. -/
theorem owes_in1 (c : Dev nD) (t : Fin (cfg1.N + 1)) :
    (iprop(∃ W, owes (c : Thread nD τ) (0 : CellTallies nD τ sig Unit) W) : sProp 𝕄) ⊢ (dat1 (V3 m ρ) c).owesAt () t := by
  unfold Pipeline.Dat.owesAt Pipeline.owesWithin Pipeline.Dat.bound
  rw [owed_eq1, rec1]
  iintro ⟨%W, HO⟩; iexists W; isplitr; · ipureintro; exact fun _ _ => Or.inl trivial
  iexact HO
theorem owes_out1 (c : Dev nD) (t : Fin (cfg1.N + 1)) :
    (dat1 (V3 m ρ) c).owesAt () t ⊢ (iprop(∃ W, owes (c : Thread nD τ) (0 : CellTallies nD τ sig Unit) W) : sProp 𝕄) := by
  unfold Pipeline.Dat.owesAt Pipeline.owesWithin
  rw [owed_eq1]
  iintro ⟨%W, -, HO⟩; iexists W; iexact HO

/-! ## The regions as segments -/

set_option backward.isDefEq.respectTransparency.types false in
/-- THE FIRST REGION over the thread state: entered from every unscoped buffer at the launch contents, left at
    `W1`. Its arrays split out of the unscoped buffers and put back at the exit contents; the generator register
    and the scoped rest into the kernel's invariant at the first point (the class invariant entails it) and out of
    the invariant at the last point (which entails the class invariant); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed_eq0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V0 m ρ) c w) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in0 m ρ c 0); iexact HO
    isplitl [Hp]; · iexact Hp
    iexact Hrest
  hin c := by
    refine BI.Entails.trans (?_ : _ ⊢ Pipeline.ΦA spec0 c) (hin0 (V0 m ρ) c)
    unfold Pipeline.ΦA
    iintro ⟨Hp, -, Hr⟩
    isplitl [Hr]; · iexact Hr
    iexact Hp
  hout c := by
    rw [Pipeline.ownSems0_none]
    refine BI.Entails.trans (hout0 (V0 m ρ) c) (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V0 m ρ) c w)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out0 m ρ c (Fin.last _)); iexact HO

set_option backward.isDefEq.respectTransparency.types false in
/-- THE SECOND REGION over the thread state: entered from every unscoped buffer at `W3`, left at `W4` (what the
    launch reads at the end). Its invariant is the class invariant at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in1 m ρ c 0); iexact HO
    isplitl [Hp]; · iexact Hp
    iexact Hrest
  hin c := by
    rw [show (pdats m ρ 1 c).Φ 0 = Pipeline.ΦA spec1 c from Φ_eq1 (V3 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Φ_eq1 (V3 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_out1 m ρ c (Fin.last _)); iexact HO

/-! ## @main as segments, and the launch -/

/-- @main's four segments in order: the first region, the two host stretches each from its boundary's contents,
    the second region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ) ]
/-- @main is the run of the segments: its chain of items, then the segments' run against that chain. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final memory holds at each unscoped buffer the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at any float family: every weakly fair execution of @main terminates, nothing faulting, and every
    final memory has the five argument arrays as launched: the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.Kernel.Hand

end
-- ==== Proof.KI.Gap.lean ====
/- Region 0 of @main (the global-average-pool kernel, grid of two points along H) at the frame level,
   generic in the float model, at a parameter `V`: the TensorCore's buffer contents when the region is entered.

   The mathematics. The kernel keeps an [8,64] accumulator in a scratch buffer that lives across the two
   grid points. At the first point it zeroes the accumulator; at both points it adds to it the sum of the
   current [8,64,64,128] block of x over W and then over H; at the last point it stores the accumulator
   times 2^-14 into the [8,64] output block, which the pipeline writes back there and only there. -/
import proofs.«100776_j22771916603489_1_alg».proof.Proof.Gen.KernelIdeal.Launch
import proofs.«100776_j22771916603489_1_alg».proof.Proof.Gen.KernelIdeal.Skeleton
import proofs.«100776_j22771916603489_1_alg».proof.Proof.Gen.KernelIdeal.Points
import Idealize.ShloMosaic.Lib.Pipeline.FrameBody
import Idealize.ShloMosaic.Lib.Pipeline.Frame
import Idealize.ShloMosaic.Lib.Pipeline.FrameSuffix
import Idealize.ShloMosaic.Lib.Pipeline.Regions
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The block of x at a point, and what the accumulator and the output hold -/

/-- The H-tile `t` of x, read off its array as the region finds it. -/
def iblk0 (c : Dev nD) (t : Fin cfg0.N) : Vec F S8x64x64x128 .f32 :=
  ((cfg0.win 0).blk t).view.read (Elt F) (V c (Pipeline.arrRef spec0 0))

/-- The accumulator after the first point: zero plus the first tile's sum over W and H. -/
def acc0 (c : Dev nD) : Vec F S8x64 .f32 := k0_pay2 (iblk0 V c t0_0) k0_pay1

/-- The accumulator after the last point: the second tile's sum added. -/
def acc1 (c : Dev nD) : Vec F S8x64 .f32 := k0_pay2 (iblk0 V c t0_1) (acc0 V c)

/-- The output block: the accumulator scaled by 2^-14. -/
def gapOut (c : Dev nD) : Vec F S8x64 .f32 := k0_pay3 (acc1 V c)

/-- The accumulator after the body at position `n`. -/
def accAt (c : Dev nD) : ℕ → Vec F S8x64 .f32
  | 0 => acc0 V c
  | _ + 1 => acc1 V c

/-- The scratch accumulator as a memref. -/
abbrev scM0 : Memref sig .tc .vmem S8x64 .f32 := Memref.whole cc0_scratch0

/-- The core's scoped buffers that belong to the other region (its eight staging buffers), each whole at
    some contents: this region never touches them. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant at entry, with the accumulator as a memref owned at some contents. -/
theorem PhiA0_eq (c : Dev nD) :
    (Pipeline.ΦA spec0 c : sProp 𝕄)
      = iprop(iprop((∃ d, owns (c : Thread nD τ) scM0 fullShare d) ∗ otherScoped (F := F) c) ∗ (∃ r, prngReg c r)) := by
  unfold Pipeline.ΦA; rw [scopedRest0_eq]; unfold otherScoped; simp only [scM0, owns_whole]; try rfl

/-- The invariant before position `n`: at entry the class's (every scoped buffer that is no staging buffer at
    anything); afterwards the accumulator at what the point before left, the other region's buffers at
    anything, the generator register at some state. -/
def PhiS (c : Dev nD) : ℕ → sProp 𝕄
  | 0 => Pipeline.ΦA spec0 c
  | n + 1 => iprop(iprop(owns (c : Thread nD τ) scM0 fullShare (accAt V c n) ∗ otherScoped (F := F) c) ∗ (∃ r, prngReg c r))

/-! ## The proof data -/

/-- The proof data of the region on core `c`: the arrays as the region finds them; after the body the input's
    buffer at its tile and the output's at the scaled accumulator (a placeholder at the first point, where the
    window is idle and not written back); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c t
    | ⟨1, _⟩ => gapOut V c
  Φ t := PhiS V c t.val
  q _ := fullShare
  owed _ := 0

/-- The proof data's arrays are the region-entry contents, its shares full, nothing owed (the definition projected). -/
theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

/-- What the body leaves, window by window. -/
theorem after0_0 (c : Dev nD) (t : Fin cfg0.N) : (dat0 V c).after 0 t = iblk0 V c t := by dsimp only [dat0]
theorem after0_1 (c : Dev nD) (t : Fin cfg0.N) : (dat0 V c).after 1 t = gapOut V c := by dsimp only [dat0]

/-! ## The body's two tests, and where the output window is idle -/

/-- The first test of the body (is this the first grid point?), from the grid coordinates. -/
abbrev isFirst (i : grid0.Coords) : Prop :=
  (Scalar.cmpi .ne (Scalar.extui (Scalar.cmpi .eq (BitVec.ofNat 32 (i 0).val) 0#32)) 0#32) = 1#1
/-- The second test of the body (is this the last grid point?). -/
abbrev isLast (i : grid0.Coords) : Prop := k0_cond2 i = 1#1

theorem isFirst_t0_0 : isFirst (grid0.coords t0_0) := by decide
theorem not_isLast_t0_0 : ¬isLast (grid0.coords t0_0) := by decide
theorem not_isFirst_t0_1 : ¬isFirst (grid0.coords t0_1) := by decide
theorem isLast_t0_1 : isLast (grid0.coords t0_1) := by decide

/-- The zero offsets of the body's whole-block accesses, as functions. -/
theorem hz2 : (![0, 0] : Fin 2 → ℕ) = fun _ => 0 := by funext a; fin_cases a <;> rfl
theorem hz4 : (![0, 0, 0, 0] : Fin 4 → ℕ) = fun _ => 0 := by funext a; fin_cases a <;> rfl

/-- The body at the first point, on whole staging memrefs: the tile's buffer at `x0`, the output's at `xi1`
    (handed back untouched: the second test fails), the accumulator at anything. The first test holds, so the
    accumulator is zeroed, read back and the tile's sum added: it ends at `k0_pay2 x0 k0_pay1`. -/
theorem gapRun_first (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole)
    (hc0 : isFirst i) (hc1 : ¬isLast i) (x0 : Vec F S8x64x64x128 .f32) (xi1 : Vec F S8x64 .f32) (E : Set ℕ) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1 ∗ owns (c : Thread nD τ) arg3 fullShare (k0_pay2 x0 (k0_pay1 (F := F)))) -∗ K ⟨⟩))
      ⊢ wp frame (wpE (defs₀ (F := F)) Variants.none c none) E (cc0__gap_kernel i arg1 harg1 arg2 harg2 arg3 harg3) K := by
  simp only [cc0__gap_kernel_eq_skeleton]; unfold cc0__gap_kernel_skel
  unfold owns
  iintro ⟨⟨%f0, %hf0, H0⟩, ⟨%f1, %hf1, H1⟩, ⟨%ds0, %fs0, -, HS0⟩, Hk⟩
  obtain rfl := harg1.eq_unread hf0; obtain rfl := harg2.eq_unread hf1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  iexists _; isplitr
  swap; · iexact HS0
  ipureintro
  -- the last store covers the accumulator; its payload reads the tile and the zeros just stored
  sl_unfold_run_names
  rw [View.read_writes_eq_canon _ _ _ (fun y => ⟨_, List.mem_cons.mpr (Or.inl rfl), View.mem_set_unit_zero hz2 inb_S8x64_S8x64_0_0 y⟩)]
  rw [View.canon_cons_unit_zero (S := S8x64) hz2]
  simp only [View.readAt_eq_ld, harg1.read_unread, View.ld_unit_zero (S := S8x64x64x128) hz4, View.readCov_unit_zero (S := S8x64) _ hz2]

set_option maxHeartbeats 1000000 in
/-- The body at the last point: the tile's buffer at `x0`, the output's at anything, the accumulator at what the
    point before left (`xs0`). The first test fails, the second holds: the tile's sum is added to the
    accumulator, which is read back, scaled and stored into the output's buffer. -/
theorem gapRun_last (c : Dev nD) (i : grid0.Coords) (arg1 : Memref sig .tc .vmem S8x64x64x128 .f32) (harg1 : arg1.IsWhole) (arg2 : Memref sig .tc .vmem S8x64 .f32) (harg2 : arg2.IsWhole) (arg3 : Memref sig .tc .vmem S8x64 .f32) (harg3 : arg3.IsWhole)
    (hc0 : ¬isFirst i) (hc1 : isLast i) (x0 : Vec F S8x64x64x128 .f32) (xs0 : Vec F S8x64 .f32) (E : Set ℕ) (K : PUnit → sProp 𝕄) :
    iprop(owns (c : Thread nD τ) arg1 fullShare x0 ∗ (∃ d, owns (c : Thread nD τ) arg2 fullShare d) ∗ owns (c : Thread nD τ) arg3 fullShare xs0
        ∗ (iprop(owns (c : Thread nD τ) arg1 fullShare x0 ∗ owns (c : Thread nD τ) arg2 fullShare (k0_pay3 (k0_pay2 x0 xs0)) ∗ owns (c : Thread nD τ) arg3 fullShare (k0_pay2 x0 xs0)) -∗ K ⟨⟩))
      ⊢ wp frame (wpE (defs₀ (F := F)) Variants.none c none) E (cc0__gap_kernel i arg1 harg1 arg2 harg2 arg3 harg3) K := by
  simp only [cc0__gap_kernel_eq_skeleton]; unfold cc0__gap_kernel_skel
  unfold owns
  iintro ⟨⟨%f0, %hf0, H0⟩, ⟨%d1, %f1, -, H1⟩, ⟨%fs0, %hfs0, HS0⟩, Hk⟩
  obtain rfl := harg1.eq_unread hf0; obtain rfl := harg3.eq_unread hfs0
  sl_exec (disch := first | exact hc0 | exact hc1)
  sl_step
  iapply Hk
  isplitl [H0]
  · iexists _; isplitr; · ipureintro; exact harg1.read_unread _
    iexact H0
  isplitl [H1]
  · iexists _; isplitr
    swap; · iexact H1
    ipureintro
    -- the one store into the output covers it; its payload scales the accumulator read back after the update
    sl_unfold_run_names
    rw [View.read_writes_eq_canon _ _ _ (fun y => ⟨_, List.mem_cons.mpr (Or.inl rfl), View.mem_set_unit_zero hz2 inb_S8x64_S8x64_0_0 y⟩)]
    rw [View.canon_unit_zero (S := S8x64) hz2]
    simp only [View.readAt_eq_ld, harg1.read_unread, harg3.read_unread, View.ld_unit_zero (S := S8x64x64x128) hz4, View.ld_unit_zero (S := S8x64) hz2, View.readCov_unit_zero (S := S8x64) _ hz2]
  iexists _; isplitr
  swap; · iexact HS0
  ipureintro
  -- the one store into the accumulator covers it; its payload reads the tile and what the point before left
  sl_unfold_run_names
  rw [View.read_writes_eq_canon _ _ _ (fun y => ⟨_, List.mem_cons.mpr (Or.inl rfl), View.mem_set_unit_zero hz2 inb_S8x64_S8x64_0_0 y⟩)]
  rw [View.canon_unit_zero (S := S8x64) hz2]
  simp only [View.readAt_eq_ld, harg1.read_unread, harg3.read_unread, View.ld_unit_zero (S := S8x64x64x128) hz4, View.ld_unit_zero (S := S8x64) hz2]

/-! ## The body obligation -/

/-- The tile's window is never idle; the output's is idle at the first point, which does not write it back,
    and live at the last. -/
theorem liveAt0_0 : ∀ t : Fin cfg0.N, cfg0.idle 0 (grid0.coords t) = false := fun _ => rfl
theorem idleAt0_1_first : cfg0.idle 1 (grid0.coords t0_0) = true := by decide
theorem noFlush0_1_first : (cfg0.win 1).flush t0_0 = false := by decide
theorem liveAt0_1_last : cfg0.idle 1 (grid0.coords t0_1) = false := by decide

/-- The tile's current staging buffer holds the tile at every point (an input: fetched at every point). -/
theorem before0_0 (c : Dev nD) (t : Fin cfg0.N) (d) : (dat0 V c).before 0 t d = iblk0 V c t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

/-- The body at either point: the tile's memref holds the tile; at the first point the invariant hands over the
    accumulator at anything and takes it back at the first tile's sum, the output's buffer passing through
    untouched; at the last it hands it over at that sum and takes it back with the second tile's sum added,
    the output's buffer at the scaled total. The other region's buffers, the generator register and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).leavesExact 0 t = owns (c : Thread nD τ) (st0_0 t) fullShare ((dat0 V c).after 0 t) from by
    unfold Dat.leavesExact; rw [liveAt0_0 t], after0_0]
  rcases fin_N0 t with rfl | rfl
  · rw [Dat.leavesExact_idle (dat0 V c) 1 t0_0 idleAt0_1_first noFlush0_1_first]
    rw [show (dat0 V c).Φ t0_0.castSucc = Pipeline.ΦA spec0 c from rfl,
      show (dat0 V c).Φ t0_0.succ = PhiS V c 1 from rfl, PhiA0_eq]
    unfold PhiS accAt acc0
    iintro ⟨⟨⟨HS0, Hr⟩, Hg⟩, Ho, ⟨%d0, H0⟩, ⟨%d1, H1⟩⟩
    iapply (gapRun_first c (grid0.coords t0_0) _ _ _ _ _ _ isFirst_t0_0 not_isLast_t0_0 (iblk0 V c t0_0) _ Set.univ _)
    isplitl [H0]; · iexact H0
    isplitl [H1]; · iexact H1
    isplitl [HS0]; · iexact HS0
    iintro ⟨H0, H1, HS0⟩
    isplitl [HS0 Hr Hg]
    · isplitl [HS0 Hr]
      · isplitl [HS0]; · iexact HS0
        iexact Hr
      iexact Hg
    isplitl [Ho]; · iexact Ho
    isplitl [H0]; · iexact H0
    iexists _; iexact H1
  · rw [show (dat0 V c).leavesExact 1 t0_1 = owns (c : Thread nD τ) (st0_1 t0_1) fullShare ((dat0 V c).after 1 t0_1) from by
      unfold Dat.leavesExact; rw [liveAt0_1_last], after0_1]
    rw [show (dat0 V c).Φ t0_1.castSucc = PhiS V c 1 from rfl,
      show (dat0 V c).Φ t0_1.succ = PhiS V c 2 from rfl]
    unfold PhiS accAt gapOut acc1
    iintro ⟨⟨⟨HS0, Hr⟩, Hg⟩, Ho, ⟨%d0, H0⟩, ⟨%d1, H1⟩⟩
    iapply (gapRun_last c (grid0.coords t0_1) _ _ _ _ _ _ not_isFirst_t0_1 isLast_t0_1 (iblk0 V c t0_1) (acc0 V c) Set.univ _)
    isplitl [H0]; · iexact H0
    isplitl [H1]; · iexists _; iexact H1
    isplitl [HS0]; · iexact HS0
    iintro ⟨H0, H1, HS0⟩
    isplitl [HS0 Hr Hg]
    · isplitl [HS0 Hr]
      · isplitl [HS0]; · iexact HS0
        iexact Hr
      iexact Hg
    isplitl [Ho]; · iexact Ho
    isplitl [H0]; · iexact H0
    iexact H1

/-- The body obligation of the region, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : Pipeline.ΦA spec0 c ⊢ (dat0 V c).Φ 0 := by
  rw [show (dat0 V c).Φ 0 = Pipeline.ΦA spec0 c from rfl]

/-- After the last point the invariant gives the entry invariant back: the accumulator's contents are forgotten. -/
theorem hout0 (c : Dev nD) : (dat0 V c).Φ (Fin.last cfg0.N) ⊢ Pipeline.ΦA spec0 c := by
  have h : (dat0 V c).Φ (Fin.last cfg0.N) = PhiS V c 2 := by
    show PhiS V c (Fin.last cfg0.N).val = _
    rw [Fin.val_last, show cfg0.N = 2 from N_0]
  rw [h, PhiA0_eq]
  unfold PhiS
  iintro ⟨⟨HS0, Hr⟩, Hg⟩
  isplitl [HS0 Hr]
  · isplitl [HS0]; · iexists _; iexact HS0
    iexact Hr
  iexact Hg

/-! ## What the region leaves in its arrays -/

/-- The input array is never written: it ends as the region found it. -/
theorem arr0_in (c : Dev nD) : (dat0 V c).arrAt 0 cfg0.N = V c (Pipeline.arrRef spec0 0) :=
  ((dat0 V c).arrAt_in 0 rfl _).trans (A_eq0 V c 0)

/-- The scaled accumulator as contents of the result array: the output's one block is the whole array. -/
abbrev gapArr (c : Dev nD) : Buf (Elt F) ((c : Thread nD τ).loc main_v0) := gapOut V c

/-- The output's block at the last point sits at zero offsets with the array's own extents. -/
theorem outOff_zero : (fun a => win0_1.index t0_1 a * main_v0.ty.shape.size a) = fun _ => 0 :=
  funext fun a => by fin_cases a <;> decide

/-- So every index of the result array lies in that block. -/
theorem mem_outBlock (c : Dev nD) (i : ((cfg0.win 1).arr.view.loc (c.tc : Thread nD τ)).2.ty.Idx) :
    i ∈ ((cfg0.win 1).blk t0_1).view.set := by
  show i ∈ ((View.whole main_v0).slice (win0_1.rect t0_1)).set
  rw [View.set_slice_whole]
  exact View.mem_set_unit_zero (S := S8x64) outOff_zero _ i

/-- The one write-back, at the last point, writes the scaled accumulator: the block read at zero offsets
    off the array is the array. -/
theorem flushed0_1 (c : Dev nD) (t : Fin cfg0.N) (hf : (cfg0.win 1).flush t = true) :
    (dat0 V c).flushed 1 t = ((cfg0.win 1).blk t).view.read (Elt F) (gapArr V c) := by
  have hN : cfg0.N = 2 := N_0
  have h1 : t.val = 1 := by have := (flush0_1 t).mp hf; have := t.isLt; omega
  obtain rfl : t = t0_1 := Fin.ext h1
  show (cfg0.win 1).cut (grid0.coords t0_1) ((dat0 V c).after 1 t0_1) = _
  rw [after0_1]
  exact (Memref.read_access_unit_zero (Elt F) main_v0 outOff_zero (fun a => by rw [congrFun outOff_zero a]; simp) (gapArr V c)).symm

/-- The result array ends holding the sum of both tiles over W and H, from zero, times 2^-14: the last point's
    block covers it. -/
theorem arr0_out (c : Dev nD) : (dat0 V c).arrAt 1 cfg0.N = k0_pay3 (k0_pay2 (iblk0 V c t0_1) (k0_pay2 (iblk0 V c t0_0) k0_pay1)) :=
  (dat0 V c).arrAt_eq_of_cover 1 (gapArr V c) (flushed0_1 V c) fun i =>
    ⟨t0_1, (flush0_1 t0_1).mpr rfl, mem_outBlock c i⟩

end Cert.KernelIdeal.Hand

end
-- ==== Proof.KI.Filter.lean ====
/- REGION 1 of @main, the apply-filter kernel, at the frame level and at any scalar type: from the buffer contents `V` the
   region is entered with, each window's block at a grid point, what the body leaves in each output window (the low
   band: zero plus the nine taps' slice-times-weight products; the high band: the centre slice minus the low band), the
   body's triple, the pipeline's proof data and its body obligation. One control case; each output is stored once, whole. -/
import proofs.«100776_j22771916603489_1_alg».proof.Proof.Gen.KernelIdeal.Launch
import proofs.«100776_j22771916603489_1_alg».proof.Proof.Gen.KernelIdeal.Skeleton
import proofs.«100776_j22771916603489_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Filter
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole padded image block. -/
abbrev rImg : Rect S1x64x130x130 := Rect.unit (s := S1x64x130x130) ![0, 0, 0, 0] S1x64x130x130.size inb_S1x64x130x130_S1x64x130x130_0_0_0_0
/-- The whole output block. -/
abbrev rOut : Rect S1x64x128x128 := Rect.unit (s := S1x64x128x128) ![0, 0, 0, 0] S1x64x128x128.size inb_S1x64x128x128_S1x64x128x128_0_0_0_0
/-- Column `j` of the filter block: the weight of tap `j = 3 ky + kx`, one per channel. -/
abbrev wcol0 : Rect S1x64x9 := Rect.unit (s := S1x64x9) ![0, 0, 0] S1x64x1.size inb_S1x64x9_S1x64x1_0_0_0
abbrev wcol1 : Rect S1x64x9 := Rect.unit (s := S1x64x9) ![0, 0, 1] S1x64x1.size inb_S1x64x9_S1x64x1_0_0_1
abbrev wcol2 : Rect S1x64x9 := Rect.unit (s := S1x64x9) ![0, 0, 2] S1x64x1.size inb_S1x64x9_S1x64x1_0_0_2
abbrev wcol3 : Rect S1x64x9 := Rect.unit (s := S1x64x9) ![0, 0, 3] S1x64x1.size inb_S1x64x9_S1x64x1_0_0_3
abbrev wcol4 : Rect S1x64x9 := Rect.unit (s := S1x64x9) ![0, 0, 4] S1x64x1.size inb_S1x64x9_S1x64x1_0_0_4
abbrev wcol5 : Rect S1x64x9 := Rect.unit (s := S1x64x9) ![0, 0, 5] S1x64x1.size inb_S1x64x9_S1x64x1_0_0_5
abbrev wcol6 : Rect S1x64x9 := Rect.unit (s := S1x64x9) ![0, 0, 6] S1x64x1.size inb_S1x64x9_S1x64x1_0_0_6
abbrev wcol7 : Rect S1x64x9 := Rect.unit (s := S1x64x9) ![0, 0, 7] S1x64x1.size inb_S1x64x9_S1x64x1_0_0_7
abbrev wcol8 : Rect S1x64x9 := Rect.unit (s := S1x64x9) ![0, 0, 8] S1x64x1.size inb_S1x64x9_S1x64x1_0_0_8

/-- The nine columns by tap index. -/
abbrev wcol : Fin 9 → Rect S1x64x9
  | 0 => wcol0 | 1 => wcol1 | 2 => wcol2 | 3 => wcol3 | 4 => wcol4 | 5 => wcol5 | 6 => wcol6 | 7 => wcol7 | 8 => wcol8
  | ⟨_ + 9, h⟩ => absurd h (Nat.not_lt.2 (Nat.le_add_left _ _))

/-- Tap `j`'s weights, one per channel, loaded from the filter block. -/
def wts (x1 : Vec F S1x64x9 .f32) : Fin 9 → Vec F S1x64x1 .f32
  | 0 => View.ld x1 wcol0 | 1 => View.ld x1 wcol1 | 2 => View.ld x1 wcol2 | 3 => View.ld x1 wcol3 | 4 => View.ld x1 wcol4
  | 5 => View.ld x1 wcol5 | 6 => View.ld x1 wcol6 | 7 => View.ld x1 wcol7 | 8 => View.ld x1 wcol8
  | ⟨_ + 9, h⟩ => absurd h (Nat.not_lt.2 (Nat.le_add_left _ _))

/-! ## What the body leaves in each output window's buffer -/

/-- The low band: the output window 2's buffer after the body, from the input windows' blocks — zero plus the nine
    products of a shifted slice of the padded image with that tap's per-channel weight, the first five taps
    accumulated first and the last four after them. -/
def out1_2 (x0 : Vec F S1x64x130x130 .f32) (x1 : Vec F S1x64x9 .f32) : Vec F S1x64x128x128 .f32 :=
  k1_pay2 (k1_pay4 (View.ld x0 rImg))
    (k1_pay6 (View.ld x0 rImg) (View.ld x1 wcol0) (View.ld x1 wcol1) (View.ld x1 wcol2) (View.ld x1 wcol3) (View.ld x1 wcol4))
    (View.ld x1 wcol5) (View.ld x1 wcol6) (View.ld x1 wcol7) (View.ld x1 wcol8)

/-- The high band: window 3's buffer after the body — the centre slice of the padded image minus the low band. -/
def out1_3 (x0 : Vec F S1x64x130x130 .f32) (x1 : Vec F S1x64x9 .f32) : Vec F S1x64x128x128 .f32 :=
  k1_pay3 (k1_pay4 (View.ld x0 rImg)) (k1_pay5 (View.ld x0 rImg))
    (k1_pay6 (View.ld x0 rImg) (View.ld x1 wcol0) (View.ld x1 wcol1) (View.ld x1 wcol2) (View.ld x1 wcol3) (View.ld x1 wcol4))
    (View.ld x1 wcol5) (View.ld x1 wcol6) (View.ld x1 wcol7) (View.ld x1 wcol8)

/-- The zero offsets of a rank-4 access, as a constant function. -/
theorem zeros4 : (![0, 0, 0, 0] : Fin 4 → Nat) = fun _ => 0 := by funext a; fin_cases a <;> rfl

/-- The load of the whole padded block reads the block. -/
theorem ld_rImg (x0 : Vec F S1x64x130x130 .f32) : View.ld x0 rImg = x0 :=
  View.ld_unit_zero zeros4 _ x0

/-- The two bands with the whole-block load folded and the weights by tap index. -/
theorem out1_2_eq (x0 : Vec F S1x64x130x130 .f32) (x1 : Vec F S1x64x9 .f32) :
    out1_2 x0 x1 = k1_pay2 (k1_pay4 x0) (k1_pay6 x0 (wts x1 0) (wts x1 1) (wts x1 2) (wts x1 3) (wts x1 4))
      (wts x1 5) (wts x1 6) (wts x1 7) (wts x1 8) := by
  unfold out1_2; rw [ld_rImg]; rfl
theorem out1_3_eq (x0 : Vec F S1x64x130x130 .f32) (x1 : Vec F S1x64x9 .f32) :
    out1_3 x0 x1 = k1_pay3 (k1_pay4 x0) (k1_pay5 x0) (k1_pay6 x0 (wts x1 0) (wts x1 1) (wts x1 2) (wts x1 3) (wts x1 4))
      (wts x1 5) (wts x1 6) (wts x1 7) (wts x1 8) := by
  unfold out1_3; rw [ld_rImg]; rfl

/-! ## The body's triple -/

/-- One store through the whole output block covers it. -/
theorem cover_rOut (p : Vec F S1x64x128x128 .f32) (y : S1x64x128x128.Idx) :
    ∃ pc ∈ ([⟨rOut, p⟩] : List (View.Piece (Elt F) S1x64x128x128 .f32)), y ∈ pc.1.set :=
  ⟨_, List.mem_singleton_self _, View.mem_set_unit_zero (S := S1x64x128x128) zeros4 inb_S1x64x128x128_S1x64x128x128_0_0_0_0 y⟩

set_option maxHeartbeats 1000000 in
/-- The kernel body on whole staging memrefs, the inputs' at read contents and the outputs' at anything, runs to the
    continuation holding the inputs' as they were and the outputs' at the two bands of the inputs. -/
theorem sound_kernel1 (c : Dev nD) (E : Set ℕ) (i : grid1.Coords)
    (arg1 : Memref sig .tc .vmem S1x64x130x130 .f32) (harg1 : arg1.IsWhole) (arg2 : Memref sig .tc .vmem S1x64x9 .f32) (harg2 : arg2.IsWhole)
    (arg3 : Memref sig .tc .vmem S1x64x128x128 .f32) (harg3 : arg3.IsWhole) (arg4 : Memref sig .tc .vmem S1x64x128x128 .f32) (harg4 : arg4.IsWhole)
    (x0 : Vec F S1x64x130x130 .f32) (x1 : Vec F S1x64x9 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out1_2 x0 x1) ∗ owns (c : Thread nD τ) arg4 fullShare (out1_3 x0 x1)) -∗ K ⟨⟩))
      ⊢ wp frame (wpE (defs₀ (F := F)) Variants.none c none) E (cc1__apply_filter_kernel i arg1 harg1 arg2 harg2 arg3 harg3 arg4 harg4) K := by
  simp only [cc1__apply_filter_kernel_eq_skeleton]; unfold cc1__apply_filter_kernel_skel
  simp only [k1_part1_eq_skeleton]; unfold k1_part1_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact (View.read_writes_eq_canon _ _ _ (cover_rOut _)).trans ((View.canon_unit_zero (S := S1x64x128x128) zeros4 _ _).trans rfl)
  iexists _; isplitr
  swap; · iexact H3
  ipureintro
  exact (View.read_writes_eq_canon _ _ _ (cover_rOut _)).trans ((View.canon_unit_zero (S := S1x64x128x128) zeros4 _ _).trans rfl)

/-! ## The pipeline's proof data -/

/-- The proof data of the filter pipeline on core `c`: the arrays as the region finds them (`V`); after the body at
    point `t` each input's buffer at its block and the outputs' at the low and the high band of the input blocks; the
    class's invariant (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
    | ⟨3, _⟩ => out1_3 (iblk1 V c 0 t) (iblk1 V c 1 t)
  Φ _ := Pipeline.ΦA spec1 c
  q _ := fullShare
  owed _ := 0

/-- The proof data's fields, projected. -/
theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem Φ_eq1 (c : Dev nD) (t : Fin (cfg1.N + 1)) : (dat1 V c).Φ t = Pipeline.ΦA spec1 c := by dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem after1_3 (c : Dev nD) (t : Fin cfg1.N) : (dat1 V c).after 3 t = out1_3 (iblk1 V c 0 t) (iblk1 V c 1 t) := by dsimp only [dat1]

/-- Each input's current staging buffer holds its block at every point, fetched there or not: unfetched, the index has
    not moved; the windows are uncut and never idle. -/
theorem before1_0 (c : Dev nD) (t : Fin cfg1.N) (d) : (dat1 V c).before 0 t d = iblk1 V c 0 t := by
  exact ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t := by
  exact ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Filter

end Cert.KernelIdeal.Hand

end
-- ==== Proof.KI.Run.lean ====
/- THE RUN of @main as a list of segments, at any float family.

   @main is four items in order: the first kernel region (the pooling kernel: a sum over the two H-tiles carried in a
   scratch accumulator, scaled at the last point), a stretch of host operations (the filter head), a second stretch
   (the reflecting pad), and the second kernel region (the nine-tap filter, low and high band). Between two items a
   core holds every unscoped buffer whole at a valuation; the valuations are a fold from the launch memory: a host
   stretch maps a valuation to the one after its operations, a region replaces its windows' arrays by what its
   write-backs leave and keeps every other buffer. Each argument array is read back through the fold to its launch
   contents: no host operation writes an argument, the second region has no argument among its arrays, the first
   reads argument 0 through an input window (an input's array is left as entered) and has no other argument among
   its arrays. The launch theorem for a list of segments then gives termination and the final memory. -/
import proofs.«100776_j22771916603489_1_alg».proof.Proof.Gen.KernelIdeal.Launch
import proofs.«100776_j22771916603489_1_alg».proof.Proof.Gen.KernelIdeal.Skeleton
import proofs.«100776_j22771916603489_1_alg».proof.Proof.Gen.KernelIdeal.Points
import proofs.«100776_j22771916603489_1_alg».proof.Proof.Gen.KernelIdeal.Regions
import proofs.«100776_j22771916603489_1_alg».proof.Proof.KI.Gap
import proofs.«100776_j22771916603489_1_alg».proof.Proof.KI.Filter
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary between two items: a fold through @main -/

/-- Core `c`'s buffers at launch. -/
abbrev W0 : Dev nD → Valuation τ sig (Elt F) := fun c b => (s₀ m ρ).mem ((c : Dev nD), b)
/-- The same read at the TensorCore's references: what the first region is entered from. -/
abbrev V0 : (c : Dev nD) → (b : Ref sig .tc) → Buf (Elt F) ((c : Thread nD τ).loc b) := fun c b => W0 m ρ c b
/-- After the first region: its two arrays at what the pipeline leaves (the input as entered, the pooled output's
    write-back at the last point folded in), every other buffer as launched. -/
def W1 (c : Dev nD) : Valuation τ sig (Elt F) :=
  Pipeline.withArrays spec0 c (W0 m ρ c) fun w => (dat0 (V0 m ρ) c).arrAt w cfg0.N
/-- After the first host stretch (the filter head). -/
abbrev W2 : Dev nD → Valuation τ sig (Elt F) := fun c => StableHlo.after hostOps1 (W1 m ρ c)
/-- After the second host stretch (the reflecting pad): what the second region is entered from. -/
abbrev W3 : Dev nD → Valuation τ sig (Elt F) := fun c => StableHlo.after hostOps1_1 (W2 m ρ c)
/-- The same read at the TensorCore's references. -/
abbrev V3 : (c : Dev nD) → (b : Ref sig .tc) → Buf (Elt F) ((c : Thread nD τ).loc b) := fun c b => W3 m ρ c b
/-- After the second region: its four arrays at what the pipeline leaves, every other buffer as entered. -/
def W4 (c : Dev nD) : Valuation τ sig (Elt F) :=
  Pipeline.withArrays spec1 c (W3 m ρ c) fun w => (dat1 (V3 m ρ) c).arrAt w cfg1.N

theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-- The contents at the first region's exit, read at the TensorCore's references. -/
abbrev V1 : (c : Dev nD) → (b : Ref sig .tc) → Buf (Elt F) ((c : Thread nD τ).loc b) := fun c b => W1 m ρ c b
/-- The contents at the second region's exit, read at the TensorCore's references. -/
abbrev V4 : (c : Dev nD) → (b : Ref sig .tc) → Buf (Elt F) ((c : Thread nD τ).loc b) := fun c b => W4 m ρ c b

/-- At a region's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched -/

/-- A buffer that is no array of the second region and that neither host stretch writes holds after the second
    region what it held after the first. -/
theorem W4_back (c : Dev nD) (b : Ref sig .tc) (h1 : ∀ w, Pipeline.arrRef spec1 w ≠ b)
    (hp : b ∉ hostOps1_1_W) (hh : b ∉ hostOps1_W) :
    W4 m ρ c (Proc.devRef .tc b) = W1 m ρ c (Proc.devRef .tc b) :=
  calc W4 m ρ c (Proc.devRef .tc b)
    _ = W3 m ρ c (Proc.devRef .tc b) := W4_of_ne m ρ c b h1
    _ = W2 m ρ c (Proc.devRef .tc b) := StableHlo.after_of_writes_sub hostOps1_1 _ hostOps1_1_writes hp
    _ = W1 m ρ c (Proc.devRef .tc b) := StableHlo.after_of_writes_sub hostOps1 _ hostOps1_writes hh

/-- Argument 0 is the first region's input window: its array is left as entered. -/
theorem W4_main_arg0 (c : Dev nD) : W4 m ρ c (Proc.devRef .tc main_arg0) = m ((c : Thread nD τ).loc main_arg0) :=
  calc W4 m ρ c (Proc.devRef .tc main_arg0)
    _ = W1 m ρ c (Proc.devRef .tc main_arg0) := W4_back m ρ c main_arg0 (by decide) (by decide) (by decide)
    _ = W0 m ρ c (Proc.devRef .tc main_arg0) := (W1_arr m ρ c 0).trans (arr0_in (V0 m ρ) c)
    _ = m ((c : Thread nD τ).loc main_arg0) := rfl
/-- Arguments 1 to 4 are no array of either region. -/
theorem W4_main_arg1 (c : Dev nD) : W4 m ρ c (Proc.devRef .tc main_arg1) = m ((c : Thread nD τ).loc main_arg1) :=
  ((W4_back m ρ c main_arg1 (by decide) (by decide) (by decide)).trans (W1_of_ne m ρ c main_arg1 (by decide))).trans rfl
theorem W4_main_arg2 (c : Dev nD) : W4 m ρ c (Proc.devRef .tc main_arg2) = m ((c : Thread nD τ).loc main_arg2) :=
  ((W4_back m ρ c main_arg2 (by decide) (by decide) (by decide)).trans (W1_of_ne m ρ c main_arg2 (by decide))).trans rfl
theorem W4_main_arg3 (c : Dev nD) : W4 m ρ c (Proc.devRef .tc main_arg3) = m ((c : Thread nD τ).loc main_arg3) :=
  ((W4_back m ρ c main_arg3 (by decide) (by decide) (by decide)).trans (W1_of_ne m ρ c main_arg3 (by decide))).trans rfl
theorem W4_main_arg4 (c : Dev nD) : W4 m ρ c (Proc.devRef .tc main_arg4) = m ((c : Thread nD τ).loc main_arg4) :=
  ((W4_back m ρ c main_arg4 (by decide) (by decide) (by decide)).trans (W1_of_ne m ρ c main_arg4 (by decide))).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    tallies, at nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-- Neither kernel's body takes on a unit: the bound on the recorded pairs stays the whole set at every point. -/
theorem rec0 (c : Dev nD) (t : Fin (cfg0.N + 1)) : (dat0 (V0 m ρ) c).recorded t = Set.univ := rfl
theorem rec1 (c : Dev nD) (t : Fin (cfg1.N + 1)) : (dat1 (V3 m ρ) c).recorded t = Set.univ := rfl

/-- The tallies at nothing owed, with any recorded set, are the first region's tallies at either end. -/
theorem owes_in0 (c : Dev nD) (t : Fin (cfg0.N + 1)) :
    (iprop(∃ W, owes (c : Thread nD τ) (0 : CellTallies nD τ sig Unit) W) : sProp 𝕄) ⊢ (dat0 (V0 m ρ) c).owesAt () t := by
  unfold Pipeline.Dat.owesAt Pipeline.owesWithin Pipeline.Dat.bound
  rw [owed_eq0, rec0]
  iintro ⟨%W, HO⟩; iexists W; isplitr; · ipureintro; exact fun _ _ => Or.inl trivial
  iexact HO
theorem owes_out0 (c : Dev nD) (t : Fin (cfg0.N + 1)) :
    (dat0 (V0 m ρ) c).owesAt () t ⊢ (iprop(∃ W, owes (c : Thread nD τ) (0 : CellTallies nD τ sig Unit) W) : sProp 𝕄) := by
  unfold Pipeline.Dat.owesAt Pipeline.owesWithin
  rw [owed_eq0]
  iintro ⟨%W, -, HO⟩; iexists W; iexact HO
/-- The same of the second region. -/
theorem owes_in1 (c : Dev nD) (t : Fin (cfg1.N + 1)) :
    (iprop(∃ W, owes (c : Thread nD τ) (0 : CellTallies nD τ sig Unit) W) : sProp 𝕄) ⊢ (dat1 (V3 m ρ) c).owesAt () t := by
  unfold Pipeline.Dat.owesAt Pipeline.owesWithin Pipeline.Dat.bound
  rw [owed_eq1, rec1]
  iintro ⟨%W, HO⟩; iexists W; isplitr; · ipureintro; exact fun _ _ => Or.inl trivial
  iexact HO
theorem owes_out1 (c : Dev nD) (t : Fin (cfg1.N + 1)) :
    (dat1 (V3 m ρ) c).owesAt () t ⊢ (iprop(∃ W, owes (c : Thread nD τ) (0 : CellTallies nD τ sig Unit) W) : sProp 𝕄) := by
  unfold Pipeline.Dat.owesAt Pipeline.owesWithin
  rw [owed_eq1]
  iintro ⟨%W, -, HO⟩; iexists W; iexact HO

/-! ## The regions as segments -/

set_option backward.isDefEq.respectTransparency.types false in
/-- THE FIRST REGION over the thread state: entered from every unscoped buffer at the launch contents, left at
    `W1`. Its arrays split out of the unscoped buffers and put back at the exit contents; the generator register
    and the scoped rest into the kernel's invariant at the first point (the class invariant entails it) and out of
    the invariant at the last point (which entails the class invariant); nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun c t => owed_eq0 (V0 m ρ) c t
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V0 m ρ) c w) (V0 m ρ c) fun w => A_eq0 (V0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in0 m ρ c 0); iexact HO
    isplitl [Hp]; · iexact Hp
    iexact Hrest
  hin c := by
    refine BI.Entails.trans (?_ : _ ⊢ Pipeline.ΦA spec0 c) (hin0 (V0 m ρ) c)
    unfold Pipeline.ΦA
    iintro ⟨Hp, -, Hr⟩
    isplitl [Hr]; · iexact Hr
    iexact Hp
  hout c := by
    rw [Pipeline.ownSems0_none]
    refine BI.Entails.trans (hout0 (V0 m ρ) c) (?_ : Pipeline.ΦA spec0 c ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V0 m ρ) c w)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    iapply (owes_out0 m ρ c (Fin.last _)); iexact HO

set_option backward.isDefEq.respectTransparency.types false in
/-- THE SECOND REGION over the thread state: entered from every unscoped buffer at `W3`, left at `W4` (what the
    launch reads at the end). Its invariant is the class invariant at every point. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in1 m ρ c 0); iexact HO
    isplitl [Hp]; · iexact Hp
    iexact Hrest
  hin c := by
    rw [show (pdats m ρ 1 c).Φ 0 = Pipeline.ΦA spec1 c from Φ_eq1 (V3 m ρ) c 0]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from Φ_eq1 (V3 m ρ) c (Fin.last _)]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_out1 m ρ c (Fin.last _)); iexact HO

/-! ## @main as segments, and the launch -/

/-- @main's four segments in order: the first region, the two host stretches each from its boundary's contents,
    the second region. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .region (reg1 m ρ) ]
/-- @main is the run of the segments: its chain of items, then the segments' run against that chain. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and every final memory holds at each unscoped buffer the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME at any float family: every weakly fair execution of @main terminates, nothing faulting, and every
    final memory has the five argument arrays as launched: the run, each argument read back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩) (run m ρ)

end Cert.KernelIdeal.Hand

end
-- ==== Proof.RI.GapTerm.lean ====
/-
  The reference's pooled mean as one function of the sample array: the sum over the two spatial axes
  (from zero) divided by the number of positions, 16384.
-/
import proofs.«100776_j22771916603489_1_alg».proof.ReferenceIdeal

noncomputable section

namespace Cert.ReferenceIdeal.Hand

open Cert.ReferenceIdeal Idealize.ShloMosaic Idealize.SL.Sem

variable {F : FTy → Type} [FloatOps F] [Cert.ReferenceIdeal.Facts]

open Cert.ReferenceIdeal.Facts₀ in
/-- `sum over (h, w) of x[n, c, h, w]`, started at zero, divided by 16384. -/
def gapRef (x : (⟨S8x64x128x128, .f32⟩ : BufTy).Contents (Elt F)) : (⟨S8x64, .f32⟩ : BufTy).Contents (Elt F) :=
  Host.divf (Host.reduceAdd x (constant S_ .f32 0x00000000#32) reducesTo_S8x64x128x128_S8x64_d2_3 h_S_)
    (broadcastInDim S8x64 ![] bcast_S_S8x64 (constant S_ .f32 0x46800000#32))

end Cert.ReferenceIdeal.Hand

end
-- ==== Proof.RI.Run.lean ====
/-
  The reference's run. @main is a straight line of host operations: the pooled mean (five operations), the
  filter head (fifty-nine), the reflect pad's sixteen operations written in line at its one call, and the nine
  taps with the closing subtraction (sixty-six). The line is cut into those four stretches; every weakly fair
  execution ends with each buffer at the fold of the stretches over the launch contents, and a buffer a stretch
  does not write passes through it unchanged.
-/
import proofs.«100776_j22771916603489_1_alg».proof.Proof.Gen.ReferenceIdeal
import proofs.«100776_j22771916603489_1_alg».proof.Proof.RI.GapTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The four stretches -/

/-- The pooled mean: the zero, the sum over the two spatial axes started at it, the count 16384 (word 0x46800000) spread
    over [8,64], the quotient. -/
abbrev opsA : List (HloOp τ sig (Elt F)) :=
  [ StableHlo.nullary main_cst (constant S_ .f32 0x00000000#32),
    StableHlo.binary main_arg0 main_cst main_v0 ((fun x v => Host.reduceAdd x v reducesTo_S8x64x128x128_S8x64_d2_3 h_S_) : (⟨S8x64x128x128, .f32⟩ : BufTy).Contents (Elt F) → (⟨S_, .f32⟩ : BufTy).Contents (Elt F) → (⟨S8x64, .f32⟩ : BufTy).Contents (Elt F)),
    StableHlo.nullary main_cst_0 (constant S_ .f32 0x46800000#32),
    StableHlo.unary main_cst_0 main_v1 (broadcastInDim S8x64 ![] bcast_S_S8x64 : (⟨S_, .f32⟩ : BufTy).Contents (Elt F) → (⟨S8x64, .f32⟩ : BufTy).Contents (Elt F)),
    StableHlo.binary main_v0 main_v1 main_v2 (Host.divf : (⟨S8x64, .f32⟩ : BufTy).Contents (Elt F) → (⟨S8x64, .f32⟩ : BufTy).Contents (Elt F) → (⟨S8x64, .f32⟩ : BufTy).Contents (Elt F)) ]

/-- The filter head on the pooled mean g [8,64]: u = g · w_conv^T [8,72], v = u * sigmoid (u · w_gate^T), v normalized
    over its 72 features (mean and variance divided by 72, the constant 0x3727C5AC added under the root) and scaled by
    gamma, shifted by beta, cast to [8,8,9], a softmax over the last axis (the maximum subtracted first), and each of the
    eight groups' nine weights repeated for the group's eight channels: the tap weights [8,64,9]. -/
abbrev opsB : List (HloOp τ sig (Elt F)) :=
  [ StableHlo.unary main_arg1 main_v3 ((transpose S64x72 [1, 0] · transposes_S72x64_S64x72_1_0) : (⟨S72x64, .f32⟩ : BufTy).Contents (Elt F) → (⟨S64x72, .f32⟩ : BufTy).Contents (Elt F)),
    StableHlo.binary main_v2 main_v3 main_v4 ((fun l r => Host.dotGeneral dot_S8x64_S64x72_S8x72_1_0_0_1_n_n none l r) : (⟨S8x64, .f32⟩ : BufTy).Contents (Elt F) → (⟨S64x72, .f32⟩ : BufTy).Contents (Elt F) → (⟨S8x72, .f32⟩ : BufTy).Contents (Elt F)),
    StableHlo.unary main_arg2 main_v5 ((transpose S72x72 [1, 0] · transposes_S72x72_S72x72_1_0) : (⟨S72x72, .f32⟩ : BufTy).Contents (Elt F) → (⟨S72x72, .f32⟩ : BufTy).Contents (Elt F)),
    StableHlo.binary main_v4 main_v5 main_v6 ((fun l r => Host.dotGeneral dot_S8x72_S72x72_S8x72_1_0_0_1_n_n none l r) : (⟨S8x72, .f32⟩ : BufTy).Contents (Elt F) → (⟨S72x72, .f32⟩ : BufTy).Contents (Elt F) → (⟨S8x72, .f32⟩ : BufTy).Contents (Elt F)),
    StableHlo.unary main_v6 main_v7 (Host.negf : (⟨S8x72, .f32⟩ : BufTy).Contents (Elt F) → (⟨S8x72, .f32⟩ : BufTy).Contents (Elt F)),
    StableHlo.unary main_v7 main_v8 (Host.exp : (⟨S8x72, .f32⟩ : BufTy).Contents (Elt F) → (⟨S8x72, .f32⟩ : BufTy).Contents (Elt F)),
    StableHlo.nullary main_cst_1 (constant S_ .f32 0x3F800000#32),
    StableHlo.unary main_cst_1 main_v9 (broadcastInDim S8x72 ![] bcast_S_S8x72 : (⟨S_, .f32⟩ : BufTy).Contents (Elt F) → (⟨S8x72, .f32⟩ : BufTy).Contents (Elt F)),
    StableHlo.binary main_v9 main_v8 main_v10 (addf : (⟨S8x72, .f32⟩ : BufTy).Contents (Elt F) → (⟨S8x72, .f32⟩ : BufTy).Contents (Elt F) → (⟨S8x72, .f32⟩ : BufTy).Contents (Elt F)),
    StableHlo.nullary main_cst_2 (constant S_ .f32 0x3F800000#32),
    StableHlo.unary main_cst_2 main_v11 (broadcastInDim S8x72 ![] bcast_S_S8x72 : (⟨S_, .f32⟩ : BufTy).Contents (Elt F) → (⟨S8x72, .f32⟩ : BufTy).Contents (Elt F)),
    StableHlo.binary main_v11 main_v10 main_v12 (Host.divf : (⟨S8x72, .f32⟩ : BufTy).Contents (Elt F) → (⟨S8x72, .f32⟩ : BufTy).Contents (Elt F) → (⟨S8x72, .f32⟩ : BufTy).Contents (Elt F)),
    StableHlo.binary main_v4 main_v12 main_v13 (mulf : (⟨S8x72, .f32⟩ : BufTy).Contents (Elt F) → (⟨S8x72, .f32⟩ : BufTy).Contents (Elt F) → (⟨S8x72, .f32⟩ : BufTy).Contents (Elt F)),
    StableHlo.nullary main_cst_3 (constant S_ .f32 0x00000000#32),
    StableHlo.binary main_v13 main_cst_3 main_v14 ((fun x v => Host.reduceAdd x v reducesTo_S8x72_S8_d1 h_S_) : (⟨S8x72, .f32⟩ : BufTy).Contents (Elt F) → (⟨S_, .f32⟩ : BufTy).Contents (Elt F) → (⟨S8, .f32⟩ : BufTy).Contents (Elt F)),
    StableHlo.unary main_v14 main_v15 (broadcastInDim S8x1 ![0] bcast_S8_S8x1_0 : (⟨S8, .f32⟩ : BufTy).Contents (Elt F) → (⟨S8x1, .f32⟩ : BufTy).Contents (Elt F)),
    StableHlo.nullary main_cst_4 (constant S_ .f32 0x42900000#32),
    StableHlo.unary main_cst_4 main_v16 (broadcastInDim S8x1 ![] bcast_S_S8x1 : (⟨S_, .f32⟩ : BufTy).Contents (Elt F) → (⟨S8x1, .f32⟩ : BufTy).Contents (Elt F)),
    StableHlo.binary main_v15 main_v16 main_v17 (Host.divf : (⟨S8x1, .f32⟩ : BufTy).Contents (Elt F) → (⟨S8x1, .f32⟩ : BufTy).Contents (Elt F) → (⟨S8x1, .f32⟩ : BufTy).Contents (Elt F)),
    StableHlo.unary main_v17 main_v18 (broadcastInDim S8x72 ![0, 1] bcast_S8x1_S8x72_0_1 : (⟨S8x1, .f32⟩ : BufTy).Contents (Elt F) → (⟨S8x72, .f32⟩ : BufTy).Contents (Elt F)),
    StableHlo.binary main_v13 main_v18 main_v19 (subf : (⟨S8x72, .f32⟩ : BufTy).Contents (Elt F) → (⟨S8x72, .f32⟩ : BufTy).Contents (Elt F) → (⟨S8x72, .f32⟩ : BufTy).Contents (Elt F)),
    StableHlo.binary main_v19 main_v19 main_v20 (mulf : (⟨S8x72, .f32⟩ : BufTy).Contents (Elt F) → (⟨S8x72, .f32⟩ : BufTy).Contents (Elt F) → (⟨S8x72, .f32⟩ : BufTy).Contents (Elt F)),
    StableHlo.nullary main_cst_5 (constant S_ .f32 0x00000000#32),
    StableHlo.binary main_v20 main_cst_5 main_v21 ((fun x v => Host.reduceAdd x v reducesTo_S8x72_S8_d1 h_S_) : (⟨S8x72, .f32⟩ : BufTy).Contents (Elt F) → (⟨S_, .f32⟩ : BufTy).Contents (Elt F) → (⟨S8, .f32⟩ : BufTy).Contents (Elt F)),
    StableHlo.unary main_v21 main_v22 (broadcastInDim S8x1 ![0] bcast_S8_S8x1_0 : (⟨S8, .f32⟩ : BufTy).Contents (Elt F) → (⟨S8x1, .f32⟩ : BufTy).Contents (Elt F)),
    StableHlo.nullary main_cst_6 (constant S_ .f32 0x42900000#32),
    StableHlo.unary main_cst_6 main_v23 (broadcastInDim S8x1 ![] bcast_S_S8x1 : (⟨S_, .f32⟩ : BufTy).Contents (Elt F) → (⟨S8x1, .f32⟩ : BufTy).Contents (Elt F)),
    StableHlo.binary main_v22 main_v23 main_v24 (Host.divf : (⟨S8x1, .f32⟩ : BufTy).Contents (Elt F) → (⟨S8x1, .f32⟩ : BufTy).Contents (Elt F) → (⟨S8x1, .f32⟩ : BufTy).Contents (Elt F)),
    StableHlo.unary main_v17 main_v25 (broadcastInDim S8x72 ![0, 1] bcast_S8x1_S8x72_0_1 : (⟨S8x1, .f32⟩ : BufTy).Contents (Elt F) → (⟨S8x72, .f32⟩ : BufTy).Contents (Elt F)),
    StableHlo.binary main_v13 main_v25 main_v26 (subf : (⟨S8x72, .f32⟩ : BufTy).Contents (Elt F) → (⟨S8x72, .f32⟩ : BufTy).Contents (Elt F) → (⟨S8x72, .f32⟩ : BufTy).Contents (Elt F)),
    StableHlo.nullary main_cst_7 (constant S_ .f32 0x3727C5AC#32),
    StableHlo.unary main_cst_7 main_v27 (broadcastInDim S8x1 ![] bcast_S_S8x1 : (⟨S_, .f32⟩ : BufTy).Contents (Elt F) → (⟨S8x1, .f32⟩ : BufTy).Contents (Elt F)),
    StableHlo.binary main_v24 main_v27 main_v28 (addf : (⟨S8x1, .f32⟩ : BufTy).Contents (Elt F) → (⟨S8x1, .f32⟩ : BufTy).Contents (Elt F) → (⟨S8x1, .f32⟩ : BufTy).Contents (Elt F)),
    StableHlo.unary main_v28 main_v29 (Host.sqrt : (⟨S8x1, .f32⟩ : BufTy).Contents (Elt F) → (⟨S8x1, .f32⟩ : BufTy).Contents (Elt F)),
    StableHlo.unary main_v29 main_v30 (broadcastInDim S8x72 ![0, 1] bcast_S8x1_S8x72_0_1 : (⟨S8x1, .f32⟩ : BufTy).Contents (Elt F) → (⟨S8x72, .f32⟩ : BufTy).Contents (Elt F)),
    StableHlo.binary main_v26 main_v30 main_v31 (Host.divf : (⟨S8x72, .f32⟩ : BufTy).Contents (Elt F) → (⟨S8x72, .f32⟩ : BufTy).Contents (Elt F) → (⟨S8x72, .f32⟩ : BufTy).Contents (Elt F)),
    StableHlo.unary main_arg3 main_v32 (broadcastInDim S1x72 ![1] bcast_S72_S1x72_1 : (⟨S72, .f32⟩ : BufTy).Contents (Elt F) → (⟨S1x72, .f32⟩ : BufTy).Contents (Elt F)),
    StableHlo.unary main_v32 main_v33 (broadcastInDim S8x72 ![0, 1] bcast_S1x72_S8x72_0_1 : (⟨S1x72, .f32⟩ : BufTy).Contents (Elt F) → (⟨S8x72, .f32⟩ : BufTy).Contents (Elt F)),
    StableHlo.binary main_v31 main_v33 main_v34 (mulf : (⟨S8x72, .f32⟩ : BufTy).Contents (Elt F) → (⟨S8x72, .f32⟩ : BufTy).Contents (Elt F) → (⟨S8x72, .f32⟩ : BufTy).Contents (Elt F)),
    StableHlo.unary main_arg4 main_v35 (broadcastInDim S1x72 ![1] bcast_S72_S1x72_1 : (⟨S72, .f32⟩ : BufTy).Contents (Elt F) → (⟨S1x72, .f32⟩ : BufTy).Contents (Elt F)),
    StableHlo.unary main_v35 main_v36 (broadcastInDim S8x72 ![0, 1] bcast_S1x72_S8x72_0_1 : (⟨S1x72, .f32⟩ : BufTy).Contents (Elt F) → (⟨S8x72, .f32⟩ : BufTy).Contents (Elt F)),
    StableHlo.binary main_v34 main_v36 main_v37 (addf : (⟨S8x72, .f32⟩ : BufTy).Contents (Elt F) → (⟨S8x72, .f32⟩ : BufTy).Contents (Elt F) → (⟨S8x72, .f32⟩ : BufTy).Contents (Elt F)),
    StableHlo.reshape main_v37 main_v38 rfl shapeCasts_S8x72_S8x8x9,
    StableHlo.nullary main_cst_8 (constant S_ .f32 0xFF800000#32),
    StableHlo.binary main_v38 main_cst_8 main_v39 ((fun x v => Host.reduce FloatOps.maximumf x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    StableHlo.nullary main_cst_9 (constant S_ .f32 0xFF800000#32),
    StableHlo.unary main_cst_9 main_v40 (broadcastInDim S8x8 ![] bcast_S_S8x8 : (⟨S_, .f32⟩ : BufTy).Contents (Elt F) → (⟨S8x8, .f32⟩ : BufTy).Contents (Elt F)),
    StableHlo.binary main_v40 main_v39 main_v41 (maximumf : (⟨S8x8, .f32⟩ : BufTy).Contents (Elt F) → (⟨S8x8, .f32⟩ : BufTy).Contents (Elt F) → (⟨S8x8, .f32⟩ : BufTy).Contents (Elt F)),
    StableHlo.unary main_v41 main_v42 (broadcastInDim S8x8x1 ![0, 1] bcast_S8x8_S8x8x1_0_1 : (⟨S8x8, .f32⟩ : BufTy).Contents (Elt F) → (⟨S8x8x1, .f32⟩ : BufTy).Contents (Elt F)),
    StableHlo.unary main_v42 main_v43 (broadcastInDim S8x8x9 ![0, 1, 2] bcast_S8x8x1_S8x8x9_0_1_2 : (⟨S8x8x1, .f32⟩ : BufTy).Contents (Elt F) → (⟨S8x8x9, .f32⟩ : BufTy).Contents (Elt F)),
    StableHlo.binary main_v38 main_v43 main_v44 (subf : (⟨S8x8x9, .f32⟩ : BufTy).Contents (Elt F) → (⟨S8x8x9, .f32⟩ : BufTy).Contents (Elt F) → (⟨S8x8x9, .f32⟩ : BufTy).Contents (Elt F)),
    StableHlo.unary main_v44 main_v45 (Host.exp : (⟨S8x8x9, .f32⟩ : BufTy).Contents (Elt F) → (⟨S8x8x9, .f32⟩ : BufTy).Contents (Elt F)),
    StableHlo.nullary main_cst_10 (constant S_ .f32 0x00000000#32),
    StableHlo.binary main_v45 main_cst_10 main_v46 ((fun x v => Host.reduceAdd x v reducesTo_S8x8x9_S8x8_d2 h_S_) : (⟨S8x8x9, .f32⟩ : BufTy).Contents (Elt F) → (⟨S_, .f32⟩ : BufTy).Contents (Elt F) → (⟨S8x8, .f32⟩ : BufTy).Contents (Elt F)),
    StableHlo.unary main_v46 main_v47 (broadcastInDim S8x8x1 ![0, 1] bcast_S8x8_S8x8x1_0_1 : (⟨S8x8, .f32⟩ : BufTy).Contents (Elt F) → (⟨S8x8x1, .f32⟩ : BufTy).Contents (Elt F)),
    StableHlo.unary main_v47 main_v48 (broadcastInDim S8x8x9 ![0, 1, 2] bcast_S8x8x1_S8x8x9_0_1_2 : (⟨S8x8x1, .f32⟩ : BufTy).Contents (Elt F) → (⟨S8x8x9, .f32⟩ : BufTy).Contents (Elt F)),
    StableHlo.binary main_v45 main_v48 main_v49 (Host.divf : (⟨S8x8x9, .f32⟩ : BufTy).Contents (Elt F) → (⟨S8x8x9, .f32⟩ : BufTy).Contents (Elt F) → (⟨S8x8x9, .f32⟩ : BufTy).Contents (Elt F)),
    StableHlo.unary main_v49 main_v50 (broadcastInDim S8x8x8x9 ![0, 1, 3] bcast_S8x8x9_S8x8x8x9_0_1_3 : (⟨S8x8x9, .f32⟩ : BufTy).Contents (Elt F) → (⟨S8x8x8x9, .f32⟩ : BufTy).Contents (Elt F)),
    StableHlo.reshape main_v50 main_v51 rfl shapeCasts_S8x8x8x9_S8x64x9 ]

/-- The integer zero the pad's call takes and ignores, then the reflect pad of the sample array by one position on each
    side of the two spatial axes, its sixteen operations in line: row 1 set above row 0 and row 126 below row 127 (each
    reversed along its own axis of length one; the slices of row 0 and of the new row 128 are taken and not used), then
    column 1 before column 0 and column 126 after column 127 of that result likewise: [8,64,130,130]. -/
abbrev opsC : List (HloOp τ sig (Elt F)) :=
  [ StableHlo.nullary main_c (constantI S_ 32 0#32),
    StableHlo.TRef.unary (.of main_arg0 : StableHlo.TRef sig ⟨S8x64x128x128, .f32⟩) (.of main_call0_v0 : StableHlo.TRef sig ⟨S8x64x1x128, .f32⟩) (extractStridedSlice S8x64x1x128 ![0, 0, 0, 0] · slices_S8x64x128x128_S8x64x1x128_0_0_0_0),
    StableHlo.TRef.unary (.of main_arg0 : StableHlo.TRef sig ⟨S8x64x128x128, .f32⟩) (.of main_call0_v1 : StableHlo.TRef sig ⟨S8x64x1x128, .f32⟩) (extractStridedSlice S8x64x1x128 ![0, 0, 1, 0] · slices_S8x64x128x128_S8x64x1x128_0_0_1_0),
    StableHlo.TRef.unary (.of main_call0_v1 : StableHlo.TRef sig ⟨S8x64x1x128, .f32⟩) (.of main_call0_v2 : StableHlo.TRef sig ⟨S8x64x1x128, .f32⟩) (Host.reverse [2]),
    StableHlo.TRef.binary main_call0_call0.v0 (.of main_arg0 : StableHlo.TRef sig ⟨S8x64x128x128, .f32⟩) (.of main_call0_v3 : StableHlo.TRef sig ⟨S8x64x129x128, .f32⟩) (fun a b => concatenate S8x64x129x128 2 [⟨S8x64x1x128, a⟩, ⟨S8x64x128x128, b⟩] concatenates_S8x64x1x128_S8x64x128x128_S8x64x129x128_d2),
    StableHlo.TRef.unary (.of main_call0_v3 : StableHlo.TRef sig ⟨S8x64x129x128, .f32⟩) (.of main_call0_v4 : StableHlo.TRef sig ⟨S8x64x1x128, .f32⟩) (extractStridedSlice S8x64x1x128 ![0, 0, 128, 0] · slices_S8x64x129x128_S8x64x1x128_0_0_128_0),
    StableHlo.TRef.unary (.of main_call0_v3 : StableHlo.TRef sig ⟨S8x64x129x128, .f32⟩) (.of main_call0_v5 : StableHlo.TRef sig ⟨S8x64x1x128, .f32⟩) (extractStridedSlice S8x64x1x128 ![0, 0, 127, 0] · slices_S8x64x129x128_S8x64x1x128_0_0_127_0),
    StableHlo.TRef.unary (.of main_call0_v5 : StableHlo.TRef sig ⟨S8x64x1x128, .f32⟩) (.of main_call0_v6 : StableHlo.TRef sig ⟨S8x64x1x128, .f32⟩) (Host.reverse [2]),
    StableHlo.TRef.binary (.of main_call0_v3 : StableHlo.TRef sig ⟨S8x64x129x128, .f32⟩) main_call0_call1.v0 (.of main_call0_v7 : StableHlo.TRef sig ⟨S8x64x130x128, .f32⟩) (fun a b => concatenate S8x64x130x128 2 [⟨S8x64x129x128, a⟩, ⟨S8x64x1x128, b⟩] concatenates_S8x64x129x128_S8x64x1x128_S8x64x130x128_d2),
    StableHlo.TRef.unary (.of main_call0_v7 : StableHlo.TRef sig ⟨S8x64x130x128, .f32⟩) (.of main_call0_v8 : StableHlo.TRef sig ⟨S8x64x130x1, .f32⟩) (extractStridedSlice S8x64x130x1 ![0, 0, 0, 0] · slices_S8x64x130x128_S8x64x130x1_0_0_0_0),
    StableHlo.TRef.unary (.of main_call0_v7 : StableHlo.TRef sig ⟨S8x64x130x128, .f32⟩) (.of main_call0_v9 : StableHlo.TRef sig ⟨S8x64x130x1, .f32⟩) (extractStridedSlice S8x64x130x1 ![0, 0, 0, 1] · slices_S8x64x130x128_S8x64x130x1_0_0_0_1),
    StableHlo.TRef.unary (.of main_call0_v9 : StableHlo.TRef sig ⟨S8x64x130x1, .f32⟩) (.of main_call0_v10 : StableHlo.TRef sig ⟨S8x64x130x1, .f32⟩) (Host.reverse [3]),
    StableHlo.TRef.binary main_call0_call2.v0 (.of main_call0_v7 : StableHlo.TRef sig ⟨S8x64x130x128, .f32⟩) (.of main_call0_v11 : StableHlo.TRef sig ⟨S8x64x130x129, .f32⟩) (fun a b => concatenate S8x64x130x129 3 [⟨S8x64x130x1, a⟩, ⟨S8x64x130x128, b⟩] concatenates_S8x64x130x1_S8x64x130x128_S8x64x130x129_d3),
    StableHlo.TRef.unary (.of main_call0_v11 : StableHlo.TRef sig ⟨S8x64x130x129, .f32⟩) (.of main_call0_v12 : StableHlo.TRef sig ⟨S8x64x130x1, .f32⟩) (extractStridedSlice S8x64x130x1 ![0, 0, 0, 128] · slices_S8x64x130x129_S8x64x130x1_0_0_0_128),
    StableHlo.TRef.unary (.of main_call0_v11 : StableHlo.TRef sig ⟨S8x64x130x129, .f32⟩) (.of main_call0_v13 : StableHlo.TRef sig ⟨S8x64x130x1, .f32⟩) (extractStridedSlice S8x64x130x1 ![0, 0, 0, 127] · slices_S8x64x130x129_S8x64x130x1_0_0_0_127),
    StableHlo.TRef.unary (.of main_call0_v13 : StableHlo.TRef sig ⟨S8x64x130x1, .f32⟩) (.of main_call0_v14 : StableHlo.TRef sig ⟨S8x64x130x1, .f32⟩) (Host.reverse [3]),
    StableHlo.TRef.binary (.of main_call0_v11 : StableHlo.TRef sig ⟨S8x64x130x129, .f32⟩) main_call0_call3.v0 (.of main_v52 : StableHlo.TRef sig ⟨S8x64x130x130, .f32⟩) (fun a b => concatenate S8x64x130x130 3 [⟨S8x64x130x129, a⟩, ⟨S8x64x130x1, b⟩] concatenates_S8x64x130x129_S8x64x130x1_S8x64x130x130_d3) ]

/-- The nine taps in row-major order, each the shifted slice of the padded array times its weight spread over the
    spatial axes, added left to right onto zero: the low band; then the sample minus the low band: the high band. -/
abbrev opsD : List (HloOp τ sig (Elt F)) :=
  [ StableHlo.nullary main_cst_11 (constant S_ .f32 0x00000000#32),
    StableHlo.unary main_cst_11 main_v53 (broadcastInDim S8x64x128x128 ![] bcast_S_S8x64x128x128 : (⟨S_, .f32⟩ : BufTy).Contents (Elt F) → (⟨S8x64x128x128, .f32⟩ : BufTy).Contents (Elt F)),
    StableHlo.unary main_v52 main_v54 ((extractStridedSlice S8x64x128x128 ![0, 0, 0, 0] · slices_S8x64x130x130_S8x64x128x128_0_0_0_0) : (⟨S8x64x130x130, .f32⟩ : BufTy).Contents (Elt F) → (⟨S8x64x128x128, .f32⟩ : BufTy).Contents (Elt F)),
    StableHlo.unary main_v51 main_v55 ((extractStridedSlice S8x64x1 ![0, 0, 0] · slices_S8x64x9_S8x64x1_0_0_0) : (⟨S8x64x9, .f32⟩ : BufTy).Contents (Elt F) → (⟨S8x64x1, .f32⟩ : BufTy).Contents (Elt F)),
    StableHlo.reshape main_v55 main_v56 rfl shapeCasts_S8x64x1_S8x64,
    StableHlo.unary main_v56 main_v57 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v57 main_v58 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v54 main_v58 main_v59 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v53 main_v59 main_v60 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v61 ((extractStridedSlice S8x64x128x128 ![0, 0, 0, 1] · slices_S8x64x130x130_S8x64x128x128_0_0_0_1) : (⟨S8x64x130x130, .f32⟩ : BufTy).Contents (Elt F) → (⟨S8x64x128x128, .f32⟩ : BufTy).Contents (Elt F)),
    StableHlo.unary main_v51 main_v62 ((extractStridedSlice S8x64x1 ![0, 0, 1] · slices_S8x64x9_S8x64x1_0_0_1) : (⟨S8x64x9, .f32⟩ : BufTy).Contents (Elt F) → (⟨S8x64x1, .f32⟩ : BufTy).Contents (Elt F)),
    StableHlo.reshape main_v62 main_v63 rfl shapeCasts_S8x64x1_S8x64,
    StableHlo.unary main_v63 main_v64 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v64 main_v65 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v61 main_v65 main_v66 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v60 main_v66 main_v67 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v68 ((extractStridedSlice S8x64x128x128 ![0, 0, 0, 2] · slices_S8x64x130x130_S8x64x128x128_0_0_0_2) : (⟨S8x64x130x130, .f32⟩ : BufTy).Contents (Elt F) → (⟨S8x64x128x128, .f32⟩ : BufTy).Contents (Elt F)),
    StableHlo.unary main_v51 main_v69 ((extractStridedSlice S8x64x1 ![0, 0, 2] · slices_S8x64x9_S8x64x1_0_0_2) : (⟨S8x64x9, .f32⟩ : BufTy).Contents (Elt F) → (⟨S8x64x1, .f32⟩ : BufTy).Contents (Elt F)),
    StableHlo.reshape main_v69 main_v70 rfl shapeCasts_S8x64x1_S8x64,
    StableHlo.unary main_v70 main_v71 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v71 main_v72 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v68 main_v72 main_v73 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v67 main_v73 main_v74 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v75 ((extractStridedSlice S8x64x128x128 ![0, 0, 1, 0] · slices_S8x64x130x130_S8x64x128x128_0_0_1_0) : (⟨S8x64x130x130, .f32⟩ : BufTy).Contents (Elt F) → (⟨S8x64x128x128, .f32⟩ : BufTy).Contents (Elt F)),
    StableHlo.unary main_v51 main_v76 ((extractStridedSlice S8x64x1 ![0, 0, 3] · slices_S8x64x9_S8x64x1_0_0_3) : (⟨S8x64x9, .f32⟩ : BufTy).Contents (Elt F) → (⟨S8x64x1, .f32⟩ : BufTy).Contents (Elt F)),
    StableHlo.reshape main_v76 main_v77 rfl shapeCasts_S8x64x1_S8x64,
    StableHlo.unary main_v77 main_v78 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v78 main_v79 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v75 main_v79 main_v80 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v74 main_v80 main_v81 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v82 ((extractStridedSlice S8x64x128x128 ![0, 0, 1, 1] · slices_S8x64x130x130_S8x64x128x128_0_0_1_1) : (⟨S8x64x130x130, .f32⟩ : BufTy).Contents (Elt F) → (⟨S8x64x128x128, .f32⟩ : BufTy).Contents (Elt F)),
    StableHlo.unary main_v51 main_v83 ((extractStridedSlice S8x64x1 ![0, 0, 4] · slices_S8x64x9_S8x64x1_0_0_4) : (⟨S8x64x9, .f32⟩ : BufTy).Contents (Elt F) → (⟨S8x64x1, .f32⟩ : BufTy).Contents (Elt F)),
    StableHlo.reshape main_v83 main_v84 rfl shapeCasts_S8x64x1_S8x64,
    StableHlo.unary main_v84 main_v85 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v85 main_v86 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v82 main_v86 main_v87 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v81 main_v87 main_v88 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v89 ((extractStridedSlice S8x64x128x128 ![0, 0, 1, 2] · slices_S8x64x130x130_S8x64x128x128_0_0_1_2) : (⟨S8x64x130x130, .f32⟩ : BufTy).Contents (Elt F) → (⟨S8x64x128x128, .f32⟩ : BufTy).Contents (Elt F)),
    StableHlo.unary main_v51 main_v90 ((extractStridedSlice S8x64x1 ![0, 0, 5] · slices_S8x64x9_S8x64x1_0_0_5) : (⟨S8x64x9, .f32⟩ : BufTy).Contents (Elt F) → (⟨S8x64x1, .f32⟩ : BufTy).Contents (Elt F)),
    StableHlo.reshape main_v90 main_v91 rfl shapeCasts_S8x64x1_S8x64,
    StableHlo.unary main_v91 main_v92 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v92 main_v93 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v89 main_v93 main_v94 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v88 main_v94 main_v95 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v96 ((extractStridedSlice S8x64x128x128 ![0, 0, 2, 0] · slices_S8x64x130x130_S8x64x128x128_0_0_2_0) : (⟨S8x64x130x130, .f32⟩ : BufTy).Contents (Elt F) → (⟨S8x64x128x128, .f32⟩ : BufTy).Contents (Elt F)),
    StableHlo.unary main_v51 main_v97 ((extractStridedSlice S8x64x1 ![0, 0, 6] · slices_S8x64x9_S8x64x1_0_0_6) : (⟨S8x64x9, .f32⟩ : BufTy).Contents (Elt F) → (⟨S8x64x1, .f32⟩ : BufTy).Contents (Elt F)),
    StableHlo.reshape main_v97 main_v98 rfl shapeCasts_S8x64x1_S8x64,
    StableHlo.unary main_v98 main_v99 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v99 main_v100 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v96 main_v100 main_v101 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v95 main_v101 main_v102 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v103 ((extractStridedSlice S8x64x128x128 ![0, 0, 2, 1] · slices_S8x64x130x130_S8x64x128x128_0_0_2_1) : (⟨S8x64x130x130, .f32⟩ : BufTy).Contents (Elt F) → (⟨S8x64x128x128, .f32⟩ : BufTy).Contents (Elt F)),
    StableHlo.unary main_v51 main_v104 ((extractStridedSlice S8x64x1 ![0, 0, 7] · slices_S8x64x9_S8x64x1_0_0_7) : (⟨S8x64x9, .f32⟩ : BufTy).Contents (Elt F) → (⟨S8x64x1, .f32⟩ : BufTy).Contents (Elt F)),
    StableHlo.reshape main_v104 main_v105 rfl shapeCasts_S8x64x1_S8x64,
    StableHlo.unary main_v105 main_v106 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v106 main_v107 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v103 main_v107 main_v108 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v102 main_v108 main_v109 (addf : (⟨S8x64x128x128, .f32⟩ : BufTy).Contents (Elt F) → (⟨S8x64x128x128, .f32⟩ : BufTy).Contents (Elt F) → (⟨S8x64x128x128, .f32⟩ : BufTy).Contents (Elt F)),
    StableHlo.unary main_v52 main_v110 ((extractStridedSlice S8x64x128x128 ![0, 0, 2, 2] · slices_S8x64x130x130_S8x64x128x128_0_0_2_2) : (⟨S8x64x130x130, .f32⟩ : BufTy).Contents (Elt F) → (⟨S8x64x128x128, .f32⟩ : BufTy).Contents (Elt F)),
    StableHlo.unary main_v51 main_v111 ((extractStridedSlice S8x64x1 ![0, 0, 8] · slices_S8x64x9_S8x64x1_0_0_8) : (⟨S8x64x9, .f32⟩ : BufTy).Contents (Elt F) → (⟨S8x64x1, .f32⟩ : BufTy).Contents (Elt F)),
    StableHlo.reshape main_v111 main_v112 rfl shapeCasts_S8x64x1_S8x64,
    StableHlo.unary main_v112 main_v113 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v113 main_v114 (broadcastInDim S8x64x128x128 ![0, 1, 2, 3] bcast_S8x64x1x1_S8x64x128x128_0_1_2_3 : (⟨S8x64x1x1, .f32⟩ : BufTy).Contents (Elt F) → (⟨S8x64x128x128, .f32⟩ : BufTy).Contents (Elt F)),
    StableHlo.binary main_v110 main_v114 main_v115 (mulf : (⟨S8x64x128x128, .f32⟩ : BufTy).Contents (Elt F) → (⟨S8x64x128x128, .f32⟩ : BufTy).Contents (Elt F) → (⟨S8x64x128x128, .f32⟩ : BufTy).Contents (Elt F)),
    StableHlo.binary main_v109 main_v115 main_v116 (addf : (⟨S8x64x128x128, .f32⟩ : BufTy).Contents (Elt F) → (⟨S8x64x128x128, .f32⟩ : BufTy).Contents (Elt F) → (⟨S8x64x128x128, .f32⟩ : BufTy).Contents (Elt F)),
    StableHlo.binary main_arg0 main_v116 main_v117 (subf : (⟨S8x64x128x128, .f32⟩ : BufTy).Contents (Elt F) → (⟨S8x64x128x128, .f32⟩ : BufTy).Contents (Elt F) → (⟨S8x64x128x128, .f32⟩ : BufTy).Contents (Elt F)) ]

/-- @main's operations, in order. -/
abbrev ops : List (HloOp τ sig (Elt F)) := opsA ++ opsB ++ opsC ++ opsD

/-! ## @main is that line -/

set_option maxRecDepth 8192 in
set_option maxHeartbeats 1600000 in
theorem main_eq (c : Dev nD) : main (F := F) c = seq ops := by
  simp only [main, main_part0, main_part1, main_part2, fn_pad.body, fn_flip.body, fn_flip_0.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., binary_bufs_sub .., nullary_bufs_sub .., unary_bufs_sub .., binary_bufs_sub ..⟩
theorem opsB_sub : (opsB : List (HloOp τ sig (Elt F))).Forall fun op => op.bufs ⊆ tcRefs τ sig :=
  ⟨unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., unary_bufs_sub .., reshape_bufs_sub ..⟩
theorem opsC_sub : (opsC : List (HloOp τ sig (Elt F))).Forall fun op => op.bufs ⊆ tcRefs τ sig :=
  ⟨nullary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub .., unary_bufs_sub .., unary_bufs_sub .., unary_bufs_sub .., binary_bufs_sub ..⟩
theorem opsD_sub : (opsD : List (HloOp τ sig (Elt F))).Forall fun op => op.bufs ⊆ tcRefs τ sig :=
  ⟨nullary_bufs_sub .., unary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., binary_bufs_sub ..⟩

theorem ops_sub : (ops : List (HloOp τ sig (Elt F))).Forall fun op => op.bufs ⊆ tcRefs τ sig := by
  rw [List.forall_iff_forall_mem]
  intro op hop
  have hop' : op ∈ ((opsA ++ opsB) ++ opsC) ++ (opsD : List (HloOp τ sig (Elt F))) := hop
  rcases List.mem_append.mp hop' with h | hD
  · rcases List.mem_append.mp h with h | hC
    · rcases List.mem_append.mp h with hA | hB
      · exact List.forall_iff_forall_mem.mp opsA_sub op hA
      · exact List.forall_iff_forall_mem.mp opsB_sub op hB
    · exact List.forall_iff_forall_mem.mp opsC_sub op hC
  · exact List.forall_iff_forall_mem.mp opsD_sub op hD

/-- Every operation determines its results: none allocates. -/
theorem opsA_fresh : (opsA : List (HloOp τ sig (Elt F))).Forall fun op => op.fresh = ∅ := by
  simp only [List.Forall]; repeat' constructor
theorem opsB_fresh : (opsB : List (HloOp τ sig (Elt F))).Forall fun op => op.fresh = ∅ := by
  simp only [List.Forall]; repeat' constructor
theorem opsC_fresh : (opsC : List (HloOp τ sig (Elt F))).Forall fun op => op.fresh = ∅ := by
  simp only [List.Forall]; repeat' constructor
theorem opsD_fresh : (opsD : List (HloOp τ sig (Elt F))).Forall fun op => op.fresh = ∅ := by
  simp only [List.Forall]; repeat' constructor

theorem ops_fresh : ∀ op ∈ (ops : List (HloOp τ sig (Elt F))), op.fresh = ∅ := by
  intro op hop
  have hop' : op ∈ ((opsA ++ opsB) ++ opsC) ++ (opsD : List (HloOp τ sig (Elt F))) := hop
  rcases List.mem_append.mp hop' with h | hD
  · rcases List.mem_append.mp h with h | hC
    · rcases List.mem_append.mp h with hA | hB
      · exact List.forall_iff_forall_mem.mp opsA_fresh op hA
      · exact List.forall_iff_forall_mem.mp opsB_fresh op hB
    · exact List.forall_iff_forall_mem.mp opsC_fresh op hC
  · exact List.forall_iff_forall_mem.mp opsD_fresh op hD

/-- On every device, for any float values, from any memory with zero counters: every weakly fair execution of @main
    terminates with each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) := by
  exact run_seq scopedRefs_eq scopedSems_eq defs main (fun _ => ops) main_eq (fun _ => ops_sub) m ρ (fun _ => ops_fresh)

/-! ## The fold, stretch by stretch -/

theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem after_ops (V : Valuation τ sig (Elt F)) : after ops V = after opsD (after opsC (after opsB (after opsA V))) := by
  show after (((opsA ++ opsB) ++ opsC) ++ opsD) V = _
  rw [after_append, after_append, after_append]

/-- The references each stretch writes. -/
abbrev opsA_W : List (Ref sig .tc) := [main_cst, main_v0, main_cst_0, main_v1, main_v2]
abbrev opsB_W : List (Ref sig .tc) := [main_v3, main_v4, main_v5, main_v6, main_v7, main_v8, main_cst_1, main_v9, main_v10, main_cst_2, main_v11, main_v12, main_v13, main_cst_3, main_v14, main_v15, main_cst_4, main_v16, main_v17, main_v18, main_v19, main_v20, main_cst_5, main_v21, main_v22, main_cst_6, main_v23, main_v24, main_v25, main_v26, main_cst_7, main_v27, main_v28, main_v29, main_v30, main_v31, main_v32, main_v33, main_v34, main_v35, main_v36, main_v37, main_v38, main_cst_8, main_v39, main_cst_9, main_v40, main_v41, main_v42, main_v43, main_v44, main_v45, main_cst_10, main_v46, main_v47, main_v48, main_v49, main_v50, main_v51]
abbrev opsC_W : List (Ref sig .tc) := [main_c, main_call0_v0, main_call0_v1, main_call0_v2, main_call0_v3, main_call0_v4, main_call0_v5, main_call0_v6, main_call0_v7, main_call0_v8, main_call0_v9, main_call0_v10, main_call0_v11, main_call0_v12, main_call0_v13, main_call0_v14, main_v52]
abbrev opsD_W : List (Ref sig .tc) := [main_cst_11, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117]

theorem opsA_writes : (opsA : List (HloOp τ sig (Elt F))).Forall fun op => op.writes ⊆ (opsA_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
theorem opsB_writes : (opsB : List (HloOp τ sig (Elt F))).Forall fun op => op.writes ⊆ (opsB_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
theorem opsC_writes : (opsC : List (HloOp τ sig (Elt F))).Forall fun op => op.writes ⊆ (opsC_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))
theorem opsD_writes : (opsD : List (HloOp τ sig (Elt F))).Forall fun op => op.writes ⊆ (opsD_W.map (Proc.devRef (τ := τ) .tc)).toFinset := by
  simp only [List.Forall]
  repeat' apply And.intro
  all_goals (simp only [nullary_writes, unary_writes, binary_writes, reshape_writes, Finset.singleton_subset_iff, List.mem_toFinset]; exact List.mem_map_of_mem (by decide))

/-- A reference a stretch does not write keeps its contents through it. -/
theorem opsA_of (V : Valuation τ sig (Elt F)) (r : Ref sig .tc) (h : r ∉ opsA_W) : after opsA V (Proc.devRef .tc r) = V (Proc.devRef .tc r) :=
  after_of_writes_sub opsA V opsA_writes h
theorem opsB_of (V : Valuation τ sig (Elt F)) (r : Ref sig .tc) (h : r ∉ opsB_W) : after opsB V (Proc.devRef .tc r) = V (Proc.devRef .tc r) :=
  after_of_writes_sub opsB V opsB_writes h
theorem opsC_of (V : Valuation τ sig (Elt F)) (r : Ref sig .tc) (h : r ∉ opsC_W) : after opsC V (Proc.devRef .tc r) = V (Proc.devRef .tc r) :=
  after_of_writes_sub opsC V opsC_writes h
theorem opsD_of (V : Valuation τ sig (Elt F)) (r : Ref sig .tc) (h : r ∉ opsD_W) : after opsD V (Proc.devRef .tc r) = V (Proc.devRef .tc r) :=
  after_of_writes_sub opsD V opsD_writes h

/-- The first stretch leaves the pooled mean of the sample array in its last buffer. -/
theorem gap_read (V : Valuation τ sig (Elt F)) : after opsA V (Proc.devRef .tc main_v2) = gapRef (V (Proc.devRef .tc main_arg0)) := by
  after_results
  rfl

end Cert.ReferenceIdeal.Hand

end
-- ==== Proof.Val.Spec.lean ====
/-
  The mathematics both programs compute, index by index over the extended reals.

  For a reflect-padded sample array `P` of shape [8, 64, 130, 130] and a per-channel table of nine filter
  weights `Fc` of shape [8, 64, 9], the filtered ("low") output at (n, c, h, w) is the sum over the 3 x 3
  taps (ky, kx), in row-major tap order and starting from zero, of
  `P[n, c, h + ky, w + kx] * Fc[n, c, 3 * ky + kx]`; the residual ("high") output is the centre
  sample `P[n, c, h + 1, w + 1]` minus that sum. Both programs add the taps in this very order, so no
  law of the extended reals beyond the definition is needed to join them.
-/
import Idealize.ShloMosaic.PureOps.Ideal
import Idealize.ShloMosaic.Lib.ValueIdx

noncomputable section

namespace Cert.Spec

open Idealize.ShloMosaic Idealize.ShloMosaic.ValueIdx

/-- The padded sample array's shape, the weight table's and the outputs'. -/
abbrev SP : Shape := ⟨4, ![8, 64, 130, 130]⟩
abbrev SW : Shape := ⟨3, ![8, 64, 9]⟩
abbrev SX : Shape := ⟨4, ![8, 64, 128, 128]⟩

/-- Row `h + ky` of the padded array (`h < 128`, `ky < 3`). -/
abbrev shift (h : Fin 128) (k : Fin 3) : Fin 130 := ⟨h.val + k.val, by have := h.isLt; have := k.isLt; omega⟩

/-- The tap's position in the weight table: `3 * ky + kx`. -/
abbrev tapIx (ky kx : Fin 3) : Fin 9 := ⟨3 * ky.val + kx.val, by have := ky.isLt; have := kx.isLt; omega⟩

/-- One tap: the padded sample at offset (ky, kx) times its weight. -/
def tapAt (P : SP.Idx → EReal) (Fc : SW.Idx → EReal) (n : Fin 8) (c : Fin 64) (h w : Fin 128) (ky kx : Fin 3) : EReal :=
  P (ix4 n c (shift h ky) (shift w kx)) * Fc (ix3 n c (tapIx ky kx))

/-- The filtered output at (n, c, h, w): zero plus the nine taps, added left to right in row-major tap order. -/
def lowAt (P : SP.Idx → EReal) (Fc : SW.Idx → EReal) (n : Fin 8) (c : Fin 64) (h w : Fin 128) : EReal :=
  ((((((((0 + tapAt P Fc n c h w 0 0) + tapAt P Fc n c h w 0 1) + tapAt P Fc n c h w 0 2)
    + tapAt P Fc n c h w 1 0) + tapAt P Fc n c h w 1 1) + tapAt P Fc n c h w 1 2)
    + tapAt P Fc n c h w 2 0) + tapAt P Fc n c h w 2 1) + tapAt P Fc n c h w 2 2

/-- The residual output at (n, c, h, w): the centre sample minus the filtered one. -/
def highAt (P : SP.Idx → EReal) (Fc : SW.Idx → EReal) (n : Fin 8) (c : Fin 64) (h w : Fin 128) : EReal :=
  P (ix4 n c (shift h 1) (shift w 1)) - lowAt P Fc n c h w

end Cert.Spec

end
-- ==== Proof.RI.Taps.lean ====
/-
  The reference's nine taps read at an index, over the extended reals.

  The reference's last operations start from the zero array and, for each tap (ky, kx) in row-major order, cut the
  padded sample array at offset (ky, kx), take column 3 ky + kx of the weight table, spread it over the two spatial
  axes, multiply, and add the product onto the running sum; the residual result is the sample array minus that sum.
  Read at (n, k, h, w), the sum is the specification's `lowAt` of the padded samples and the weight table, and the
  residual is the sample there minus it. Layout operations only move indices, so no law of the extended reals is
  used beyond the zero word reading as zero.
-/
import proofs.«100776_j22771916603489_1_alg».proof.Proof.RI.Run
import proofs.«100776_j22771916603489_1_alg».proof.Proof.Val.Spec
import Idealize.ShloMosaic.Lib.Pipeline.Value
import Idealize.ShloMosaic.Lib.IdealHost
import Idealize.ShloMosaic.Lib.StableHlo.Run
import Idealize.ShloMosaic.PureOps.Ideal.Laws

noncomputable section

namespace Cert.Proof.RefTaps

open Idealize.ShloMosaic Idealize.ShloMosaic.ValueIdx Idealize.ShloMosaic.StableHlo Idealize.SL.Sem Cert.ReferenceIdeal

/-! ## One tap at an index -/

/-- The padded sample array cut at offset (oy, ox), read at (n, k, h, w): the sample at (n, k, h + oy, w + ox). -/
theorem sample_read (P : S8x64x130x130.Idx → EReal) (oy ox : Nat) (hy : oy < 3) (hx : ox < 3)
    (hs : S8x64x130x130.Slices ![0, 0, oy, ox] S8x64x128x128) (n : Fin 8) (k : Fin 64) (h w : Fin 128) :
    extractStridedSlice S8x64x128x128 ![0, 0, oy, ox] P hs (ix4 n k h w)
      = P (ix4 n k (Cert.Spec.shift h ⟨oy, hy⟩) (Cert.Spec.shift w ⟨ox, hx⟩)) :=
  extractStridedSlice_apply _ P hs (ix4 n k h w) (ix4 n k (Cert.Spec.shift h ⟨oy, hy⟩) (Cert.Spec.shift w ⟨ox, hx⟩))
    (fun a => match a with
      | ⟨0, _⟩ => by show n.val = 0 + n.val; omega
      | ⟨1, _⟩ => by show k.val = 0 + k.val; omega
      | ⟨2, _⟩ => by show h.val + oy = oy + h.val; omega
      | ⟨3, _⟩ => by show w.val + ox = ox + w.val; omega)

/-- Column j of the weight table, made a [8, 64] array, then spread over the two spatial axes, read at
    (n, k, h, w): the weight at (n, k, j). -/
theorem weight_read (Fc : S8x64x9.Idx → EReal) (j : Nat) (hj : j < 9)
    (h0 : S8x64x9.Slices ![0, 0, j] S8x64x1) (h1 : S8x64x1.ShapeCasts S8x64)
    (h2 : S8x64.BroadcastsInDim S8x64x1x1 (![0, 1] : Fin 2 → Fin S8x64x1x1.rank))
    (h3 : S8x64x1x1.BroadcastsInDim S8x64x128x128 (![0, 1, 2, 3] : Fin 4 → Fin S8x64x128x128.rank))
    (n : Fin 8) (k : Fin 64) (h w : Fin 128) :
    broadcastInDim S8x64x128x128 ![0, 1, 2, 3] h3
        (broadcastInDim S8x64x1x1 ![0, 1] h2 (shapeCast S8x64 (extractStridedSlice S8x64x1 ![0, 0, j] Fc h0) h1)) (ix4 n k h w)
      = Fc (ix3 n k ⟨j, hj⟩) := by
  refine (broadcastInDim_apply _ h3 _ (ix4 n k h w) (ix4 n k (0 : Fin 1) (0 : Fin 1))
    (fun a => match a with | ⟨0, _⟩ => rfl | ⟨1, _⟩ => rfl | ⟨2, _⟩ => rfl | ⟨3, _⟩ => rfl)).trans ?_
  refine (broadcastInDim_apply _ h2 _ (ix4 n k (0 : Fin 1) (0 : Fin 1)) (ix2 n k)
    (fun a => match a with | ⟨0, _⟩ => rfl | ⟨1, _⟩ => rfl)).trans ?_
  refine (shapeCast_apply _ h1 (ix2 n k) (ix3 n k (0 : Fin 1)) ?_).trans ?_
  · rw [Shape.rowMajor_val_two, Shape.rowMajor_val_three]
    show (n.val * 64 + k.val) * 1 + 0 = n.val * 64 + k.val
    omega
  exact extractStridedSlice_apply _ Fc h0 (ix3 n k (0 : Fin 1)) (ix3 n k ⟨j, hj⟩)
    (fun a => match a with
      | ⟨0, _⟩ => by show n.val = 0 + n.val; omega
      | ⟨1, _⟩ => by show k.val = 0 + k.val; omega
      | ⟨2, _⟩ => by show j = j + 0; omega)

open Cert.ReferenceIdeal.Gen in
/-- One tap as a whole array: the sample array cut at (oy, ox) times the weight column j spread over the spatial axes. -/
def tapArr (P : S8x64x130x130.Idx → EReal) (Fc : S8x64x9.Idx → EReal) (oy ox j : Nat)
    (hs : S8x64x130x130.Slices ![0, 0, oy, ox] S8x64x128x128) (h0 : S8x64x9.Slices ![0, 0, j] S8x64x1) :
    FVec Ideal S8x64x128x128 .f32 :=
  mulf (extractStridedSlice S8x64x128x128 ![0, 0, oy, ox] P hs)
    (broadcastInDim S8x64x128x128 ![0, 1, 2, 3] bcast_S8x64x1x1_S8x64x128x128_0_1_2_3
      (broadcastInDim S8x64x1x1 ![0, 1] bcast_S8x64_S8x64x1x1_0_1
        (shapeCast S8x64 (extractStridedSlice S8x64x1 ![0, 0, j] Fc h0) shapeCasts_S8x64x1_S8x64)))

/-- One tap read at (n, k, h, w) is the specification's tap (ky, kx), where the column is j = 3 ky + kx. -/
theorem tapArr_apply (P : S8x64x130x130.Idx → EReal) (Fc : S8x64x9.Idx → EReal) (oy ox j : Nat) (ky kx : Fin 3)
    (hy : ky.val = oy) (hx : kx.val = ox) (hj : j = 3 * ky.val + kx.val)
    (hs : S8x64x130x130.Slices ![0, 0, oy, ox] S8x64x128x128) (h0 : S8x64x9.Slices ![0, 0, j] S8x64x1)
    (n : Fin 8) (k : Fin 64) (h w : Fin 128) :
    tapArr P Fc oy ox j hs h0 (ix4 n k h w) = Cert.Spec.tapAt P Fc n k h w ky kx := by
  subst hy hx hj
  unfold tapArr Cert.Spec.tapAt
  rw [mulf_apply, sample_read P ky.val kx.val ky.isLt kx.isLt hs,
    weight_read Fc (3 * ky.val + kx.val) (by have := ky.isLt; have := kx.isLt; omega) h0]

open Cert.ReferenceIdeal.Gen in
/-- The reference's filtered output as one array: the zero array plus the nine taps, added left to right. -/
def lowArr (P : S8x64x130x130.Idx → EReal) (Fc : S8x64x9.Idx → EReal) : FVec Ideal S8x64x128x128 .f32 :=
  addf (addf (addf (addf (addf (addf (addf (addf (addf
    (broadcastInDim S8x64x128x128 ![] bcast_S_S8x64x128x128 (constant (F := Ideal) S_ .f32 0x00000000#32))
    (tapArr P Fc 0 0 0 slices_S8x64x130x130_S8x64x128x128_0_0_0_0 slices_S8x64x9_S8x64x1_0_0_0))
    (tapArr P Fc 0 1 1 slices_S8x64x130x130_S8x64x128x128_0_0_0_1 slices_S8x64x9_S8x64x1_0_0_1))
    (tapArr P Fc 0 2 2 slices_S8x64x130x130_S8x64x128x128_0_0_0_2 slices_S8x64x9_S8x64x1_0_0_2))
    (tapArr P Fc 1 0 3 slices_S8x64x130x130_S8x64x128x128_0_0_1_0 slices_S8x64x9_S8x64x1_0_0_3))
    (tapArr P Fc 1 1 4 slices_S8x64x130x130_S8x64x128x128_0_0_1_1 slices_S8x64x9_S8x64x1_0_0_4))
    (tapArr P Fc 1 2 5 slices_S8x64x130x130_S8x64x128x128_0_0_1_2 slices_S8x64x9_S8x64x1_0_0_5))
    (tapArr P Fc 2 0 6 slices_S8x64x130x130_S8x64x128x128_0_0_2_0 slices_S8x64x9_S8x64x1_0_0_6))
    (tapArr P Fc 2 1 7 slices_S8x64x130x130_S8x64x128x128_0_0_2_1 slices_S8x64x9_S8x64x1_0_0_7))
    (tapArr P Fc 2 2 8 slices_S8x64x130x130_S8x64x128x128_0_0_2_2 slices_S8x64x9_S8x64x1_0_0_8)

/-- The filtered array read at (n, k, h, w) is the specification's sum of taps. -/
theorem lowArr_apply (P : S8x64x130x130.Idx → EReal) (Fc : S8x64x9.Idx → EReal) (n : Fin 8) (k : Fin 64) (h w : Fin 128) :
    lowArr P Fc (ix4 n k h w) = Cert.Spec.lowAt P Fc n k h w := by
  unfold lowArr Cert.Spec.lowAt
  simp only [addf_apply]
  rw [broadcastInDim_scalar_apply, constant_apply, Ideal.ofBits_zero_f32,
    tapArr_apply P Fc 0 0 0 0 0 rfl rfl rfl, tapArr_apply P Fc 0 1 1 0 1 rfl rfl rfl, tapArr_apply P Fc 0 2 2 0 2 rfl rfl rfl,
    tapArr_apply P Fc 1 0 3 1 0 rfl rfl rfl, tapArr_apply P Fc 1 1 4 1 1 rfl rfl rfl, tapArr_apply P Fc 1 2 5 1 2 rfl rfl rfl,
    tapArr_apply P Fc 2 0 6 2 0 rfl rfl rfl, tapArr_apply P Fc 2 1 7 2 1 rfl rfl rfl, tapArr_apply P Fc 2 2 8 2 2 rfl rfl rfl]

/-! ## The reference's last operations, read back -/

set_option maxHeartbeats 1000000 in
/-- After the reference's last operations the filtered result's buffer holds the sum-of-taps array of the padded
    samples and the weight table, and the residual result's buffer the sample array minus it. -/
theorem terms (V : Valuation Cert.ReferenceIdeal.τ Cert.ReferenceIdeal.sig (Elt Ideal)) :
    (StableHlo.after Cert.ReferenceIdeal.Hand.opsD V (Proc.devRef .tc main_v116) : S8x64x128x128.Idx → EReal)
        = lowArr (V (Proc.devRef .tc main_v52)) (V (Proc.devRef .tc main_v51))
      ∧ (StableHlo.after Cert.ReferenceIdeal.Hand.opsD V (Proc.devRef .tc main_v117) : S8x64x128x128.Idx → EReal)
        = subf (F := Ideal) (φ := .f32) (V (Proc.devRef .tc main_arg0))
            (lowArr (V (Proc.devRef .tc main_v52)) (V (Proc.devRef .tc main_v51))) := by
  dsimp only [Cert.ReferenceIdeal.Hand.opsD]
  after_results_simp
  unfold lowArr tapArr
  exact ⟨rfl, rfl⟩

/-- The filtered result's buffer alone: the sum-of-taps array. -/
theorem low_term (V : Valuation Cert.ReferenceIdeal.τ Cert.ReferenceIdeal.sig (Elt Ideal)) :
    (StableHlo.after Cert.ReferenceIdeal.Hand.opsD V (Proc.devRef .tc main_v116) : S8x64x128x128.Idx → EReal)
      = lowArr (V (Proc.devRef .tc main_v52)) (V (Proc.devRef .tc main_v51)) := (terms V).1

/-- The residual result's buffer alone: the sample array minus the sum-of-taps array. -/
theorem high_term (V : Valuation Cert.ReferenceIdeal.τ Cert.ReferenceIdeal.sig (Elt Ideal)) :
    (StableHlo.after Cert.ReferenceIdeal.Hand.opsD V (Proc.devRef .tc main_v117) : S8x64x128x128.Idx → EReal)
      = subf (F := Ideal) (φ := .f32) (V (Proc.devRef .tc main_arg0))
          (lowArr (V (Proc.devRef .tc main_v52)) (V (Proc.devRef .tc main_v51))) := (terms V).2

/-! ## The two results at an index -/

/-- The reference's filtered result at (n, k, h, w) is the specification's sum of the nine taps of the padded samples
    and the weight table. -/
theorem low_read (V : Valuation Cert.ReferenceIdeal.τ Cert.ReferenceIdeal.sig (Elt Ideal)) (n : Fin 8) (k : Fin 64) (h w : Fin 128) :
    StableHlo.after Cert.ReferenceIdeal.Hand.opsD V (Proc.devRef .tc Cert.ReferenceIdeal.main_v116) (ix4 n k h w)
      = Cert.Spec.lowAt (V (Proc.devRef .tc Cert.ReferenceIdeal.main_v52)) (V (Proc.devRef .tc Cert.ReferenceIdeal.main_v51)) n k h w :=
  (congrFun (low_term V) (ix4 n k h w)).trans (lowArr_apply _ _ n k h w)

/-- The reference's residual result at (n, k, h, w) is the sample there minus that sum. -/
theorem high_read (V : Valuation Cert.ReferenceIdeal.τ Cert.ReferenceIdeal.sig (Elt Ideal)) (n : Fin 8) (k : Fin 64) (h w : Fin 128) :
    StableHlo.after Cert.ReferenceIdeal.Hand.opsD V (Proc.devRef .tc Cert.ReferenceIdeal.main_v117) (ix4 n k h w)
      = @HSub.hSub EReal EReal EReal instHSub (V (Proc.devRef .tc Cert.ReferenceIdeal.main_arg0) (ix4 n k h w))
          (Cert.Spec.lowAt (V (Proc.devRef .tc Cert.ReferenceIdeal.main_v52)) (V (Proc.devRef .tc Cert.ReferenceIdeal.main_v51)) n k h w) :=
  (congrFun (high_term V) (ix4 n k h w)).trans
    ((subf_apply _ _ _).trans (congrArg _ (lowArr_apply _ _ n k h w)))

end Cert.Proof.RefTaps

end
-- ==== Proof.Val.GapValue.lean ====
/-
  The pooled mean. Over the extended reals, the value the pooling kernel stores is the reference's mean, as
  functions of the sample array x of shape [8, 64, 128, 128].

  The kernel walks the two H-tiles of x (rows 0..63, then rows 64..127). It starts an [8, 64] accumulator at
  zero, adds to it, tile by tile, the tile's sum over W and then over H, and stores the accumulator times
  2^-14. The reference sums x over (H, W) at once, from zero, and divides by 16384. The two meet by one law:
  a sum over 128 rows is the sum over the first 64 plus the sum over the last 64 (associativity of + on the
  extended reals), and division by 16384 is multiplication by 2^-14 on every extended real.
-/
import proofs.«100776_j22771916603489_1_alg».proof.Proof.Gen.KernelIdeal.Skeleton
import proofs.«100776_j22771916603489_1_alg».proof.Proof.Gen.KernelIdeal.Launch
import proofs.«100776_j22771916603489_1_alg».proof.Proof.Gen.ReferenceIdeal
import proofs.«100776_j22771916603489_1_alg».proof.Proof.RI.GapTerm
import Idealize.ShloMosaic.PureOps.Ideal.Laws
import Idealize.ShloMosaic.Lib.ValueIdx
import Idealize.ShloMosaic.Lib.IdealHost
import Idealize.ShloMosaic.Lib.Pipeline.Value

noncomputable section

namespace Cert.Proof.GapValue

open Idealize.ShloMosaic Idealize.ShloMosaic.ValueIdx Idealize.SL.Sem
open scoped BigOperators

/-- The shapes of the pooled mean, as literals: the sample array, one H-tile of it, the tile summed over W,
    and the pooled result. -/
abbrev XShape : Shape := ⟨4, ![8, 64, 128, 128]⟩
abbrev TileShape : Shape := ⟨4, ![8, 64, 64, 128]⟩
abbrev RowShape : Shape := ⟨3, ![8, 64, 64]⟩
abbrev PoolShape : Shape := ⟨2, ![8, 64]⟩

/-! ## The kernel's three values at an index -/

/-- The sum of a tile over W, read at (n, c, h). -/
theorem sumW_at (blk : FVec Ideal TileShape .f32) (r : TileShape.Reduces [3] RowShape) (hφ : FKind.Formats .f32)
    (hacc : (0x00000000#32 : BitVec 32) = FKind.add.neutral .f32 hφ) (n : Fin 8) (c : Fin 64) (h : Fin 64) :
    multiReduction (F := Ideal) .add [3] RowShape blk 0x00000000#32 r hφ hacc (ix3 n c h)
      = ∑ w : Fin 128, blk (ix4 n c h w) := by
  refine (Ideal.multiReduction_add_single blk 0x00000000#32 r hφ hacc (ix3 n c h)).trans ?_
  refine Finset.sum_congr rfl fun w _ => congrArg blk ?_
  funext a; apply Fin.ext
  match a with
  | ⟨0, _⟩ => rfl
  | ⟨1, _⟩ => rfl
  | ⟨2, _⟩ => rfl
  | ⟨3, _⟩ => rfl

/-- The sum of the W-summed tile over H, read at (n, c). -/
theorem sumH_at (v : FVec Ideal RowShape .f32) (r : RowShape.Reduces [2] PoolShape) (hφ : FKind.Formats .f32)
    (hacc : (0x00000000#32 : BitVec 32) = FKind.add.neutral .f32 hφ) (n : Fin 8) (c : Fin 64) :
    multiReduction (F := Ideal) .add [2] PoolShape v 0x00000000#32 r hφ hacc (ix2 n c)
      = ∑ h : Fin 64, v (ix3 n c h) := by
  refine (Ideal.multiReduction_add_single v 0x00000000#32 r hφ hacc (ix2 n c)).trans ?_
  refine Finset.sum_congr rfl fun h _ => congrArg v ?_
  funext a; apply Fin.ext
  match a with
  | ⟨0, _⟩ => rfl
  | ⟨1, _⟩ => rfl
  | ⟨2, _⟩ => rfl

/-- The accumulator starts at zero. -/
theorem start_at (n : Fin 8) (c : Fin 64) : Cert.KernelIdeal.Gen.k0_pay1 (F := Ideal) (ix2 n c) = 0 := by
  unfold Cert.KernelIdeal.Gen.k0_pay1
  rw [shapeCast_self, broadcast_apply]
  exact Ideal.ofBits_zero_f32

/-- One step of the accumulation: the accumulator plus the tile's sum over W, then over H. -/
theorem step_at (blk : FVec Ideal TileShape .f32) (acc : FVec Ideal PoolShape .f32) (n : Fin 8) (c : Fin 64) :
    Cert.KernelIdeal.Gen.k0_pay2 (F := Ideal) blk acc (ix2 n c)
      = acc (ix2 n c) + ∑ h : Fin 64, ∑ w : Fin 128, blk (ix4 n c h w) := by
  unfold Cert.KernelIdeal.Gen.k0_pay2
  dsimp only
  rw [shapeCast_self, addf_apply]
  refine congrArg (acc (ix2 n c) + ·) ?_
  refine (sumH_at _ _ _ _ n c).trans ?_
  refine Finset.sum_congr rfl fun h _ => ?_
  exact sumW_at blk _ _ _ n c h

/-- The stored value: the accumulator times the scale word. -/
theorem scaled_at (v : FVec Ideal PoolShape .f32) (n : Fin 8) (c : Fin 64) :
    Cert.KernelIdeal.Gen.k0_pay3 (F := Ideal) v (ix2 n c) = v (ix2 n c) * Ideal.ofBits .f32 0x38800000#32 := by
  unfold Cert.KernelIdeal.Gen.k0_pay3
  rw [mulf_apply, broadcast_apply]
  rfl

/-! ## The H-tiles of the sample array -/

/-- The sample window's index map over the two grid points: the grid coordinate is the block index on the H
    axis, and the block index is zero on every other axis. -/
theorem tile_index : ∀ t : Fin Cert.KernelIdeal.grid0.N,
    Cert.KernelIdeal.win0_0.index t (0 : Fin 4) = 0 ∧ Cert.KernelIdeal.win0_0.index t (1 : Fin 4) = 0
      ∧ Cert.KernelIdeal.win0_0.index t (2 : Fin 4) = t.val ∧ Cert.KernelIdeal.win0_0.index t (3 : Fin 4) = 0 := by
  decide +kernel

/-- The H-tile at point t, read at (n, c, h, w), is the sample array at row 64 t + h: a block's element sits
    at block index times block size plus its own coordinate. -/
theorem tile_at (x : FVec Ideal XShape .f32) (t : Fin Cert.KernelIdeal.grid0.N) (n : Fin 8) (c : Fin 64) (h : Fin 64)
    (w : Fin 128) (hh : t.val * 64 + h.val < 128) :
    ((Cert.KernelIdeal.cfg0.win 0).blk t).view.read (Elt Ideal) x (ix4 n c h w)
      = x (ix4 n c ⟨t.val * 64 + h.val, hh⟩ w) := by
  obtain ⟨e0, e1, e2, e3⟩ := tile_index t
  show x (((Cert.KernelIdeal.cfg0.win 0).blk t).view.emb (ix4 n c h w)) = _
  refine congrArg x ?_
  funext a; apply Fin.ext
  match a with
  | ⟨0, _⟩ => show Cert.KernelIdeal.win0_0.index t (0 : Fin 4) * 8 + 1 * n.val = n.val; omega
  | ⟨1, _⟩ => show Cert.KernelIdeal.win0_0.index t (1 : Fin 4) * 64 + 1 * c.val = c.val; omega
  | ⟨2, _⟩ => show Cert.KernelIdeal.win0_0.index t (2 : Fin 4) * 64 + 1 * h.val = t.val * 64 + h.val; omega
  | ⟨3, _⟩ => show Cert.KernelIdeal.win0_0.index t (3 : Fin 4) * 128 + 1 * w.val = w.val; omega

/-! ## The two constants -/

/-- The kernel's scale word denotes 2^-14 = 1 / 16384. -/
theorem scale_word : Ideal.ofBits .f32 0x38800000#32 = (((1 : ℝ) / 16384 : ℝ) : EReal) := by
  simp [Ideal.ofBits, Ideal.ieee, -EReal.coe_mul]; norm_num

/-- The reference's divisor word denotes 16384, the number of spatial positions. -/
theorem count_word : Ideal.ofBits .f32 0x46800000#32 = ((16384 : ℝ) : EReal) := by
  simp [Ideal.ofBits, Ideal.ieee, -EReal.coe_mul]; norm_num

/-- Dividing by the count is multiplying by the scale, on every extended real. -/
theorem div_count (s : EReal) :
    Ideal.div s (Ideal.ofBits .f32 0x46800000#32) = s * Ideal.ofBits .f32 0x38800000#32 := by
  rw [count_word, scale_word]
  exact Ideal.div_coe (by norm_num) s

/-! ## The reference's mean at an index -/

/-- The sample indices that drop to (n, c) when the two spatial axes are removed are exactly the (n, c, h, w):
    the sum over them is the double sum over the spatial coordinates. -/
theorem sum_spatial (x : XShape.Idx → EReal) (r : XShape.ReducesTo [2, 3] PoolShape) (n : Fin 8) (c : Fin 64) :
    ∑ i ∈ Finset.univ.filter (fun i => r.drop i = ix2 n c), x i
      = ∑ h : Fin 128, ∑ w : Fin 128, x (ix4 n c h w) := by
  rw [← Finset.sum_product' (s := (Finset.univ : Finset (Fin 128))) (t := (Finset.univ : Finset (Fin 128)))
    (f := fun h w => x (ix4 n c h w))]
  refine Finset.sum_nbij' (fun i => ((i 2 : Fin 128), (i 3 : Fin 128))) (fun p => ix4 n c p.1 p.2) ?_ ?_ ?_ ?_ ?_
  · intro i _; exact Finset.mem_product.2 ⟨Finset.mem_univ _, Finset.mem_univ _⟩
  · intro p _
    refine Finset.mem_filter.2 ⟨Finset.mem_univ _, ?_⟩
    funext b; apply Fin.ext
    match b with
    | ⟨0, _⟩ => exact r.drop_apply_val_of_eq (ix4 n c p.1 p.2) 0 0
    | ⟨1, _⟩ => exact r.drop_apply_val_of_eq (ix4 n c p.1 p.2) 1 1
  · intro i hi
    have hj := (Finset.mem_filter.1 hi).2
    have h0 : (i 0 : Nat) = n.val :=
      (r.drop_apply_val_of_eq i 0 0).symm.trans (congrArg (fun j : PoolShape.Idx => (j 0 : Nat)) hj)
    have h1 : (i 1 : Nat) = c.val :=
      (r.drop_apply_val_of_eq i 1 1).symm.trans (congrArg (fun j : PoolShape.Idx => (j 1 : Nat)) hj)
    funext a; apply Fin.ext
    match a with
    | ⟨0, _⟩ => exact h0.symm
    | ⟨1, _⟩ => exact h1.symm
    | ⟨2, _⟩ => rfl
    | ⟨3, _⟩ => rfl
  · intro p _; rfl
  · intro i hi
    have hj := (Finset.mem_filter.1 hi).2
    have h0 : (i 0 : Nat) = n.val :=
      (r.drop_apply_val_of_eq i 0 0).symm.trans (congrArg (fun j : PoolShape.Idx => (j 0 : Nat)) hj)
    have h1 : (i 1 : Nat) = c.val :=
      (r.drop_apply_val_of_eq i 1 1).symm.trans (congrArg (fun j : PoolShape.Idx => (j 1 : Nat)) hj)
    refine congrArg x ?_
    funext a; apply Fin.ext
    match a with
    | ⟨0, _⟩ => exact h0
    | ⟨1, _⟩ => exact h1
    | ⟨2, _⟩ => rfl
    | ⟨3, _⟩ => rfl

/-- The reference's mean at (n, c): zero plus the sum over the spatial positions, divided by the count word. -/
theorem mean_at (x : FVec Ideal XShape .f32) (n : Fin 8) (c : Fin 64) :
    Cert.ReferenceIdeal.Hand.gapRef (F := Ideal) x (ix2 n c)
      = Ideal.div (0 + ∑ h : Fin 128, ∑ w : Fin 128, x (ix4 n c h w)) (Ideal.ofBits .f32 0x46800000#32) := by
  unfold Cert.ReferenceIdeal.Hand.gapRef
  rw [hostDivf_apply, hostReduceAdd_apply, broadcastInDim_scalar_apply, constant_apply, constant_apply,
    Ideal.ofBits_zero_f32]
  unfold Ideal.hostReduceAdd
  rw [sum_spatial]

/-! ## The law: two half sums make the whole -/

/-- A sum over the 128 rows is the sum over rows 0..63 plus the sum over rows 64..127. -/
theorem sum_rows (g : Fin 128 → EReal) :
    ∑ h : Fin 128, g h
      = ∑ h : Fin 64, g ⟨0 * 64 + h.val, by have := h.isLt; omega⟩
        + ∑ h : Fin 64, g ⟨1 * 64 + h.val, by have := h.isLt; omega⟩ := by
  refine (Fin.sum_univ_add (M := EReal) (a := 64) (b := 64) g).trans ?_
  refine congrArg₂ (· + ·) (Finset.sum_congr rfl fun h _ => congrArg g (Fin.ext ?_))
    (Finset.sum_congr rfl fun h _ => congrArg g (Fin.ext ?_))
  · show h.val = 0 * 64 + h.val; omega
  · show 64 + h.val = 1 * 64 + h.val; omega

/-! ## The pooled mean -/

/-- The kernel's stored value — zero, plus the first H-tile's sum, plus the second's, times 2^-14 — is the
    reference's mean of the sample array. -/
theorem gap_math (x : Vec Ideal Cert.KernelIdeal.S8x64x128x128 .f32) :
    Cert.KernelIdeal.Gen.k0_pay3 (F := Ideal) (Cert.KernelIdeal.Gen.k0_pay2 (((Cert.KernelIdeal.cfg0.win 0).blk Cert.KernelIdeal.Gen.t0_1).view.read (Elt Ideal) x) (Cert.KernelIdeal.Gen.k0_pay2 (((Cert.KernelIdeal.cfg0.win 0).blk Cert.KernelIdeal.Gen.t0_0).view.read (Elt Ideal) x) (Cert.KernelIdeal.Gen.k0_pay1 (F := Ideal))))
      = Cert.ReferenceIdeal.Hand.gapRef (F := Ideal) x := by
  funext j
  obtain ⟨n, c, rfl⟩ : ∃ (n : Fin 8) (c : Fin 64), j = ix2 n c := ⟨j 0, j 1, eq_ix2 j⟩
  refine ((scaled_at _ n c).trans ?_).trans ((mean_at x n c).trans (div_count _)).symm
  refine congrArg (· * Ideal.ofBits .f32 0x38800000#32) ?_
  refine (step_at _ _ n c).trans ?_
  refine (congrArg (· + _) ((step_at _ _ n c).trans (congrArg (· + _) (start_at n c)))).trans ?_
  rw [sum_rows (fun h => ∑ w : Fin 128, x (ix4 n c h w)), ← add_assoc]
  refine congrArg₂ (· + ·)
    (congrArg (0 + ·) (Finset.sum_congr rfl fun h _ => Finset.sum_congr rfl fun w _ => ?_))
    (Finset.sum_congr rfl fun h _ => Finset.sum_congr rfl fun w _ => ?_)
  · exact tile_at x Cert.KernelIdeal.Gen.t0_0 n c h w _
  · exact tile_at x Cert.KernelIdeal.Gen.t0_1 n c h w _

end Cert.Proof.GapValue

end
-- ==== Proof.Val.FilterValue.lean ====
/-
  The filter region's two output arrays over the extended reals, index by index: the low band at (n, c, h, w) is zero
  plus the nine taps of the padded sample array times the channel's weights, added in row-major tap order; the high
  band is the centre sample minus the low band. From the body's per-block results to the whole arrays.
-/
import proofs.«100776_j22771916603489_1_alg».proof.Proof.KI.Filter
import proofs.«100776_j22771916603489_1_alg».proof.Proof.Val.Spec
import Idealize.ShloMosaic.Lib.Pipeline.Value
import Idealize.ShloMosaic.Lib.ValueIdx
import Idealize.ShloMosaic.PureOps.Ideal
import Idealize.ShloMosaic.PureOps.Ideal.Laws

noncomputable section

namespace Cert.Proof.FilterValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand
open Cert.Spec (shift tapIx tapAt lowAt highAt)

/-! ## The body's operations at an index -/

/-- The padded block with its unit sample axis dropped, at (c, a, b): the block at (0, c, a, b). -/
theorem img_at (x0 : Vec Ideal S1x64x130x130 .f32) (k : Fin 64) (a b : Fin 130) :
    k1_pay4 x0 (ix3 k a b) = x0 (ix4 0 k a b) := by
  unfold k1_pay4
  refine shapeCast_apply x0 _ (ix3 k a b) (ix4 0 k a b) ?_
  rw [Shape.rowMajor_val_four, Shape.rowMajor_val_three]
  show (((0 : Fin 1).val * 64 + k.val) * 130 + a.val) * 130 + b.val = (k.val * 130 + a.val) * 130 + b.val
  simp

/-- A unit-stride window of the padded image at offset (ky, kx), at (c, h, w): the image at (c, h + ky, w + kx). -/
theorem slice_at (v : FVec Ideal S64x130x130 .f32) (off : Fin 3 → Nat) (hs : S64x130x130.Slices off S64x128x128)
    (k : Fin 64) (h w : Fin 128) (ky kx : Fin 3) (h0 : off 0 = 0) (h1 : off 1 = ky.val) (h2 : off 2 = kx.val) :
    extractStridedSlice S64x128x128 off v hs (ix3 k h w) = v (ix3 k (shift h ky) (shift w kx)) := by
  refine extractStridedSlice_apply off v hs (ix3 k h w) (ix3 k (shift h ky) (shift w kx)) fun a => ?_
  match a with
  | ⟨0, _⟩ => show k.val = off 0 + k.val; omega
  | ⟨1, _⟩ => show h.val + ky.val = off 1 + h.val; omega
  | ⟨2, _⟩ => show w.val + kx.val = off 2 + w.val; omega

/-- A tap's per-channel weight column spread over the output block, at (c, h, w): the column at (0, c, 0). -/
theorem wt_at (v : Vec Ideal S1x64x1 .f32) (k : Fin 64) (h w : Fin 128) :
    broadcastTo S64x128x128 (shapeCast S64x1x1 (shapeCast S64 v shapeCasts_S1x64x1_S64) shapeCasts_S64_S64x1x1)
        broadcasts_S64x1x1_S64x128x128 (ix3 k h w) = v (ix3 0 k 0) := by
  refine (broadcastTo_apply _ broadcasts_S64x1x1_S64x128x128 (ix3 k h w) (ix3 k 0 0) fun a => ?_).trans ?_
  · match a with
    | ⟨0, _⟩ => rfl
    | ⟨1, _⟩ => rfl
    | ⟨2, _⟩ => rfl
  refine (shapeCast_apply _ shapeCasts_S64_S64x1x1 (ix3 k 0 0) (ix1 k) ?_).trans ?_
  · rw [Shape.rowMajor_val_three, Shape.rowMajor_val_one]
    show k.val = (k.val * 1 + (0 : Fin 1).val) * 1 + (0 : Fin 1).val
    simp
  refine shapeCast_apply v shapeCasts_S1x64x1_S64 (ix1 k) (ix3 0 k 0) ?_
  rw [Shape.rowMajor_val_three, Shape.rowMajor_val_one]
  show ((0 : Fin 1).val * 64 + k.val) * 1 + (0 : Fin 1).val = k.val
  simp

/-- One tap added onto an accumulator, at (c, h, w): the accumulator there plus the shifted image sample times the
    channel's weight. -/
theorem add_tap_at (acc : FVec Ideal S64x128x128 .f32) (v : FVec Ideal S64x130x130 .f32) (off : Fin 3 → Nat)
    (hs : S64x130x130.Slices off S64x128x128) (u : Vec Ideal S1x64x1 .f32) (k : Fin 64) (h w : Fin 128) (ky kx : Fin 3)
    (h0 : off 0 = 0) (h1 : off 1 = ky.val) (h2 : off 2 = kx.val) :
    addf acc (mulf (extractStridedSlice S64x128x128 off v hs)
        (broadcastTo S64x128x128 (shapeCast S64x1x1 (shapeCast S64 u shapeCasts_S1x64x1_S64) shapeCasts_S64_S64x1x1)
          broadcasts_S64x1x1_S64x128x128)) (ix3 k h w)
      = acc (ix3 k h w) + v (ix3 k (shift h ky) (shift w kx)) * u (ix3 0 k 0) := by
  show acc (ix3 k h w) + extractStridedSlice S64x128x128 off v hs (ix3 k h w)
      * broadcastTo S64x128x128 (shapeCast S64x1x1 (shapeCast S64 u shapeCasts_S1x64x1_S64) shapeCasts_S64_S64x1x1)
          broadcasts_S64x1x1_S64x128x128 (ix3 k h w) = _
  rw [slice_at v off hs k h w ky kx h0 h1 h2, wt_at u k h w]

/-- The first five taps' partial sum, at (c, h, w): zero plus the taps (0,0), (0,1), (0,2), (1,0), (1,1) of the block. -/
theorem part_at (x0 : Vec Ideal S1x64x130x130 .f32) (u0 u1 u2 u3 u4 : Vec Ideal S1x64x1 .f32) (k : Fin 64) (h w : Fin 128) :
    k1_pay6 x0 u0 u1 u2 u3 u4 (ix3 k h w)
      = ((((0 + x0 (ix4 0 k (shift h 0) (shift w 0)) * u0 (ix3 0 k 0))
          + x0 (ix4 0 k (shift h 0) (shift w 1)) * u1 (ix3 0 k 0))
          + x0 (ix4 0 k (shift h 0) (shift w 2)) * u2 (ix3 0 k 0))
          + x0 (ix4 0 k (shift h 1) (shift w 0)) * u3 (ix3 0 k 0))
          + x0 (ix4 0 k (shift h 1) (shift w 1)) * u4 (ix3 0 k 0) := by
  unfold k1_pay6
  refine (add_tap_at _ _ ![0, 1, 1] _ u4 k h w 1 1 rfl rfl rfl).trans (congrArg₂ (· + ·) ?_ (congrArg (· * _) (img_at x0 k _ _)))
  refine (add_tap_at _ _ ![0, 1, 0] _ u3 k h w 1 0 rfl rfl rfl).trans (congrArg₂ (· + ·) ?_ (congrArg (· * _) (img_at x0 k _ _)))
  refine (add_tap_at _ _ ![0, 0, 2] _ u2 k h w 0 2 rfl rfl rfl).trans (congrArg₂ (· + ·) ?_ (congrArg (· * _) (img_at x0 k _ _)))
  refine (add_tap_at _ _ ![0, 0, 1] _ u1 k h w 0 1 rfl rfl rfl).trans (congrArg₂ (· + ·) ?_ (congrArg (· * _) (img_at x0 k _ _)))
  refine (add_tap_at _ _ ![0, 0, 0] _ u0 k h w 0 0 rfl rfl rfl).trans (congrArg₂ (· + ·) ?_ (congrArg (· * _) (img_at x0 k _ _)))
  exact Ideal.ofBits_zero_f32

/-- The last four taps added onto a partial sum, at (c, h, w): the taps (1,2), (2,0), (2,1), (2,2) of the image. -/
theorem rest_at (v1 : FVec Ideal S64x130x130 .f32) (v38 : FVec Ideal S64x128x128 .f32) (u5 u6 u7 u8 : Vec Ideal S1x64x1 .f32)
    (k : Fin 64) (h w : Fin 128) :
    k1_pay1 v1 v38 u5 u6 u7 u8 (ix3 k h w)
      = (((v38 (ix3 k h w) + v1 (ix3 k (shift h 1) (shift w 2)) * u5 (ix3 0 k 0))
          + v1 (ix3 k (shift h 2) (shift w 0)) * u6 (ix3 0 k 0))
          + v1 (ix3 k (shift h 2) (shift w 1)) * u7 (ix3 0 k 0))
          + v1 (ix3 k (shift h 2) (shift w 2)) * u8 (ix3 0 k 0) := by
  unfold k1_pay1
  refine (add_tap_at _ _ ![0, 2, 2] _ u8 k h w 2 2 rfl rfl rfl).trans (congrArg (· + _) ?_)
  refine (add_tap_at _ _ ![0, 2, 1] _ u7 k h w 2 1 rfl rfl rfl).trans (congrArg (· + _) ?_)
  refine (add_tap_at _ _ ![0, 2, 0] _ u6 k h w 2 0 rfl rfl rfl).trans (congrArg (· + _) ?_)
  exact add_tap_at _ _ ![0, 1, 2] _ u5 k h w 1 2 rfl rfl rfl

/-- The output block with its unit sample axis restored, at (0, c, h, w): the band at (c, h, w). -/
theorem out_cast_at (v : FVec Ideal S64x128x128 .f32) (k : Fin 64) (h w : Fin 128) :
    shapeCast S1x64x128x128 v shapeCasts_S64x128x128_S1x64x128x128 (ix4 0 k h w) = v (ix3 k h w) := by
  refine shapeCast_apply v _ (ix4 0 k h w) (ix3 k h w) ?_
  rw [Shape.rowMajor_val_four, Shape.rowMajor_val_three]
  show (k.val * 128 + h.val) * 128 + w.val = (((0 : Fin 1).val * 64 + k.val) * 128 + h.val) * 128 + w.val
  simp

/-- Tap `j`'s weight column of the filter block, at channel c: the block at (0, c, j). -/
theorem wts_at (x1 : Vec Ideal S1x64x9 .f32) (j : Fin 9) (k : Fin 64) : wts x1 j (ix3 0 k 0) = x1 (ix3 0 k j) := by
  have key : ∀ (off : Fin 3 → Nat) (inb : ∀ a, off a + S1x64x1.size a ≤ S1x64x9.size a) (j : Fin 9), off 0 = 0 → off 1 = 0 → off 2 = j.val →
      View.ld x1 (Rect.unit (s := S1x64x9) off S1x64x1.size inb) (ix3 0 k 0) = x1 (ix3 0 k j) := by
    intro off inb j h0 h1 h2
    show x1 _ = x1 _
    congr 1
    funext a
    apply Fin.ext
    match a with
    | ⟨0, _⟩ => show off 0 + 1 * (0 : Fin 1).val = (0 : Fin 1).val; rw [h0]; simp
    | ⟨1, _⟩ => show off 1 + 1 * k.val = k.val; rw [h1]; omega
    | ⟨2, _⟩ => show off 2 + 1 * (0 : Fin 1).val = j.val; rw [h2]; simp
  fin_cases j <;> exact key _ _ _ rfl rfl rfl

/-! ## One sample's block of each band -/

/-- The low band's block at (0, c, h, w), for a padded block and a filter block that are sample `n`'s of the arrays
    `P` and `Fc` on channel c: zero plus the nine taps, in row-major tap order. -/
theorem low_block (P : Cert.Spec.SP.Idx → EReal) (Fc : Cert.Spec.SW.Idx → EReal)
    (x0 : Vec Ideal S1x64x130x130 .f32) (x1 : Vec Ideal S1x64x9 .f32) (n : Fin 8) (k : Fin 64)
    (hP : ∀ a b : Fin 130, x0 (ix4 0 k a b) = P (ix4 n k a b)) (hF : ∀ j : Fin 9, x1 (ix3 0 k j) = Fc (ix3 n k j))
    (h w : Fin 128) : out1_2 x0 x1 (ix4 0 k h w) = lowAt P Fc n k h w := by
  rw [out1_2_eq]
  unfold k1_pay2
  refine (out_cast_at _ k h w).trans ?_
  refine (rest_at _ _ _ _ _ _ k h w).trans ?_
  rw [part_at, img_at, img_at, img_at, img_at, wts_at, wts_at, wts_at, wts_at, wts_at, wts_at, wts_at, wts_at, wts_at]
  simp only [hP, hF]
  rfl

/-- The high band's block at (0, c, h, w): the centre sample minus the low band. -/
theorem high_block (P : Cert.Spec.SP.Idx → EReal) (Fc : Cert.Spec.SW.Idx → EReal)
    (x0 : Vec Ideal S1x64x130x130 .f32) (x1 : Vec Ideal S1x64x9 .f32) (n : Fin 8) (k : Fin 64)
    (hP : ∀ a b : Fin 130, x0 (ix4 0 k a b) = P (ix4 n k a b)) (hF : ∀ j : Fin 9, x1 (ix3 0 k j) = Fc (ix3 n k j))
    (h w : Fin 128) : out1_3 x0 x1 (ix4 0 k h w) = highAt P Fc n k h w := by
  rw [out1_3_eq]
  unfold k1_pay3
  refine (out_cast_at _ k h w).trans ?_
  show k1_pay5 x0 (ix3 k h w) - k1_pay1 _ _ _ _ _ _ (ix3 k h w) = _
  unfold k1_pay5
  rw [slice_at _ ![0, 1, 1] _ k h w 1 1 rfl rfl rfl, rest_at, part_at, img_at, img_at, img_at, img_at, img_at,
    wts_at, wts_at, wts_at, wts_at, wts_at, wts_at, wts_at, wts_at, wts_at]
  simp only [hP, hF]
  rfl

/-! ## From the blocks to the arrays -/

variable (V : (c : Dev nD) → (b : Ref sig .tc) → Buf (Elt Ideal) ((c : Thread nD τ).loc b))

/-- The padded array and the weight table as the region finds them. -/
abbrev padArr (c : Dev nD) : Cert.Spec.SP.Idx → EReal := V c main_v50
abbrev wtArr (c : Dev nD) : Cert.Spec.SW.Idx → EReal := V c main_v49

/-- The two bands as functions of the whole output index. -/
abbrev lowArr (c : Dev nD) : Cert.Spec.SX.Idx → EReal := fun j => lowAt (padArr V c) (wtArr V c) (j 0) (j 1) (j 2) (j 3)
abbrev highArr (c : Dev nD) : Cert.Spec.SX.Idx → EReal := fun j => highAt (padArr V c) (wtArr V c) (j 0) (j 1) (j 2) (j 3)

/-- The windows' index maps over the eight grid points: every window's block index is the grid point on the sample
    axis and zero on the others. -/
theorem index_facts : ∀ t : Fin cfg1.N,
    (win1_0.index t 0 = t.val ∧ win1_0.index t 1 = 0 ∧ win1_0.index t 2 = 0 ∧ win1_0.index t 3 = 0)
    ∧ (win1_1.index t 0 = t.val ∧ win1_1.index t 1 = 0 ∧ win1_1.index t 2 = 0)
    ∧ (win1_2.index t 0 = t.val ∧ win1_2.index t 1 = 0 ∧ win1_2.index t 2 = 0 ∧ win1_2.index t 3 = 0)
    ∧ (win1_3.index t 0 = t.val ∧ win1_3.index t 1 = 0 ∧ win1_3.index t 2 = 0 ∧ win1_3.index t 3 = 0) :=
  (by decide +kernel : ∀ t : Fin grid1.N, _)

/-- The padded window's block at point `t` is sample `t` of the padded array. -/
theorem pad_block_at (c : Dev nD) (t : Fin cfg1.N) (n : Fin 8) (hn : n.val = t.val) (k : Fin 64) (a b : Fin 130) :
    (iblk1 V c 0 t : Vec Ideal S1x64x130x130 .f32) (ix4 0 k a b) = padArr V c (ix4 n k a b) := by
  obtain ⟨⟨e0, e1, e2, e3⟩, -⟩ := index_facts t
  unfold iblk1
  rw [View.read_apply]
  show V c main_v50 _ = V c main_v50 _
  congr 1
  funext d
  apply Fin.ext
  match d with
  | ⟨0, _⟩ => show win1_0.index t 0 * 1 + 1 * (0 : Fin 1).val = n.val; rw [e0, hn]; simp
  | ⟨1, _⟩ => show win1_0.index t 1 * 64 + 1 * k.val = k.val; rw [e1]; omega
  | ⟨2, _⟩ => show win1_0.index t 2 * 130 + 1 * a.val = a.val; rw [e2]; omega
  | ⟨3, _⟩ => show win1_0.index t 3 * 130 + 1 * b.val = b.val; rw [e3]; omega

/-- The weight window's block at point `t` is sample `t` of the weight table. -/
theorem wt_block_at (c : Dev nD) (t : Fin cfg1.N) (n : Fin 8) (hn : n.val = t.val) (k : Fin 64) (j : Fin 9) :
    (iblk1 V c 1 t : Vec Ideal S1x64x9 .f32) (ix3 0 k j) = wtArr V c (ix3 n k j) := by
  obtain ⟨-, ⟨e0, e1, e2⟩, -⟩ := index_facts t
  unfold iblk1
  rw [View.read_apply]
  show V c main_v49 _ = V c main_v49 _
  congr 1
  funext d
  apply Fin.ext
  match d with
  | ⟨0, _⟩ => show win1_1.index t 0 * 1 + 1 * (0 : Fin 1).val = n.val; rw [e0, hn]; simp
  | ⟨1, _⟩ => show win1_1.index t 1 * 64 + 1 * k.val = k.val; rw [e1]; omega
  | ⟨2, _⟩ => show win1_1.index t 2 * 9 + 1 * j.val = j.val; rw [e2]; omega

/-- What point `t` writes back of the low band is block `t` of the band's array function: the body's block at
    (0, c, h, w) sits at (t, c, h, w) of the array, and the input blocks there are sample `t` of their arrays. -/
theorem low_flushed (c : Dev nD) (t : Fin cfg1.N) :
    (dat1 (F := Ideal) V c).flushed 2 t = ((cfg1.win 2).blk t).view.read (Elt Ideal) (lowArr V c) := by
  have hN : t.val < 8 := lt_of_lt_of_eq t.isLt N_1
  obtain ⟨-, -, ⟨e0, e1, e2, e3⟩, -⟩ := index_facts t
  show (cfg1.win 2).cut (grid1.coords t) ((dat1 V c).after 2 t) = _
  rw [after1_2]
  funext y
  rw [View.read_apply]
  have h0 : (y 0).val < 1 := (y 0).isLt
  have hk : (y 1).val < 64 := (y 1).isLt
  have hh : (y 2).val < 128 := (y 2).isLt
  have hw : (y 3).val < 128 := (y 3).isLt
  have eL : (cfg1.win 2).xinj (grid1.coords t) y = ix4 0 ⟨(y 1).val, hk⟩ ⟨(y 2).val, hh⟩ ⟨(y 3).val, hw⟩ :=
    funext fun a => Fin.ext (match a with
      | ⟨0, _⟩ => (show (y 0).val = 0 by omega)
      | ⟨1, _⟩ => rfl
      | ⟨2, _⟩ => rfl
      | ⟨3, _⟩ => rfl)
  have eR : ((cfg1.win 2).blk t).view.emb y = ix4 ⟨t.val, hN⟩ ⟨(y 1).val, hk⟩ ⟨(y 2).val, hh⟩ ⟨(y 3).val, hw⟩ :=
    funext fun a => Fin.ext (match a with
      | ⟨0, _⟩ => (show win1_2.index t 0 * 1 + 1 * (y 0).val = t.val by rw [e0]; omega)
      | ⟨1, _⟩ => (show win1_2.index t 1 * 64 + 1 * (y 1).val = (y 1).val by rw [e1]; omega)
      | ⟨2, _⟩ => (show win1_2.index t 2 * 128 + 1 * (y 2).val = (y 2).val by rw [e2]; omega)
      | ⟨3, _⟩ => (show win1_2.index t 3 * 128 + 1 * (y 3).val = (y 3).val by rw [e3]; omega))
  show out1_2 (iblk1 V c 0 t) (iblk1 V c 1 t) ((cfg1.win 2).xinj (grid1.coords t) y)
    = lowArr V c (((cfg1.win 2).blk t).view.emb y)
  refine (congrArg (out1_2 (iblk1 V c 0 t) (iblk1 V c 1 t)) eL).trans (Eq.trans ?_ (congrArg (lowArr V c) eR).symm)
  exact low_block (padArr V c) (wtArr V c) (iblk1 V c 0 t) (iblk1 V c 1 t) ⟨t.val, hN⟩ ⟨(y 1).val, hk⟩
    (fun a b => pad_block_at V c t ⟨t.val, hN⟩ rfl ⟨(y 1).val, hk⟩ a b) (fun j => wt_block_at V c t ⟨t.val, hN⟩ rfl ⟨(y 1).val, hk⟩ j)
    ⟨(y 2).val, hh⟩ ⟨(y 3).val, hw⟩

/-- Every index of the low band's array is in the block of the point that is its sample. -/
theorem low_cover (c : Dev nD) (i : ((cfg1.win 2).arr.view.loc (c.tc : Thread nD τ)).2.ty.Idx) :
    ∃ t : Fin cfg1.N, (cfg1.win 2).flush t = true ∧ i ∈ ((cfg1.win 2).blk t).view.set := by
  have hi0 : (i 0).val < 8 := (i 0).isLt
  have hi1 : (i 1).val < 64 := (i 1).isLt
  have hi2 : (i 2).val < 128 := (i 2).isLt
  have hi3 : (i 3).val < 128 := (i 3).isLt
  have hN : (i 0).val < cfg1.N := by rw [show cfg1.N = 8 from N_1]; exact hi0
  refine ⟨⟨(i 0).val, hN⟩, flush1_2 _, ?_⟩
  obtain ⟨-, -, ⟨e0, e1, e2, e3⟩, -⟩ := index_facts ⟨(i 0).val, hN⟩
  show i ∈ ((View.whole main_v51_0).slice (win1_2.rect ⟨(i 0).val, hN⟩)).set
  rw [View.set_slice_whole, Rect.mem_set_unit]
  intro a
  match a with
  | ⟨0, _⟩ => show win1_2.index ⟨(i 0).val, hN⟩ 0 * 1 ≤ (i 0).val ∧ (i 0).val < win1_2.index ⟨(i 0).val, hN⟩ 0 * 1 + 1; rw [show win1_2.index ⟨(i 0).val, hN⟩ 0 = (i 0).val from e0]; omega
  | ⟨1, _⟩ => show win1_2.index ⟨(i 0).val, hN⟩ 1 * 64 ≤ (i 1).val ∧ (i 1).val < win1_2.index ⟨(i 0).val, hN⟩ 1 * 64 + 64; rw [e1]; omega
  | ⟨2, _⟩ => show win1_2.index ⟨(i 0).val, hN⟩ 2 * 128 ≤ (i 2).val ∧ (i 2).val < win1_2.index ⟨(i 0).val, hN⟩ 2 * 128 + 128; rw [e2]; omega
  | ⟨3, _⟩ => show win1_2.index ⟨(i 0).val, hN⟩ 3 * 128 ≤ (i 3).val ∧ (i 3).val < win1_2.index ⟨(i 0).val, hN⟩ 3 * 128 + 128; rw [e3]; omega

/-- The low band's array after the region: the eight blocks tile it, so it holds the band's function everywhere. -/
theorem low_final (c : Dev nD) : (dat1 (F := Ideal) V c).arrAt 2 cfg1.N = lowArr V c :=
  (dat1 (F := Ideal) V c).arrAt_eq_of_cover 2 (lowArr V c) (fun t _ => low_flushed V c t) (low_cover c)

/-- What point `t` writes back of the high band is block `t` of the band's array function: the body's block at
    (0, c, h, w) sits at (t, c, h, w) of the array, and the input blocks there are sample `t` of their arrays. -/
theorem high_flushed (c : Dev nD) (t : Fin cfg1.N) :
    (dat1 (F := Ideal) V c).flushed 3 t = ((cfg1.win 3).blk t).view.read (Elt Ideal) (highArr V c) := by
  have hN : t.val < 8 := lt_of_lt_of_eq t.isLt N_1
  obtain ⟨-, -, -, ⟨e0, e1, e2, e3⟩⟩ := index_facts t
  show (cfg1.win 3).cut (grid1.coords t) ((dat1 V c).after 3 t) = _
  rw [after1_3]
  funext y
  rw [View.read_apply]
  have h0 : (y 0).val < 1 := (y 0).isLt
  have hk : (y 1).val < 64 := (y 1).isLt
  have hh : (y 2).val < 128 := (y 2).isLt
  have hw : (y 3).val < 128 := (y 3).isLt
  have eL : (cfg1.win 3).xinj (grid1.coords t) y = ix4 0 ⟨(y 1).val, hk⟩ ⟨(y 2).val, hh⟩ ⟨(y 3).val, hw⟩ :=
    funext fun a => Fin.ext (match a with
      | ⟨0, _⟩ => (show (y 0).val = 0 by omega)
      | ⟨1, _⟩ => rfl
      | ⟨2, _⟩ => rfl
      | ⟨3, _⟩ => rfl)
  have eR : ((cfg1.win 3).blk t).view.emb y = ix4 ⟨t.val, hN⟩ ⟨(y 1).val, hk⟩ ⟨(y 2).val, hh⟩ ⟨(y 3).val, hw⟩ :=
    funext fun a => Fin.ext (match a with
      | ⟨0, _⟩ => (show win1_3.index t 0 * 1 + 1 * (y 0).val = t.val by rw [e0]; omega)
      | ⟨1, _⟩ => (show win1_3.index t 1 * 64 + 1 * (y 1).val = (y 1).val by rw [e1]; omega)
      | ⟨2, _⟩ => (show win1_3.index t 2 * 128 + 1 * (y 2).val = (y 2).val by rw [e2]; omega)
      | ⟨3, _⟩ => (show win1_3.index t 3 * 128 + 1 * (y 3).val = (y 3).val by rw [e3]; omega))
  show out1_3 (iblk1 V c 0 t) (iblk1 V c 1 t) ((cfg1.win 3).xinj (grid1.coords t) y)
    = highArr V c (((cfg1.win 3).blk t).view.emb y)
  refine (congrArg (out1_3 (iblk1 V c 0 t) (iblk1 V c 1 t)) eL).trans (Eq.trans ?_ (congrArg (highArr V c) eR).symm)
  exact high_block (padArr V c) (wtArr V c) (iblk1 V c 0 t) (iblk1 V c 1 t) ⟨t.val, hN⟩ ⟨(y 1).val, hk⟩
    (fun a b => pad_block_at V c t ⟨t.val, hN⟩ rfl ⟨(y 1).val, hk⟩ a b) (fun j => wt_block_at V c t ⟨t.val, hN⟩ rfl ⟨(y 1).val, hk⟩ j)
    ⟨(y 2).val, hh⟩ ⟨(y 3).val, hw⟩

/-- Every index of the high band's array is in the block of the point that is its sample. -/
theorem high_cover (c : Dev nD) (i : ((cfg1.win 3).arr.view.loc (c.tc : Thread nD τ)).2.ty.Idx) :
    ∃ t : Fin cfg1.N, (cfg1.win 3).flush t = true ∧ i ∈ ((cfg1.win 3).blk t).view.set := by
  have hi0 : (i 0).val < 8 := (i 0).isLt
  have hi1 : (i 1).val < 64 := (i 1).isLt
  have hi2 : (i 2).val < 128 := (i 2).isLt
  have hi3 : (i 3).val < 128 := (i 3).isLt
  have hN : (i 0).val < cfg1.N := by rw [show cfg1.N = 8 from N_1]; exact hi0
  refine ⟨⟨(i 0).val, hN⟩, flush1_3 _, ?_⟩
  obtain ⟨-, -, -, ⟨e0, e1, e2, e3⟩⟩ := index_facts ⟨(i 0).val, hN⟩
  show i ∈ ((View.whole main_v51_1).slice (win1_3.rect ⟨(i 0).val, hN⟩)).set
  rw [View.set_slice_whole, Rect.mem_set_unit]
  intro a
  match a with
  | ⟨0, _⟩ => show win1_3.index ⟨(i 0).val, hN⟩ 0 * 1 ≤ (i 0).val ∧ (i 0).val < win1_3.index ⟨(i 0).val, hN⟩ 0 * 1 + 1; rw [show win1_3.index ⟨(i 0).val, hN⟩ 0 = (i 0).val from e0]; omega
  | ⟨1, _⟩ => show win1_3.index ⟨(i 0).val, hN⟩ 1 * 64 ≤ (i 1).val ∧ (i 1).val < win1_3.index ⟨(i 0).val, hN⟩ 1 * 64 + 64; rw [e1]; omega
  | ⟨2, _⟩ => show win1_3.index ⟨(i 0).val, hN⟩ 2 * 128 ≤ (i 2).val ∧ (i 2).val < win1_3.index ⟨(i 0).val, hN⟩ 2 * 128 + 128; rw [e2]; omega
  | ⟨3, _⟩ => show win1_3.index ⟨(i 0).val, hN⟩ 3 * 128 ≤ (i 3).val ∧ (i 3).val < win1_3.index ⟨(i 0).val, hN⟩ 3 * 128 + 128; rw [e3]; omega

/-- The high band's array after the region: the eight blocks tile it, so it holds the band's function everywhere. -/
theorem high_final (c : Dev nD) : (dat1 (F := Ideal) V c).arrAt 3 cfg1.N = highArr V c :=
  (dat1 (F := Ideal) V c).arrAt_eq_of_cover 3 (highArr V c) (fun t _ => high_flushed V c t) (high_cover c)

/-! ## The two arrays, index by index -/

/-- The low band's array after the region at (n, c, h, w): zero plus the nine taps of the padded array as the region
    found it, in row-major tap order. -/
theorem low_value (c : Dev nD) (n : Fin 8) (k : Fin 64) (h w : Fin 128) :
    ((dat1 (F := Ideal) V c).arrAt 2 cfg1.N : S8x64x128x128.Idx → EReal) (ix4 n k h w)
      = Cert.Spec.lowAt (V c main_v50) (V c main_v49) n k h w :=
  congrFun (low_final V c) (ix4 n k h w)

/-- The high band's array after the region at (n, c, h, w): the centre sample minus the low band. -/
theorem high_value (c : Dev nD) (n : Fin 8) (k : Fin 64) (h w : Fin 128) :
    ((dat1 (F := Ideal) V c).arrAt 3 cfg1.N : S8x64x128x128.Idx → EReal) (ix4 n k h w)
      = Cert.Spec.highAt (V c main_v50) (V c main_v49) n k h w :=
  congrFun (high_final V c) (ix4 n k h w)

end Cert.Proof.FilterValue

end
-- ==== Proof.Val.Host.lean ====
/-
  The interior of the reflect-padded sample array is the sample array.

  The kernel program pads its samples [8, 64, 128, 128] on the host to [8, 64, 130, 130]: row 1 mirrored and
  placed above, row 127 of the result mirrored and placed below, then column 1 mirrored and placed to the left
  and column 127 of the result mirrored and placed to the right — four two-piece concatenations, rows (axis 2)
  first, then columns (axis 3). At an interior position — row h + 1, column w + 1 with h, w < 128 — each of
  the four concatenations reads its large piece, so the padded array there is the sample array at (h, w); the
  mirrored rows and columns are never opened.
-/
import proofs.«100776_j22771916603489_1_alg».proof.Proof.Gen.KernelIdeal.Launch
import proofs.«100776_j22771916603489_1_alg».proof.Proof.Val.Spec
import Idealize.ShloMosaic.Lib.Pipeline.Value
import Idealize.ShloMosaic.Lib.Pipeline.Frame
import Idealize.ShloMosaic.Lib.ValueIdx
import Idealize.ShloMosaic.Lib.StableHlo.Run

noncomputable section

namespace Cert.Proof.HostValue

open Idealize.ShloMosaic Idealize.ShloMosaic.ValueIdx Idealize.ShloMosaic.TcCoe
open Cert.Spec (SP SX)

variable {α : Type}

/-! ## The reflect pad as a function of the sample array -/

/-- One row of samples, the array with one and with two more rows, one column of the latter, and that with one
    more column. -/
abbrev Row1 : Shape := ⟨4, ![8, 64, 1, 128]⟩
abbrev Rows129 : Shape := ⟨4, ![8, 64, 129, 128]⟩
abbrev Rows130 : Shape := ⟨4, ![8, 64, 130, 128]⟩
abbrev Col1 : Shape := ⟨4, ![8, 64, 130, 1]⟩
abbrev Cols129 : Shape := ⟨4, ![8, 64, 130, 129]⟩

/-- The four concatenations' extents add up. -/
theorem cat_Row1_SX : Shape.Concatenates [Row1, SX] Rows129 2 := by decide
theorem cat_Rows129_Row1 : Shape.Concatenates [Rows129, Row1] Rows130 2 := by decide
theorem cat_Col1_Rows130 : Shape.Concatenates [Col1, Rows130] Cols129 3 := by decide
theorem cat_Cols129_Col1 : Shape.Concatenates [Cols129, Col1] SP 3 := by decide

/-- Row 1 mirrored, placed above the array. -/
def rowAbove (x : SX.Idx → α) : Rows129.Idx → α :=
  concatenate Rows129 2 [⟨Row1, Host.reverse [2] (extractStridedSlice Row1 ![0, 0, 1, 0] x)⟩, ⟨SX, x⟩] cat_Row1_SX

/-- Row 127 of that (the array's row 126) mirrored, placed below. -/
def rowBelow (y : Rows129.Idx → α) : Rows130.Idx → α :=
  concatenate Rows130 2 [⟨Rows129, y⟩, ⟨Row1, Host.reverse [2] (extractStridedSlice Row1 ![0, 0, 127, 0] y)⟩] cat_Rows129_Row1

/-- Column 1 mirrored, placed to the left. -/
def colLeft (y : Rows130.Idx → α) : Cols129.Idx → α :=
  concatenate Cols129 3 [⟨Col1, Host.reverse [3] (extractStridedSlice Col1 ![0, 0, 0, 1] y)⟩, ⟨Rows130, y⟩] cat_Col1_Rows130

/-- Column 127 of that mirrored, placed to the right. -/
def colRight (y : Cols129.Idx → α) : SP.Idx → α :=
  concatenate SP 3 [⟨Cols129, y⟩, ⟨Col1, Host.reverse [3] (extractStridedSlice Col1 ![0, 0, 0, 127] y)⟩] cat_Cols129_Col1

/-- The reflect pad: rows first, then columns. -/
def reflectPad (x : SX.Idx → α) : SP.Idx → α := colRight (colLeft (rowBelow (rowAbove x)))

/-! ## A two-piece concatenation read inside its large piece -/

/-- A block under one leading row (axis 2): past the leading row the stack reads the block, one row up. -/
theorem cat_row_above (hc : Shape.Concatenates [Row1, SX] Rows129 2) (a : Row1.Idx → α) (b : SX.Idx → α)
    (n : Fin 8) (k : Fin 64) (r : Fin 129) (c : Fin 128) (hr : 1 ≤ r.val) :
    concatenate Rows129 2 [⟨Row1, a⟩, ⟨SX, b⟩] hc (ix4 n k r c) = b (ix4 n k ⟨r.val - 1, by omega⟩ c) := by
  refine concatenate_pair_apply_right (t := Rows129) (s₁ := Row1) (s₂ := SX) (2 : Fin 4) a b hc _ rfl rfl _ ?_ ?_
  · intro e he
    match e with
    | ⟨0, _⟩ => rfl
    | ⟨1, _⟩ => rfl
    | ⟨2, _⟩ => exact absurd rfl he
    | ⟨3, _⟩ => rfl
  · show r.val - 1 + 1 = r.val
    omega

/-- A block with one trailing row after it (axis 2): before the trailing row the stack reads the block. -/
theorem cat_row_below (hc : Shape.Concatenates [Rows129, Row1] Rows130 2) (a : Rows129.Idx → α) (b : Row1.Idx → α)
    (n : Fin 8) (k : Fin 64) (r : Fin 130) (c : Fin 128) (hr : r.val < 129) :
    concatenate Rows130 2 [⟨Rows129, a⟩, ⟨Row1, b⟩] hc (ix4 n k r c) = a (ix4 n k ⟨r.val, hr⟩ c) := by
  refine concatenate_pair_apply_left (t := Rows130) (s₁ := Rows129) (s₂ := Row1) (2 : Fin 4) a b hc _ rfl _ ?_
  intro e
  match e with
  | ⟨0, _⟩ => rfl
  | ⟨1, _⟩ => rfl
  | ⟨2, _⟩ => rfl
  | ⟨3, _⟩ => rfl

/-- A block after one leading column (axis 3): past the leading column it reads the block, one column left. -/
theorem cat_col_left (hc : Shape.Concatenates [Col1, Rows130] Cols129 3) (a : Col1.Idx → α) (b : Rows130.Idx → α)
    (n : Fin 8) (k : Fin 64) (r : Fin 130) (c : Fin 129) (hcl : 1 ≤ c.val) :
    concatenate Cols129 3 [⟨Col1, a⟩, ⟨Rows130, b⟩] hc (ix4 n k r c) = b (ix4 n k r ⟨c.val - 1, by omega⟩) := by
  refine concatenate_pair_apply_right (t := Cols129) (s₁ := Col1) (s₂ := Rows130) (3 : Fin 4) a b hc _ rfl rfl _ ?_ ?_
  · intro e he
    match e with
    | ⟨0, _⟩ => rfl
    | ⟨1, _⟩ => rfl
    | ⟨2, _⟩ => rfl
    | ⟨3, _⟩ => exact absurd rfl he
  · show c.val - 1 + 1 = c.val
    omega

/-- A block with one trailing column after it (axis 3): before the trailing column it reads the block. -/
theorem cat_col_right (hc : Shape.Concatenates [Cols129, Col1] SP 3) (a : Cols129.Idx → α) (b : Col1.Idx → α)
    (n : Fin 8) (k : Fin 64) (r : Fin 130) (c : Fin 130) (hcl : c.val < 129) :
    concatenate SP 3 [⟨Cols129, a⟩, ⟨Col1, b⟩] hc (ix4 n k r c) = a (ix4 n k r ⟨c.val, hcl⟩) := by
  refine concatenate_pair_apply_left (t := SP) (s₁ := Cols129) (s₂ := Col1) (3 : Fin 4) a b hc _ rfl _ ?_
  intro e
  match e with
  | ⟨0, _⟩ => rfl
  | ⟨1, _⟩ => rfl
  | ⟨2, _⟩ => rfl
  | ⟨3, _⟩ => rfl

/-- The padded array at an interior position is the sample array there: the four layers each read their large piece. -/
theorem reflectPad_centre (x : SX.Idx → α) (n : Fin 8) (k : Fin 64) (h w : Fin 128) :
    reflectPad x (ix4 n k (Cert.Spec.shift h 1) (Cert.Spec.shift w 1)) = x (ix4 n k h w) := by
  have hh := h.isLt
  have hw := w.isLt
  unfold reflectPad colRight
  rw [cat_col_right _ _ _ n k _ _ (show w.val + 1 < 129 by omega)]
  unfold colLeft
  rw [cat_col_left _ _ _ n k _ _ (show 1 ≤ w.val + 1 by omega)]
  unfold rowBelow
  rw [cat_row_below _ _ _ n k _ _ (show h.val + 1 < 129 by omega)]
  unfold rowAbove
  rw [cat_row_above _ _ _ n k _ _ (show 1 ≤ h.val + 1 by omega)]
  refine congrArg x ?_
  funext e
  match e with
  | ⟨0, _⟩ => rfl
  | ⟨1, _⟩ => rfl
  | ⟨2, _⟩ => exact Fin.ext (show h.val + 1 - 1 = h.val by omega)
  | ⟨3, _⟩ => exact Fin.ext (show w.val + 1 - 1 = w.val by omega)

/-! ## The kernel program's pad stretch -/

section KernelPad
open Cert.KernelIdeal Cert.KernelIdeal.Gen

/-- The pad's sixteen operations, four to a layer. -/
theorem pad_ops_layers :
    (hostOps1_1 (F := Ideal)) = (hostOps1_1.take 4 ++ ((hostOps1_1.drop 4).take 4 ++ (((hostOps1_1.drop 4).drop 4).take 4 ++ ((hostOps1_1.drop 4).drop 4).drop 4))) := by
  rw [List.take_append_drop, List.take_append_drop, List.take_append_drop]

/-- The first layer leaves the array with its mirrored row above. -/
theorem layer_rowAbove (V : Valuation τ sig (Elt Ideal)) :
    StableHlo.after ((hostOps1_1 (F := Ideal)).take 4) V (Proc.devRef .tc main_call0_v3) = rowAbove (V (Proc.devRef .tc main_arg0)) := by
  show StableHlo.after [_, _, _, _] V _ = _
  simp only [StableHlo.after_cons, StableHlo.after_nil]
  rfl

/-- The second layer adds the mirrored row below. -/
theorem layer_rowBelow (V : Valuation τ sig (Elt Ideal)) :
    StableHlo.after (((hostOps1_1 (F := Ideal)).drop 4).take 4) V (Proc.devRef .tc main_call0_v7) = rowBelow (V (Proc.devRef .tc main_call0_v3)) := by
  show StableHlo.after [_, _, _, _] V _ = _
  simp only [StableHlo.after_cons, StableHlo.after_nil]
  rfl

/-- The third layer adds the mirrored column to the left. -/
theorem layer_colLeft (V : Valuation τ sig (Elt Ideal)) :
    StableHlo.after ((((hostOps1_1 (F := Ideal)).drop 4).drop 4).take 4) V (Proc.devRef .tc main_call0_v11) = colLeft (V (Proc.devRef .tc main_call0_v7)) := by
  show StableHlo.after [_, _, _, _] V _ = _
  simp only [StableHlo.after_cons, StableHlo.after_nil]
  rfl

/-- The fourth layer adds the mirrored column to the right. -/
theorem layer_colRight (V : Valuation τ sig (Elt Ideal)) :
    StableHlo.after ((((hostOps1_1 (F := Ideal)).drop 4).drop 4).drop 4) V (Proc.devRef .tc main_v50) = colRight (V (Proc.devRef .tc main_call0_v11)) := by
  show StableHlo.after [_, _, _, _] V _ = _
  simp only [StableHlo.after_cons, StableHlo.after_nil]
  rfl

/-- The sixteen operations of the pad end at the reflect pad of the sample argument. -/
theorem pad_read (VK : Valuation τ sig (Elt Ideal)) :
    StableHlo.after (hostOps1_1 (F := Ideal)) VK (Proc.devRef .tc main_v50) = reflectPad (VK (Proc.devRef .tc main_arg0)) := by
  rw [pad_ops_layers, StableHlo.after_append, StableHlo.after_append, StableHlo.after_append,
    layer_colRight, layer_colLeft, layer_rowBelow, layer_rowAbove]
  rfl

end KernelPad

/-- The padded samples at row h + 1, column w + 1 are the samples at (h, w). -/
theorem pad_centre (VK : Valuation Cert.KernelIdeal.τ Cert.KernelIdeal.sig (Elt Ideal)) (n : Fin 8) (k : Fin 64) (h w : Fin 128) :
    StableHlo.after (Cert.KernelIdeal.Gen.hostOps1_1 (F := Ideal)) VK (Proc.devRef .tc Cert.KernelIdeal.main_v50) (ix4 n k (Cert.Spec.shift h 1) (Cert.Spec.shift w 1))
      = VK (Proc.devRef .tc Cert.KernelIdeal.main_arg0) (ix4 n k h w) := by
  rw [pad_read]
  exact reflectPad_centre _ n k h w

end Cert.Proof.HostValue

end
-- ==== Proof.Val.Sim.lean ====
/- The two programs run the SAME host operations on the filter head and on the reflect pad, over buffers named
   differently: from valuations that agree on what a stretch reads, the stretch's result buffers agree. The filter head
   (transpose, two contractions, the sigmoid gate, the normalization over 72 features, scale and shift, the softmax over
   nine taps, the spread over a group's eight channels) and the reflect pad by one position on each side of the two
   spatial axes are each read back to one composed term of the reads, the same term on both sides. -/
import proofs.«100776_j22771916603489_1_alg».proof.Proof.Gen.KernelIdeal.Launch
import proofs.«100776_j22771916603489_1_alg».proof.Proof.RI.Run
import Idealize.ShloMosaic.Lib.StableHlo.Run
import Idealize.ShloMosaic.PureOps.Ideal

noncomputable section

namespace Cert.Proof.HostValue

open Idealize.ShloMosaic Idealize.ShloMosaic.TcCoe Idealize.SL.Sem Idealize.ShloMosaic.StableHlo

variable {F : FTy → Type} [FloatOps F]

attribute [local irreducible] Host.reduce Host.reduceAdd Host.exp Host.sqrt Host.divf Host.negf transpose broadcastInDim shapeCast in
set_option maxRecDepth 16384 in
set_option maxHeartbeats 1000000 in
/-- The filter head at any scalar type: from valuations agreeing on the pooled mean and on the four parameter arrays, the
    tap weights agree. -/
theorem chain_sim_any (VK : Valuation Cert.KernelIdeal.τ Cert.KernelIdeal.sig (Elt F)) (VR : Valuation Cert.ReferenceIdeal.τ Cert.ReferenceIdeal.sig (Elt F))
    (h0 : VK (Proc.devRef .tc Cert.KernelIdeal.main_v0) = VR (Proc.devRef .tc Cert.ReferenceIdeal.main_v2))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4)) :
    StableHlo.after Cert.KernelIdeal.Gen.hostOps1 VK (Proc.devRef .tc Cert.KernelIdeal.main_v49)
      = StableHlo.after Cert.ReferenceIdeal.Hand.opsB VR (Proc.devRef .tc Cert.ReferenceIdeal.main_v51) := by
  after_results_simp
  rw [h0, h1, h2, h3, h4]
  rfl

attribute [local irreducible] Host.reverse concatenate extractStridedSlice in
set_option maxRecDepth 16384 in
set_option maxHeartbeats 1000000 in
/-- The reflect pad at any scalar type: from valuations agreeing on the sample array, the padded arrays agree. -/
theorem pad_sim_any (VK : Valuation Cert.KernelIdeal.τ Cert.KernelIdeal.sig (Elt F)) (VR : Valuation Cert.ReferenceIdeal.τ Cert.ReferenceIdeal.sig (Elt F))
    (h : VK (Proc.devRef .tc Cert.KernelIdeal.main_arg0) = VR (Proc.devRef .tc Cert.ReferenceIdeal.main_arg0)) :
    StableHlo.after Cert.KernelIdeal.Gen.hostOps1_1 VK (Proc.devRef .tc Cert.KernelIdeal.main_v50)
      = StableHlo.after Cert.ReferenceIdeal.Hand.opsC VR (Proc.devRef .tc Cert.ReferenceIdeal.main_v52) := by
  after_results
  rw [h]

/-- The filter head: from valuations agreeing on the pooled mean and on the four parameter arrays, the tap weights agree. -/
theorem chain_sim (VK : Valuation Cert.KernelIdeal.τ Cert.KernelIdeal.sig (Elt Ideal)) (VR : Valuation Cert.ReferenceIdeal.τ Cert.ReferenceIdeal.sig (Elt Ideal))
    (h0 : VK (Proc.devRef .tc Cert.KernelIdeal.main_v0) = VR (Proc.devRef .tc Cert.ReferenceIdeal.main_v2))
    (h1 : VK (Proc.devRef .tc Cert.KernelIdeal.main_arg1) = VR (Proc.devRef .tc Cert.ReferenceIdeal.main_arg1))
    (h2 : VK (Proc.devRef .tc Cert.KernelIdeal.main_arg2) = VR (Proc.devRef .tc Cert.ReferenceIdeal.main_arg2))
    (h3 : VK (Proc.devRef .tc Cert.KernelIdeal.main_arg3) = VR (Proc.devRef .tc Cert.ReferenceIdeal.main_arg3))
    (h4 : VK (Proc.devRef .tc Cert.KernelIdeal.main_arg4) = VR (Proc.devRef .tc Cert.ReferenceIdeal.main_arg4)) :
    StableHlo.after Cert.KernelIdeal.Gen.hostOps1 VK (Proc.devRef .tc Cert.KernelIdeal.main_v49)
      = StableHlo.after Cert.ReferenceIdeal.Hand.opsB VR (Proc.devRef .tc Cert.ReferenceIdeal.main_v51) := by
  exact chain_sim_any VK VR h0 h1 h2 h3 h4

/-- The reflect pad: from valuations agreeing on the sample array, the padded arrays agree. -/
theorem pad_sim (VK : Valuation Cert.KernelIdeal.τ Cert.KernelIdeal.sig (Elt Ideal)) (VR : Valuation Cert.ReferenceIdeal.τ Cert.ReferenceIdeal.sig (Elt Ideal))
    (h : VK (Proc.devRef .tc Cert.KernelIdeal.main_arg0) = VR (Proc.devRef .tc Cert.ReferenceIdeal.main_arg0)) :
    StableHlo.after Cert.KernelIdeal.Gen.hostOps1_1 VK (Proc.devRef .tc Cert.KernelIdeal.main_v50)
      = StableHlo.after Cert.ReferenceIdeal.Hand.opsC VR (Proc.devRef .tc Cert.ReferenceIdeal.main_v52) := by
  exact pad_sim_any VK VR h

end Cert.Proof.HostValue

end
-- ==== Proof.Val.Glue.lean ====
/-
  The two idealized programs end with equal results.

  The kernel program computes, in order: the pooled mean of the samples (its first region: a spatial sum
  accumulated over two row tiles, times 2^-14), the per-channel filter weights from that mean (sixty host
  operations), the reflect-padded samples (sixteen host operations), and in its second region the nine-tap
  filtered output and the residual. The reference computes the same mean as one sum divided by 16384, then
  the very same weight and padding operations, then the nine taps on the host in the same order.
  So the proof is a chain of four agreements: the means are equal (the one algebraic law: a product with
  2^-14 is a quotient by 16384, and a sum may be split in two); equal means and equal parameters give
  equal weights (the same operations); equal samples give equal padded arrays (the same operations); and at
  each index both outputs are the specification's tap sum of those two arrays. The residual also needs
  that the centre of the padded array is the sample array itself.
-/
import proofs.«100776_j22771916603489_1_alg».proof.Defs
import proofs.«100776_j22771916603489_1_alg».proof.Proof.KI.Run
import proofs.«100776_j22771916603489_1_alg».proof.Proof.RI.Run
import proofs.«100776_j22771916603489_1_alg».proof.Proof.RI.Taps
import proofs.«100776_j22771916603489_1_alg».proof.Proof.Val.Spec
import proofs.«100776_j22771916603489_1_alg».proof.Proof.Val.GapValue
import proofs.«100776_j22771916603489_1_alg».proof.Proof.Val.FilterValue
import proofs.«100776_j22771916603489_1_alg».proof.Proof.Val.Host
import proofs.«100776_j22771916603489_1_alg».proof.Proof.Val.Sim
import proofs.«100776_j22771916603489_1_alg».proof.Proof.Gen.KernelIdeal.Regions
import proofs.«100776_j22771916603489_1_alg».proof.Proof.Gen.Pre_finite_inputs

noncomputable section

namespace Cert.Proof.Bridge

open Idealize.ShloMosaic Idealize.ShloMosaic.TcCoe Idealize.SL.Sem Idealize.ShloMosaic.StableHlo
open Idealize.ShloMosaic.ValueIdx Cert.Spec

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- The two launch memories agree on the five arguments (the claim's hypothesis). -/
def Agree : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

/-! ## The reference's buffers after each of its four stretches -/

/-- After the pooled mean, -/
abbrev VA (c : Dev Cert.ReferenceIdeal.nD) : Valuation Cert.ReferenceIdeal.τ Cert.ReferenceIdeal.sig (Elt Ideal) :=
  after Cert.ReferenceIdeal.Hand.opsA (launchContents m' c)
/-- after the filter weights, -/
abbrev VB (c : Dev Cert.ReferenceIdeal.nD) : Valuation Cert.ReferenceIdeal.τ Cert.ReferenceIdeal.sig (Elt Ideal) :=
  after Cert.ReferenceIdeal.Hand.opsB (VA m' c)
/-- after the padding. -/
abbrev VC (c : Dev Cert.ReferenceIdeal.nD) : Valuation Cert.ReferenceIdeal.τ Cert.ReferenceIdeal.sig (Elt Ideal) :=
  after Cert.ReferenceIdeal.Hand.opsC (VB m' c)

section

variable {m m'} (hag : Agree m m')
include hag

/-! ## The arguments, stage by stage: no stretch of either program writes one -/

theorem refA_arg0 (c : Dev Cert.KernelIdeal.nD) : VA m' c (Proc.devRef .tc Cert.ReferenceIdeal.main_arg0) = m ((c.tc : Thread Cert.KernelIdeal.nD Cert.KernelIdeal.τ).loc Cert.KernelIdeal.main_arg0) :=
  (Cert.ReferenceIdeal.Hand.opsA_of _ Cert.ReferenceIdeal.main_arg0 (by decide)).trans (hag c).1
theorem refB_arg0 (c : Dev Cert.KernelIdeal.nD) : VB m' c (Proc.devRef .tc Cert.ReferenceIdeal.main_arg0) = m ((c.tc : Thread Cert.KernelIdeal.nD Cert.KernelIdeal.τ).loc Cert.KernelIdeal.main_arg0) :=
  (Cert.ReferenceIdeal.Hand.opsB_of _ Cert.ReferenceIdeal.main_arg0 (by decide)).trans (refA_arg0 hag c)
theorem refC_arg0 (c : Dev Cert.KernelIdeal.nD) : VC m' c (Proc.devRef .tc Cert.ReferenceIdeal.main_arg0) = m ((c.tc : Thread Cert.KernelIdeal.nD Cert.KernelIdeal.τ).loc Cert.KernelIdeal.main_arg0) :=
  (Cert.ReferenceIdeal.Hand.opsC_of _ Cert.ReferenceIdeal.main_arg0 (by decide)).trans (refB_arg0 hag c)
theorem refA_arg1 (c : Dev Cert.KernelIdeal.nD) : VA m' c (Proc.devRef .tc Cert.ReferenceIdeal.main_arg1) = m ((c.tc : Thread Cert.KernelIdeal.nD Cert.KernelIdeal.τ).loc Cert.KernelIdeal.main_arg1) :=
  (Cert.ReferenceIdeal.Hand.opsA_of _ Cert.ReferenceIdeal.main_arg1 (by decide)).trans (hag c).2.1
theorem refB_arg1 (c : Dev Cert.KernelIdeal.nD) : VB m' c (Proc.devRef .tc Cert.ReferenceIdeal.main_arg1) = m ((c.tc : Thread Cert.KernelIdeal.nD Cert.KernelIdeal.τ).loc Cert.KernelIdeal.main_arg1) :=
  (Cert.ReferenceIdeal.Hand.opsB_of _ Cert.ReferenceIdeal.main_arg1 (by decide)).trans (refA_arg1 hag c)
theorem refC_arg1 (c : Dev Cert.KernelIdeal.nD) : VC m' c (Proc.devRef .tc Cert.ReferenceIdeal.main_arg1) = m ((c.tc : Thread Cert.KernelIdeal.nD Cert.KernelIdeal.τ).loc Cert.KernelIdeal.main_arg1) :=
  (Cert.ReferenceIdeal.Hand.opsC_of _ Cert.ReferenceIdeal.main_arg1 (by decide)).trans (refB_arg1 hag c)
theorem refA_arg2 (c : Dev Cert.KernelIdeal.nD) : VA m' c (Proc.devRef .tc Cert.ReferenceIdeal.main_arg2) = m ((c.tc : Thread Cert.KernelIdeal.nD Cert.KernelIdeal.τ).loc Cert.KernelIdeal.main_arg2) :=
  (Cert.ReferenceIdeal.Hand.opsA_of _ Cert.ReferenceIdeal.main_arg2 (by decide)).trans (hag c).2.2.1
theorem refB_arg2 (c : Dev Cert.KernelIdeal.nD) : VB m' c (Proc.devRef .tc Cert.ReferenceIdeal.main_arg2) = m ((c.tc : Thread Cert.KernelIdeal.nD Cert.KernelIdeal.τ).loc Cert.KernelIdeal.main_arg2) :=
  (Cert.ReferenceIdeal.Hand.opsB_of _ Cert.ReferenceIdeal.main_arg2 (by decide)).trans (refA_arg2 hag c)
theorem refC_arg2 (c : Dev Cert.KernelIdeal.nD) : VC m' c (Proc.devRef .tc Cert.ReferenceIdeal.main_arg2) = m ((c.tc : Thread Cert.KernelIdeal.nD Cert.KernelIdeal.τ).loc Cert.KernelIdeal.main_arg2) :=
  (Cert.ReferenceIdeal.Hand.opsC_of _ Cert.ReferenceIdeal.main_arg2 (by decide)).trans (refB_arg2 hag c)
theorem refA_arg3 (c : Dev Cert.KernelIdeal.nD) : VA m' c (Proc.devRef .tc Cert.ReferenceIdeal.main_arg3) = m ((c.tc : Thread Cert.KernelIdeal.nD Cert.KernelIdeal.τ).loc Cert.KernelIdeal.main_arg3) :=
  (Cert.ReferenceIdeal.Hand.opsA_of _ Cert.ReferenceIdeal.main_arg3 (by decide)).trans (hag c).2.2.2.1
theorem refB_arg3 (c : Dev Cert.KernelIdeal.nD) : VB m' c (Proc.devRef .tc Cert.ReferenceIdeal.main_arg3) = m ((c.tc : Thread Cert.KernelIdeal.nD Cert.KernelIdeal.τ).loc Cert.KernelIdeal.main_arg3) :=
  (Cert.ReferenceIdeal.Hand.opsB_of _ Cert.ReferenceIdeal.main_arg3 (by decide)).trans (refA_arg3 hag c)
theorem refC_arg3 (c : Dev Cert.KernelIdeal.nD) : VC m' c (Proc.devRef .tc Cert.ReferenceIdeal.main_arg3) = m ((c.tc : Thread Cert.KernelIdeal.nD Cert.KernelIdeal.τ).loc Cert.KernelIdeal.main_arg3) :=
  (Cert.ReferenceIdeal.Hand.opsC_of _ Cert.ReferenceIdeal.main_arg3 (by decide)).trans (refB_arg3 hag c)
theorem refA_arg4 (c : Dev Cert.KernelIdeal.nD) : VA m' c (Proc.devRef .tc Cert.ReferenceIdeal.main_arg4) = m ((c.tc : Thread Cert.KernelIdeal.nD Cert.KernelIdeal.τ).loc Cert.KernelIdeal.main_arg4) :=
  (Cert.ReferenceIdeal.Hand.opsA_of _ Cert.ReferenceIdeal.main_arg4 (by decide)).trans (hag c).2.2.2.2
theorem refB_arg4 (c : Dev Cert.KernelIdeal.nD) : VB m' c (Proc.devRef .tc Cert.ReferenceIdeal.main_arg4) = m ((c.tc : Thread Cert.KernelIdeal.nD Cert.KernelIdeal.τ).loc Cert.KernelIdeal.main_arg4) :=
  (Cert.ReferenceIdeal.Hand.opsB_of _ Cert.ReferenceIdeal.main_arg4 (by decide)).trans (refA_arg4 hag c)
theorem refC_arg4 (c : Dev Cert.KernelIdeal.nD) : VC m' c (Proc.devRef .tc Cert.ReferenceIdeal.main_arg4) = m ((c.tc : Thread Cert.KernelIdeal.nD Cert.KernelIdeal.τ).loc Cert.KernelIdeal.main_arg4) :=
  (Cert.ReferenceIdeal.Hand.opsC_of _ Cert.ReferenceIdeal.main_arg4 (by decide)).trans (refB_arg4 hag c)

omit hag in
/-- The kernel program's first region reads the samples through an input window and leaves them as launched. -/
theorem W1_arg0 (c : Dev Cert.KernelIdeal.nD) : Cert.KernelIdeal.Hand.W1 m ρ c (Proc.devRef .tc Cert.KernelIdeal.main_arg0) = m ((c.tc : Thread Cert.KernelIdeal.nD Cert.KernelIdeal.τ).loc Cert.KernelIdeal.main_arg0) :=
  (Cert.KernelIdeal.Hand.W1_arr m ρ c 0).trans (Cert.KernelIdeal.Hand.arr0_in (Cert.KernelIdeal.Hand.V0 m ρ) c)

omit hag in
theorem W1_arg1 (c : Dev Cert.KernelIdeal.nD) : Cert.KernelIdeal.Hand.W1 m ρ c (Proc.devRef .tc Cert.KernelIdeal.main_arg1) = m ((c.tc : Thread Cert.KernelIdeal.nD Cert.KernelIdeal.τ).loc Cert.KernelIdeal.main_arg1) :=
  Cert.KernelIdeal.Hand.W1_of_ne m ρ c Cert.KernelIdeal.main_arg1 (by decide)
omit hag in
theorem W1_arg2 (c : Dev Cert.KernelIdeal.nD) : Cert.KernelIdeal.Hand.W1 m ρ c (Proc.devRef .tc Cert.KernelIdeal.main_arg2) = m ((c.tc : Thread Cert.KernelIdeal.nD Cert.KernelIdeal.τ).loc Cert.KernelIdeal.main_arg2) :=
  Cert.KernelIdeal.Hand.W1_of_ne m ρ c Cert.KernelIdeal.main_arg2 (by decide)
omit hag in
theorem W1_arg3 (c : Dev Cert.KernelIdeal.nD) : Cert.KernelIdeal.Hand.W1 m ρ c (Proc.devRef .tc Cert.KernelIdeal.main_arg3) = m ((c.tc : Thread Cert.KernelIdeal.nD Cert.KernelIdeal.τ).loc Cert.KernelIdeal.main_arg3) :=
  Cert.KernelIdeal.Hand.W1_of_ne m ρ c Cert.KernelIdeal.main_arg3 (by decide)
omit hag in
theorem W1_arg4 (c : Dev Cert.KernelIdeal.nD) : Cert.KernelIdeal.Hand.W1 m ρ c (Proc.devRef .tc Cert.KernelIdeal.main_arg4) = m ((c.tc : Thread Cert.KernelIdeal.nD Cert.KernelIdeal.τ).loc Cert.KernelIdeal.main_arg4) :=
  Cert.KernelIdeal.Hand.W1_of_ne m ρ c Cert.KernelIdeal.main_arg4 (by decide)

omit hag in
/-- Nor do the sixty operations of the filter head write the samples. -/
theorem W2_arg0 (c : Dev Cert.KernelIdeal.nD) : Cert.KernelIdeal.Hand.W2 m ρ c (Proc.devRef .tc Cert.KernelIdeal.main_arg0) = m ((c.tc : Thread Cert.KernelIdeal.nD Cert.KernelIdeal.τ).loc Cert.KernelIdeal.main_arg0) :=
  (StableHlo.after_of_writes_sub Cert.KernelIdeal.Gen.hostOps1 _ Cert.KernelIdeal.Gen.hostOps1_writes (by decide : Cert.KernelIdeal.main_arg0 ∉ Cert.KernelIdeal.Gen.hostOps1_W)).trans (W1_arg0 (m := m) ρ c)

/-! ## The four agreements -/

/-- THE POOLED MEANS AGREE: what the first region leaves in its output array — the last point's write-back of the
    accumulated spatial sum times 2^-14 — is the reference's sum over both spatial axes divided by 16384. -/
theorem gap_eq (c : Dev Cert.KernelIdeal.nD) : Cert.KernelIdeal.Hand.W1 m ρ c (Proc.devRef .tc Cert.KernelIdeal.main_v0) = VA m' c (Proc.devRef .tc Cert.ReferenceIdeal.main_v2) :=
  calc Cert.KernelIdeal.Hand.W1 m ρ c (Proc.devRef .tc Cert.KernelIdeal.main_v0)
      = (Cert.KernelIdeal.Hand.dat0 (Cert.KernelIdeal.Hand.V0 m ρ) c).arrAt 1 Cert.KernelIdeal.cfg0.N := Cert.KernelIdeal.Hand.W1_arr m ρ c 1
    _ = _ := Cert.KernelIdeal.Hand.arr0_out (Cert.KernelIdeal.Hand.V0 m ρ) c
    _ = Cert.ReferenceIdeal.Hand.gapRef (F := Ideal) (m ((c.tc : Thread Cert.KernelIdeal.nD Cert.KernelIdeal.τ).loc Cert.KernelIdeal.main_arg0)) := Cert.Proof.GapValue.gap_math _
    _ = Cert.ReferenceIdeal.Hand.gapRef (F := Ideal) (launchContents m' c (Proc.devRef .tc Cert.ReferenceIdeal.main_arg0)) := congrArg _ (hag c).1.symm
    _ = VA m' c (Proc.devRef .tc Cert.ReferenceIdeal.main_v2) := (Cert.ReferenceIdeal.Hand.gap_read _).symm

/-- THE FILTER WEIGHTS AGREE: the same sixty operations on equal means and equal parameters; the padding that
    follows writes no weight. -/
theorem wts_eq (c : Dev Cert.KernelIdeal.nD) : Cert.KernelIdeal.Hand.W3 m ρ c (Proc.devRef .tc Cert.KernelIdeal.main_v49) = VC m' c (Proc.devRef .tc Cert.ReferenceIdeal.main_v51) :=
  calc Cert.KernelIdeal.Hand.W3 m ρ c (Proc.devRef .tc Cert.KernelIdeal.main_v49)
      = Cert.KernelIdeal.Hand.W2 m ρ c (Proc.devRef .tc Cert.KernelIdeal.main_v49) :=
        StableHlo.after_of_writes_sub Cert.KernelIdeal.Gen.hostOps1_1 _ Cert.KernelIdeal.Gen.hostOps1_1_writes (by decide : Cert.KernelIdeal.main_v49 ∉ Cert.KernelIdeal.Gen.hostOps1_1_W)
    _ = VB m' c (Proc.devRef .tc Cert.ReferenceIdeal.main_v51) :=
        Cert.Proof.HostValue.chain_sim (Cert.KernelIdeal.Hand.W1 m ρ c) (VA m' c) (gap_eq ρ hag c)
          ((W1_arg1 (m := m) ρ c).trans (refA_arg1 hag c).symm) ((W1_arg2 (m := m) ρ c).trans (refA_arg2 hag c).symm)
          ((W1_arg3 (m := m) ρ c).trans (refA_arg3 hag c).symm) ((W1_arg4 (m := m) ρ c).trans (refA_arg4 hag c).symm)
    _ = VC m' c (Proc.devRef .tc Cert.ReferenceIdeal.main_v51) := (Cert.ReferenceIdeal.Hand.opsC_of _ Cert.ReferenceIdeal.main_v51 (by decide)).symm

/-- THE PADDED SAMPLES AGREE: the same sixteen operations on equal samples. -/
theorem pad_eq (c : Dev Cert.KernelIdeal.nD) : Cert.KernelIdeal.Hand.W3 m ρ c (Proc.devRef .tc Cert.KernelIdeal.main_v50) = VC m' c (Proc.devRef .tc Cert.ReferenceIdeal.main_v52) :=
  Cert.Proof.HostValue.pad_sim (Cert.KernelIdeal.Hand.W2 m ρ c) (VB m' c) ((W2_arg0 (m := m) ρ c).trans (refB_arg0 hag c).symm)

/-- THE FILTERED OUTPUTS AGREE: at every index both are the nine-tap sum of the padded samples and the weights. -/
theorem low_eq (c : Dev Cert.KernelIdeal.nD) :
    after Cert.ReferenceIdeal.Hand.ops (launchContents m' c) (Proc.devRef .tc Cert.ReferenceIdeal.main_v116) = Cert.KernelIdeal.Hand.W4 m ρ c (Proc.devRef .tc Cert.KernelIdeal.main_v51_0) := by
  rw [Cert.ReferenceIdeal.Hand.after_ops]
  funext j
  rw [eq_ix4 j]
  exact
    calc after Cert.ReferenceIdeal.Hand.opsD (VC m' c) (Proc.devRef .tc Cert.ReferenceIdeal.main_v116) (ix4 (j 0) (j 1) (j 2) (j 3))
        = lowAt (VC m' c (Proc.devRef .tc Cert.ReferenceIdeal.main_v52)) (VC m' c (Proc.devRef .tc Cert.ReferenceIdeal.main_v51)) (j 0) (j 1) (j 2) (j 3) :=
          Cert.Proof.RefTaps.low_read _ _ _ _ _
      _ = lowAt (Cert.KernelIdeal.Hand.W3 m ρ c (Proc.devRef .tc Cert.KernelIdeal.main_v50)) (Cert.KernelIdeal.Hand.W3 m ρ c (Proc.devRef .tc Cert.KernelIdeal.main_v49)) (j 0) (j 1) (j 2) (j 3) := by
          rw [pad_eq ρ hag c, wts_eq ρ hag c]
      _ = (Cert.KernelIdeal.Hand.dat1 (F := Ideal) (Cert.KernelIdeal.Hand.V3 m ρ) c).arrAt 2 Cert.KernelIdeal.cfg1.N (ix4 (j 0) (j 1) (j 2) (j 3)) :=
          (Cert.Proof.FilterValue.low_value (Cert.KernelIdeal.Hand.V3 m ρ) c _ _ _ _).symm
      _ = Cert.KernelIdeal.Hand.W4 m ρ c (Proc.devRef .tc Cert.KernelIdeal.main_v51_0) (ix4 (j 0) (j 1) (j 2) (j 3)) := (congrFun (Cert.KernelIdeal.Hand.W4_arr m ρ c 2) _).symm

/-- THE RESIDUALS AGREE: the kernel subtracts the filtered output from the centre of the padded samples, the
    reference from the samples themselves; the centre of the padded array is the sample array. -/
theorem high_eq (c : Dev Cert.KernelIdeal.nD) :
    after Cert.ReferenceIdeal.Hand.ops (launchContents m' c) (Proc.devRef .tc Cert.ReferenceIdeal.main_v117) = Cert.KernelIdeal.Hand.W4 m ρ c (Proc.devRef .tc Cert.KernelIdeal.main_v51_1) := by
  rw [Cert.ReferenceIdeal.Hand.after_ops]
  funext j
  rw [eq_ix4 j]
  exact
    calc after Cert.ReferenceIdeal.Hand.opsD (VC m' c) (Proc.devRef .tc Cert.ReferenceIdeal.main_v117) (ix4 (j 0) (j 1) (j 2) (j 3))
        = @HSub.hSub EReal EReal EReal instHSub (VC m' c (Proc.devRef .tc Cert.ReferenceIdeal.main_arg0) (ix4 (j 0) (j 1) (j 2) (j 3)))
            (lowAt (VC m' c (Proc.devRef .tc Cert.ReferenceIdeal.main_v52)) (VC m' c (Proc.devRef .tc Cert.ReferenceIdeal.main_v51)) (j 0) (j 1) (j 2) (j 3)) :=
          Cert.Proof.RefTaps.high_read _ _ _ _ _
      _ = @HSub.hSub EReal EReal EReal instHSub (Cert.KernelIdeal.Hand.W3 m ρ c (Proc.devRef .tc Cert.KernelIdeal.main_v50) (ix4 (j 0) (j 1) (shift (j 2) 1) (shift (j 3) 1)))
            (lowAt (Cert.KernelIdeal.Hand.W3 m ρ c (Proc.devRef .tc Cert.KernelIdeal.main_v50)) (Cert.KernelIdeal.Hand.W3 m ρ c (Proc.devRef .tc Cert.KernelIdeal.main_v49)) (j 0) (j 1) (j 2) (j 3)) := by
          rw [pad_eq ρ hag c, wts_eq ρ hag c, refC_arg0 hag c,
            show VC m' c (Proc.devRef .tc Cert.ReferenceIdeal.main_v52) (ix4 (j 0) (j 1) (shift (j 2) 1) (shift (j 3) 1)) = m ((c.tc : Thread Cert.KernelIdeal.nD Cert.KernelIdeal.τ).loc Cert.KernelIdeal.main_arg0) (ix4 (j 0) (j 1) (j 2) (j 3)) from
              (congrFun (pad_eq ρ hag c).symm _).trans ((Cert.Proof.HostValue.pad_centre (Cert.KernelIdeal.Hand.W2 m ρ c) _ _ _ _).trans (congrFun (W2_arg0 (m := m) ρ c) _))]
      _ = (Cert.KernelIdeal.Hand.dat1 (F := Ideal) (Cert.KernelIdeal.Hand.V3 m ρ) c).arrAt 3 Cert.KernelIdeal.cfg1.N (ix4 (j 0) (j 1) (j 2) (j 3)) :=
          (Cert.Proof.FilterValue.high_value (Cert.KernelIdeal.Hand.V3 m ρ) c _ _ _ _).symm
      _ = Cert.KernelIdeal.Hand.W4 m ρ c (Proc.devRef .tc Cert.KernelIdeal.main_v51_1) (ix4 (j 0) (j 1) (j 2) (j 3)) := (congrFun (Cert.KernelIdeal.Hand.W4_arr m ρ c 3) _).symm

end

/-! ## The reference leaves its arguments as launched -/

theorem ref_arg0 (c : Dev Cert.ReferenceIdeal.nD) : after Cert.ReferenceIdeal.Hand.ops (launchContents m' c) (Proc.devRef .tc Cert.ReferenceIdeal.main_arg0) = m' ((c.tc : Thread Cert.ReferenceIdeal.nD Cert.ReferenceIdeal.τ).loc Cert.ReferenceIdeal.main_arg0) := by
  rw [Cert.ReferenceIdeal.Hand.after_ops]
  exact (Cert.ReferenceIdeal.Hand.opsD_of _ Cert.ReferenceIdeal.main_arg0 (by decide)).trans ((Cert.ReferenceIdeal.Hand.opsC_of _ Cert.ReferenceIdeal.main_arg0 (by decide)).trans
    ((Cert.ReferenceIdeal.Hand.opsB_of _ Cert.ReferenceIdeal.main_arg0 (by decide)).trans (Cert.ReferenceIdeal.Hand.opsA_of _ Cert.ReferenceIdeal.main_arg0 (by decide))))
theorem ref_arg1 (c : Dev Cert.ReferenceIdeal.nD) : after Cert.ReferenceIdeal.Hand.ops (launchContents m' c) (Proc.devRef .tc Cert.ReferenceIdeal.main_arg1) = m' ((c.tc : Thread Cert.ReferenceIdeal.nD Cert.ReferenceIdeal.τ).loc Cert.ReferenceIdeal.main_arg1) := by
  rw [Cert.ReferenceIdeal.Hand.after_ops]
  exact (Cert.ReferenceIdeal.Hand.opsD_of _ Cert.ReferenceIdeal.main_arg1 (by decide)).trans ((Cert.ReferenceIdeal.Hand.opsC_of _ Cert.ReferenceIdeal.main_arg1 (by decide)).trans
    ((Cert.ReferenceIdeal.Hand.opsB_of _ Cert.ReferenceIdeal.main_arg1 (by decide)).trans (Cert.ReferenceIdeal.Hand.opsA_of _ Cert.ReferenceIdeal.main_arg1 (by decide))))
theorem ref_arg2 (c : Dev Cert.ReferenceIdeal.nD) : after Cert.ReferenceIdeal.Hand.ops (launchContents m' c) (Proc.devRef .tc Cert.ReferenceIdeal.main_arg2) = m' ((c.tc : Thread Cert.ReferenceIdeal.nD Cert.ReferenceIdeal.τ).loc Cert.ReferenceIdeal.main_arg2) := by
  rw [Cert.ReferenceIdeal.Hand.after_ops]
  exact (Cert.ReferenceIdeal.Hand.opsD_of _ Cert.ReferenceIdeal.main_arg2 (by decide)).trans ((Cert.ReferenceIdeal.Hand.opsC_of _ Cert.ReferenceIdeal.main_arg2 (by decide)).trans
    ((Cert.ReferenceIdeal.Hand.opsB_of _ Cert.ReferenceIdeal.main_arg2 (by decide)).trans (Cert.ReferenceIdeal.Hand.opsA_of _ Cert.ReferenceIdeal.main_arg2 (by decide))))
theorem ref_arg3 (c : Dev Cert.ReferenceIdeal.nD) : after Cert.ReferenceIdeal.Hand.ops (launchContents m' c) (Proc.devRef .tc Cert.ReferenceIdeal.main_arg3) = m' ((c.tc : Thread Cert.ReferenceIdeal.nD Cert.ReferenceIdeal.τ).loc Cert.ReferenceIdeal.main_arg3) := by
  rw [Cert.ReferenceIdeal.Hand.after_ops]
  exact (Cert.ReferenceIdeal.Hand.opsD_of _ Cert.ReferenceIdeal.main_arg3 (by decide)).trans ((Cert.ReferenceIdeal.Hand.opsC_of _ Cert.ReferenceIdeal.main_arg3 (by decide)).trans
    ((Cert.ReferenceIdeal.Hand.opsB_of _ Cert.ReferenceIdeal.main_arg3 (by decide)).trans (Cert.ReferenceIdeal.Hand.opsA_of _ Cert.ReferenceIdeal.main_arg3 (by decide))))
theorem ref_arg4 (c : Dev Cert.ReferenceIdeal.nD) : after Cert.ReferenceIdeal.Hand.ops (launchContents m' c) (Proc.devRef .tc Cert.ReferenceIdeal.main_arg4) = m' ((c.tc : Thread Cert.ReferenceIdeal.nD Cert.ReferenceIdeal.τ).loc Cert.ReferenceIdeal.main_arg4) := by
  rw [Cert.ReferenceIdeal.Hand.after_ops]
  exact (Cert.ReferenceIdeal.Hand.opsD_of _ Cert.ReferenceIdeal.main_arg4 (by decide)).trans ((Cert.ReferenceIdeal.Hand.opsC_of _ Cert.ReferenceIdeal.main_arg4 (by decide)).trans
    ((Cert.ReferenceIdeal.Hand.opsB_of _ Cert.ReferenceIdeal.main_arg4 (by decide)).trans (Cert.ReferenceIdeal.Hand.opsA_of _ Cert.ReferenceIdeal.main_arg4 (by decide))))

end Cert.Proof.Bridge

end
-- ==== Proof.lean ====
/-
  The certificate of the two-stage adaptive filter: a pooled mean over the spatial axes (a grid accumulator over two
  row tiles), per-channel weights computed from it on the host (a gated projection, a layer normalisation, a softmax over
  the nine taps), a reflect padding, and a nine-tap weighted sum with its residual, against the same computation
  written with array operations.

  Frames. Each kernel program's @main is four items: the pooling region, sixty host operations, the sixteen
  operations of the padding, the filtering region. Each region is certified at the buffer contents it is entered
  from, the pooling region carrying its accumulator between its two points, and the items are composed in order; the
  word-level program and its idealization have the same text, so one argument, generic in the float instance, serves
  both. The reference is a straight line of host operations.

  Values. The idealization rewrote nothing, so `preserves` is trivial. For `algebraic`: the means agree (a product
  with 2^-14 is a quotient by 16384 on every extended real; a sum over 128 rows is the sum of its two halves), the
  weights and the padded samples are the same operations of equal operands, and at every index both programs add the
  same nine products in the same order; the residual uses that the centre of the padded array is the sample array.
  No finiteness of the inputs is used.
-/
import proofs.«100776_j22771916603489_1_alg».proof.Defs
import proofs.«100776_j22771916603489_1_alg».proof.Proof.Gen.Kernel
import proofs.«100776_j22771916603489_1_alg».proof.Proof.Gen.KernelIdeal
import proofs.«100776_j22771916603489_1_alg».proof.Proof.Gen.ReferenceIdeal
import proofs.«100776_j22771916603489_1_alg».proof.Proof.Gen.Pre_finite_inputs
import proofs.«100776_j22771916603489_1_alg».proof.Proof.KB.Run
import proofs.«100776_j22771916603489_1_alg».proof.Proof.KI.Run
import proofs.«100776_j22771916603489_1_alg».proof.Proof.RI.Run
import proofs.«100776_j22771916603489_1_alg».proof.Proof.Val.Glue
import Idealize.ShloMosaic.Adequacy
import Idealize.ShloMosaic.Init

noncomputable section

namespace Cert.Proof

open Idealize.ShloMosaic Idealize.ShloMosaic.TcCoe Idealize.SL.Sem Idealize.ShloMosaic.StableHlo

/-- The word-level program runs and leaves its arguments as launched. -/
theorem frame_k : Cert.frame_Kernel := fun m ρ _ => Cert.Kernel.Hand.frame m ρ

/-- So does its idealization: the same argument at the ideal instance. -/
theorem frame_ki : Cert.frame_KernelIdeal := fun m ρ _ => Cert.KernelIdeal.Hand.frame m ρ

/-- The reference is a line of host operations none of which writes an argument. -/
theorem frame_ri : Cert.frame_ReferenceIdeal := fun m ρ _ =>
  (θ_run Cert.ReferenceIdeal.defs _ _).mono (fun _ h c =>
    ⟨(h c Cert.ReferenceIdeal.main_arg0).trans (Bridge.ref_arg0 m c), (h c Cert.ReferenceIdeal.main_arg1).trans (Bridge.ref_arg1 m c),
     (h c Cert.ReferenceIdeal.main_arg2).trans (Bridge.ref_arg2 m c), (h c Cert.ReferenceIdeal.main_arg3).trans (Bridge.ref_arg3 m c),
     (h c Cert.ReferenceIdeal.main_arg4).trans (Bridge.ref_arg4 m c)⟩)
    (Cert.ReferenceIdeal.Hand.run_main (F := Ideal) m ρ)

/-- The idealization rewrote no operation. -/
theorem preserves : Cert.preserves_Kernel_KernelIdeal := trivial

/-- Both idealized programs end with the kernel program's two output arrays: the kernel's run names them, and
    the reference's results are equal to them index by index (`Bridge.low_eq`, `Bridge.high_eq`). -/
theorem algebraic : Cert.algebraic_KernelIdeal_ReferenceIdeal := by
  intro m ρ m' ρ' _ hagree
  refine ⟨fun c => Cert.KernelIdeal.Hand.W4 m ρ c (Proc.devRef .tc Cert.KernelIdeal.main_v51_0), fun c => Cert.KernelIdeal.Hand.W4 m ρ c (Proc.devRef .tc Cert.KernelIdeal.main_v51_1), ?_, ?_⟩
  · exact (θ_run Cert.KernelIdeal.defs _ _).mono (fun _ h c =>
      ⟨h c _ (Cert.KernelIdeal.Hand.mem_uc Cert.KernelIdeal.main_v51_0 (by decide)), h c _ (Cert.KernelIdeal.Hand.mem_uc Cert.KernelIdeal.main_v51_1 (by decide)),
       (h c _ (Cert.KernelIdeal.Hand.mem_uc Cert.KernelIdeal.main_arg0 (by decide))).trans (Cert.KernelIdeal.Hand.W4_main_arg0 m ρ c),
       (h c _ (Cert.KernelIdeal.Hand.mem_uc Cert.KernelIdeal.main_arg1 (by decide))).trans (Cert.KernelIdeal.Hand.W4_main_arg1 m ρ c),
       (h c _ (Cert.KernelIdeal.Hand.mem_uc Cert.KernelIdeal.main_arg2 (by decide))).trans (Cert.KernelIdeal.Hand.W4_main_arg2 m ρ c),
       (h c _ (Cert.KernelIdeal.Hand.mem_uc Cert.KernelIdeal.main_arg3 (by decide))).trans (Cert.KernelIdeal.Hand.W4_main_arg3 m ρ c),
       (h c _ (Cert.KernelIdeal.Hand.mem_uc Cert.KernelIdeal.main_arg4 (by decide))).trans (Cert.KernelIdeal.Hand.W4_main_arg4 m ρ c)⟩)
      (Cert.KernelIdeal.Hand.run (F := Ideal) m ρ)
  · exact (θ_run Cert.ReferenceIdeal.defs _ _).mono (fun _ h c =>
      ⟨(h c Cert.ReferenceIdeal.main_v116).trans (Bridge.low_eq ρ hagree c), (h c Cert.ReferenceIdeal.main_v117).trans (Bridge.high_eq ρ hagree c),
       (h c Cert.ReferenceIdeal.main_arg0).trans (Bridge.ref_arg0 m' c), (h c Cert.ReferenceIdeal.main_arg1).trans (Bridge.ref_arg1 m' c),
       (h c Cert.ReferenceIdeal.main_arg2).trans (Bridge.ref_arg2 m' c), (h c Cert.ReferenceIdeal.main_arg3).trans (Bridge.ref_arg3 m' c),
       (h c Cert.ReferenceIdeal.main_arg4).trans (Bridge.ref_arg4 m' c)⟩)
      (Cert.ReferenceIdeal.Hand.run_main (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
